-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : FVec F S800000x128 .f32) (main_arg2 : FVec F S800000x128 .f32) (main_arg3 : IVec S800000 32) (main_arg4 : IVec S800000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S800000x128 .f32 := Host.absf main_arg2
  let main_cst_2 : FVec F S_ .f32 := constant S_ .f32 0x7F800000#32
  let main_v10 : FVec F S800000x128 .f32 := broadcastInDim S800000x128 ![] bcast_S_S800000x128 main_cst_2
  let main_v11 : IVec S800000x128 1 := cmpf .olt main_v9 main_v10
  let main_c_3 : IVec S_ 1 := constantI S_ 1 1#1
  let main_v12 : IVec S_ 1 := (fun x v => Host.reduce IntOp.andi x v reducesTo_S800000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S50000x384 : Shape := ⟨2, ![50000, 384]⟩
abbrev S5000x128 : Shape := ⟨2, ![5000, 128]⟩
abbrev S5000x384 : Shape := ⟨2, ![5000, 384]⟩
abbrev S1x384 : Shape := ⟨2, ![1, 384]⟩
abbrev S4000x128 : Shape := ⟨2, ![4000, 128]⟩
abbrev S1x128 : Shape := ⟨2, ![1, 128]⟩
abbrev S_ : Shape := ⟨0, ![]⟩
abbrev S800000x1 : Shape := ⟨2, ![800000, 1]⟩
abbrev S800000x8 : Shape := ⟨2, ![800000, 8]⟩
abbrev S2000x128 : Shape := ⟨2, ![2000, 128]⟩
abbrev S2000x8 : Shape := ⟨2, ![2000, 8]⟩
abbrev S2000x16 : Shape := ⟨2, ![2000, 16]⟩
abbrev S2000 : Shape := ⟨1, ![2000]⟩
abbrev S2000x1 : Shape := ⟨2, ![2000, 1]⟩
abbrev S800000x8x16 : Shape := ⟨3, ![800000, 8, 16]⟩
abbrev S50000x8x16 : Shape := ⟨3, ![50000, 8, 16]⟩
abbrev S50000x8 : Shape := ⟨2, ![50000, 8]⟩
abbrev S50000x8x1 : Shape := ⟨3, ![50000, 8, 1]⟩

abbrev nBuf : Space → Nat
  | .hbm => 69
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000x128, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x384, .f32⟩
  | .hbm, ⟨16, _⟩ => ⟨S384, .f32⟩
  | .hbm, ⟨17, _⟩ => ⟨S50000x384, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S800000x128, .f32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S800000x8, .f32⟩
  | .hbm, ⟨53, _⟩ => ⟨S800000x8x16, .f32⟩
  | .hbm, ⟨54, _⟩ => ⟨S800000x8x16, .f32⟩
  | .hbm, ⟨55, _⟩ => ⟨S_, .f32⟩
  | .hbm, ⟨56, _⟩ => ⟨S50000x8x16, .f32⟩
  | .hbm, ⟨57, _⟩ => ⟨S800000x1, .i32⟩
  | .hbm, ⟨58, _⟩ => ⟨S50000x8x16, .f32⟩
  | .hbm, ⟨59, _⟩ => ⟨S_, .f32⟩
  | .hbm, ⟨60, _⟩ => ⟨S50000x8, .f32⟩
  | .hbm, ⟨61, _⟩ => ⟨S800000x1, .i32⟩
  | .hbm, ⟨62, _⟩ => ⟨S50000x8, .f32⟩
  | .hbm, ⟨63, _⟩ => ⟨S50000x8x1, .f32⟩
  | .hbm, ⟨64, _⟩ => ⟨S_, .f32⟩
  | .hbm, ⟨65, _⟩ => ⟨S50000x8x1, .f32⟩
  | .hbm, ⟨66, _⟩ => ⟨S50000x8x1, .f32⟩
  | .hbm, ⟨67, _⟩ => ⟨S50000x8x16, .f32⟩
  | .hbm, ⟨68, _⟩ => ⟨S50000x8x16, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S384, .f32⟩
  | .local _ .vmem, ⟨4, _⟩ => ⟨S5000x384, .f32⟩
  | .local _ .vmem, ⟨5, _⟩ => ⟨S5000x384, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x8, .f32⟩
  | .local _ .vmem, ⟨33, _⟩ => ⟨S2000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  inb_S5000x128_S5000x128_0_0 : ∀ a, (![0, 0] : Fin 2 → Nat) a + S5000x128.size a ≤ S5000x128.size a
  h_S5000x128 : 0 < S5000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S5000x384 : S1x384.Broadcasts S5000x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S800000 : S_.BroadcastsInDim S800000 (![] : Fin 0 → Fin S800000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S2000x128_o0_0_S2000x16 : S2000x128.Slices ![0, 0] S2000x16
  reduces_S2000x16_S2000 : S2000x16.Reduces [1] S2000
  shapeCasts_S2000_S2000x1 : S2000.ShapeCasts S2000x1
  slices_S2000x128_o0_16_S2000x16 : S2000x128.Slices ![0, 16] S2000x16
  slices_S2000x128_o0_32_S2000x16 : S2000x128.Slices ![0, 32] S2000x16
  slices_S2000x128_o0_48_S2000x16 : S2000x128.Slices ![0, 48] S2000x16
  slices_S2000x128_o0_64_S2000x16 : S2000x128.Slices ![0, 64] S2000x16
  slices_S2000x128_o0_80_S2000x16 : S2000x128.Slices ![0, 80] S2000x16
  slices_S2000x128_o0_96_S2000x16 : S2000x128.Slices ![0, 96] S2000x16
  slices_S2000x128_o0_112_S2000x16 : S2000x128.Slices ![0, 112] S2000x16
  concatenates_S2000x1_S2000x1_S2000x1_S2000x1_S2000x1_S2000x1_S2000x1_S2000x1_S2000x8_d1 : Shape.Concatenates [S2000x1, S2000x1, S2000x1, S2000x1, S2000x1, S2000x1, S2000x1, S2000x1] S2000x8 1
  inb_S2000x8_S2000x8_0_0 : ∀ a, (![0, 0] : Fin 2 → Nat) a + S2000x8.size a ≤ S2000x8.size a
  h_S2000x8 : 0 < S2000x8.numel
  slices_S2000x8_o0_0_S2000x1 : S2000x8.Slices ![0, 0] S2000x1
  shapeCasts_S2000x1_S2000x1 : S2000x1.ShapeCasts S2000x1
  broadcasts_S2000x1_S2000x16 : S2000x1.Broadcasts S2000x16
  slices_S2000x8_o0_1_S2000x1 : S2000x8.Slices ![0, 1] S2000x1
  slices_S2000x8_o0_2_S2000x1 : S2000x8.Slices ![0, 2] S2000x1
  slices_S2000x8_o0_3_S2000x1 : S2000x8.Slices ![0, 3] S2000x1
  slices_S2000x8_o0_4_S2000x1 : S2000x8.Slices ![0, 4] S2000x1
  slices_S2000x8_o0_5_S2000x1 : S2000x8.Slices ![0, 5] S2000x1
  slices_S2000x8_o0_6_S2000x1 : S2000x8.Slices ![0, 6] S2000x1
  slices_S2000x8_o0_7_S2000x1 : S2000x8.Slices ![0, 7] S2000x1
  concatenates_S2000x16_S2000x16_S2000x16_S2000x16_S2000x16_S2000x16_S2000x16_S2000x16_S2000x128_d1 : Shape.Concatenates [S2000x16, S2000x16, S2000x16, S2000x16, S2000x16, S2000x16, S2000x16, S2000x16] S2000x128 1
  shapeCasts_S800000x128_S800000x8x16 : S800000x128.ShapeCasts S800000x8x16
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S5000x128_S128x384_S5000x384_1_0_0_1_n_n_wf : DotDims.WF S5000x128 S128x384 S5000x384 [1] [0] [0] [1] [] []
  dot_S4000x128_S128x128_S4000x128_1_0_0_1_n_n_wf : DotDims.WF S4000x128 S128x128 S4000x128 [1] [0] [0] [1] [] []
  gather_S50000x128_S800000x1_S800000x128_1_0_n_n_0_1_1128_wf : GatherDims.WF S50000x128 S800000x1 S800000x128 [1] [0] [] [0] [] 1 ![1, 128]
  scatter_S50000x8x16_S800000x1_S800000x8x16_12_0_0_1_wf : ScatterDims.WF S50000x8x16 S800000x1 S800000x8x16 [1, 2] [0] [0] 1
  scatter_S50000x8_S800000x1_S800000x8_1_0_0_1_wf : ScatterDims.WF S50000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x384.size a ≤ S50000x384.size a
  hwx0_3 : ∀ i : grid0.Coords, EltTy.bits .f32 = 32 ∨ (Rect.block (s := S50000x384) S5000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S800000x128.size a
  hwx1_6 : ∀ i : grid1.Coords, EltTy.bits .f32 = 32 ∨ (Rect.block (s := S800000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S800000x128.size a
  hwx1_7 : ∀ i : grid1.Coords, EltTy.bits .f32 = 32 ∨ (Rect.block (s := S800000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S800000x128.size a
  hwx2_0 : ∀ i : grid2.Coords, EltTy.bits .f32 = 32 ∨ (Rect.block (s := S800000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S800000x128.size a
  hwx2_1 : ∀ i : grid2.Coords, EltTy.bits .f32 = 32 ∨ (Rect.block (s := S800000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S800000x128.size a
  hwx2_2 : ∀ i : grid2.Coords, EltTy.bits .f32 = 32 ∨ (Rect.block (s := S800000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S800000x128.size a
  hwx2_3 : ∀ i : grid2.Coords, EltTy.bits .f32 = 32 ∨ (Rect.block (s := S800000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S800000x128.size a
  hwx2_4 : ∀ i : grid2.Coords, EltTy.bits .f32 = 32 ∨ (Rect.block (s := S800000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S800000x128.size a
  hwx2_5 : ∀ i : grid2.Coords, EltTy.bits .f32 = 32 ∨ (Rect.block (s := S800000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S800000x128.size a
  hwx2_6 : ∀ i : grid2.Coords, EltTy.bits .f32 = 32 ∨ (Rect.block (s := S800000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x8.size a ≤ S800000x8.size a
  hwx2_7 : ∀ i : grid2.Coords, EltTy.bits .f32 = 32 ∨ (Rect.block (s := S800000x8) S2000x8.size (cc2_transform_7 i) (hinb2_7 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6_0) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_1) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v13) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6_0) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6_1) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v28_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v28_1) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v28_2) S2000x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000x128, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S50000x8x16, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S50000x8x16, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S50000x8x16, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S800000x8x16, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S800000x8x16, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x8x16, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x8x16, .f32⟩
  | .hbm, ⟨58, _⟩ => ⟨S800000x8x16, .f32⟩
  | .hbm, ⟨59, _⟩ => ⟨S_, .f32⟩
  | .hbm, ⟨60, _⟩ => ⟨S_, .f32⟩
  | .hbm, ⟨61, _⟩ => ⟨S800000x8x16, .f32⟩
  | .hbm, ⟨62, _⟩ => ⟨S800000x8x16, .f32⟩
  | .hbm, ⟨63, _⟩ => ⟨S800000x8x16, .f32⟩
  | .hbm, ⟨64, _⟩ => ⟨S800000x8x16, .f32⟩
  | .hbm, ⟨65, _⟩ => ⟨S_, .f32⟩
  | .hbm, ⟨66, _⟩ => ⟨S800000x8, .f32⟩
  | .hbm, ⟨67, _⟩ => ⟨S800000x8x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S800000x8x1, .f32⟩
  | .hbm, ⟨72, _⟩ => ⟨S800000x8x1, .f32⟩
  | .hbm, ⟨73, _⟩ => ⟨S_, .f32⟩
  | .hbm, ⟨74, _⟩ => ⟨S800000x8x1, .f32⟩
  | .hbm, ⟨75, _⟩ => ⟨S800000x8x1, .f32⟩
  | .hbm, ⟨76, _⟩ => ⟨S800000x8x1, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x8x16, .f32⟩
  | .hbm, ⟨86, _⟩ => ⟨S800000x8x16, .f32⟩
  | .hbm, ⟨87, _⟩ => ⟨S800000x8x16, .f32⟩
  | .hbm, ⟨88, _⟩ => ⟨S_, .f32⟩
  | .hbm, ⟨89, _⟩ => ⟨S50000x8x16, .f32⟩
  | .hbm, ⟨90, _⟩ => ⟨S800000x1, .i32⟩
  | .hbm, ⟨91, _⟩ => ⟨S50000x8x16, .f32⟩
  | .hbm, ⟨92, _⟩ => ⟨S_, .f32⟩
  | .hbm, ⟨93, _⟩ => ⟨S50000x8x1, .f32⟩
  | .hbm, ⟨94, _⟩ => ⟨S800000x1, .i32⟩
  | .hbm, ⟨95, _⟩ => ⟨S50000x8x1, .f32⟩
  | .hbm, ⟨96, _⟩ => ⟨S_, .f32⟩
  | .hbm, ⟨97, _⟩ => ⟨S50000x8x1, .f32⟩
  | .hbm, ⟨98, _⟩ => ⟨S50000x8x1, .f32⟩
  | .hbm, ⟨99, _⟩ => ⟨S50000x8x16, .f32⟩
  | .hbm, ⟨100, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_1 : Ref sig .tc := ⟨.hbm, 49, rfl⟩
abbrev main_v32 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_cst_5 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v47 : Ref sig .tc := ⟨.hbm, 75, rfl⟩
abbrev main_v48 : Ref sig .tc := ⟨.hbm, 76, rfl⟩
abbrev main_c_6 : Ref sig .tc := ⟨.hbm, 77, rfl⟩
abbrev main_v49 : Ref sig .tc := ⟨.hbm, 78, rfl⟩
abbrev main_v50 : Ref sig .tc := ⟨.hbm, 79, rfl⟩
abbrev main_c_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S800000x128_0_1 : S1x128.BroadcastsInDim S800000x128 (![0, 1] : Fin 2 → Fin S800000x128.rank)
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.LibRegionHeld.lean ====
/-
  A kernel region of a TensorCore program whose main function is followed through ONE valuation of the core's
  unscoped buffers.

  Between two items of such a program (a stretch of host operations, a kernel region) a core holds every unscoped
  TensorCore buffer whole, at a valuation `W c`, beside its generator register at some state and the fact that it
  owes nothing. A stretch of host operations moves the valuation along its fold. This file says what a kernel region
  does to it, as the pipeline library's region record:

    * at the entry the windows' arrays are cut out of the unscoped buffers, at the contents the proof data name
      for them (`hA`), the other unscoped buffers bypassing the region;
    * the generator register and the scoped buffers no window stages travel through the class invariant `ΦA`, from
      which the proof data's own invariant is reached at the first point (`hΦin`) and into which it falls back at
      the last (`hΦout`);
    * the body owes nothing at any point, holds every input array whole, and the kernel has no cell of its own;
    * at the exit the arrays return at what the write-backs leave, `Dat.arrAt · N`, and with the bypassing buffers
      they are the unscoped buffers again, whole at any valuation `W' c` that has the arrays there (`hF`) and
      agrees with `W c` everywhere else (`hrest`).

  The region is then entered from "the unscoped buffers at `W`" and left at "the unscoped buffers at `W'`", the
  same shape a host stretch is entered from and left at, so that the items of a main function chain by reflexivity.
-/
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

/-! ## A core that owes nothing, and a proof data's account of what it owes -/

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

/-- A core that owes nothing, whatever pairs its waits have recorded, is the proof data's account before point `t`
    when the data owe nothing there and put no bound on the recorded pairs. -/
theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

/-- Conversely the account before a point where the data owe nothing is a core that owes nothing. -/
theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

/-- A pipeline with no prefetched table holds none: there is nothing to ask for. -/
theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

/-! ## The exit valuation: the entry valuation with the arrays replaced -/

section Exit

variable {gr : Nat} {Wn : Nat} (win : Fin Wn → WinSpec sig gr) (c : Dev nD) (V : Valuation τ sig Val)
  (A : (w : Fin Wn) → Buf Val ((win w).arr.view.loc (c : Thread nD τ)))

/-- `withArrays` has each array at the contents given for it (the arrays being distinct buffers), -/
theorem withArrays_hF (hinj : Function.Injective (arrRef win)) (w : Fin Wn) :
    A w = withArrays win c V A (Proc.devRef .tc (arrRef win w)) :=
  (withArrays_arr win hinj c V A w).symm

/-- and every buffer that is no window's array at the valuation it started from. -/
theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

/-! ## The thread state between two items, and the region over it -/

section Held

variable {U : Type} [URA U] {P : Type} [Fintype P]

local notation "𝕄" => MT nD τ sig Unit Val ℕ U ℕ

/-- What rides beside the unscoped buffers between two items of the main function: the core's generator register at
    some state, and the core owing nothing. -/
abbrev idleRest (c : Dev nD) : sProp 𝕄 :=
  iprop((∃ r, prngReg c r) ∗ ∃ S, owes (c : Thread nD τ) (0 : CellTallies nD τ sig Unit) S)

/-- The thread state between two items: every unscoped TensorCore buffer whole at the valuation, beside `idleRest`. -/
abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

-- the library's lemmas on the arrays are stated over `pin pcs a p`; meeting them from a goal that names the pipeline's
-- own fields takes unfolding plain definitions inside types
set_option backward.isDefEq.respectTransparency.types false in
/-- THE REGION OVER A HELD VALUATION. Pipeline `p`'s region, entered from `heldIdle W` and left at `heldIdle W'`:
    given the layout the launch decides (`hw`, `hpos`, `harr`, `hstage`), no prefetched table to hold (`hpre`), the
    body obligation of proof data that hold every input array whole (`hq`), owe nothing (`howed`, `hrec`), enter
    at the arrays' contents under `W` (`hA`) and reach `W'` (`hF`, `hrest`), and whose invariant begins below and ends
    above the class invariant `ΦA` (`hΦin`, `hΦout`). The kernel has no semaphore of its own. -/
def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'
  -- into the invariant and out of it: the generator register
  X c := iprop(∃ r, prngReg c r)
  Y c := iprop(∃ r, prngReg c r)
  -- past the region: the unscoped buffers that are no window's array, as entered
  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.KI.Body0.lean ====
/-
  The node-projection kernel (the first pallas_call: ten grid points, each a block of 5000 rows of the node features
  against the whole 128 x 384 weight matrix and the 384 biases) as the pipeline library's proof data, at any float
  instance and at any contents `V` of the core's buffers at the region's entry.

  At a grid point the three input windows hold their blocks of the arrays as entered (the weight and bias windows hold
  the whole arrays, fetched once and never moved), and the body leaves in the output window the one value it stores,
  the product of the row block with the weights plus the biases broadcast over the rows. Nothing is owed, every array is
  held whole, and the invariant is the class invariant: the scoped buffers no window stages and the generator register
  pass through untouched.
-/
import proofs.«127344_j38285338476696_1_alg».proof.Proof.Gen.KernelIdeal.Launch
import proofs.«127344_j38285338476696_1_alg».proof.Proof.Gen.KernelIdeal.Skeleton
import proofs.«127344_j38285338476696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a window that is
    not fetched at a point has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each is the whole of its buffer. -/
abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S384 := Rect.unit (s := S384) ![0] S384.size inb_S384_S384_0
abbrev r0_3 : Rect S5000x384 := Rect.unit (s := S5000x384) ![0, 0] S5000x384.size inb_S5000x384_S5000x384_0_0

/-- The output window's staging buffer after the body, from the input windows' blocks: its one store. -/
def out0_3 (x0 : Vec F S5000x128 .f32) (x1 : Vec F S128x384 .f32) (x2 : Vec F S384 .f32) : Vec F S5000x384 .f32 :=
  View.canon [⟨r0_3, k0_pay1 (View.ld x0 r0_0) (View.ld x1 r0_1) (View.ld x2 r0_2)⟩]

/-- The one store is of the whole buffer, so it covers it. -/
theorem cover0_3 (p0 : Vec F S5000x384 .f32) (y : S5000x384.Idx) :
    ∃ pc ∈ ([⟨r0_3, p0⟩] : List (View.Piece (Elt F) S5000x384 .f32)), y ∈ pc.1.set :=
  View.cover_of_tiled [⟨r0_3, p0⟩] S5000x384.size (by rfl) y

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords) (arg0 : Memref sig .tc .vmem S5000x128 .f32) (harg0 : arg0.IsWhole) (arg1 : Memref sig .tc .vmem S128x384 .f32) (harg1 : arg1.IsWhole) (arg2 : Memref sig .tc .vmem S384 .f32) (harg2 : arg2.IsWhole) (arg3 : Memref sig .tc .vmem S5000x384 .f32) (harg3 : arg3.IsWhole)
    (x0 : Vec F S5000x128 .f32) (x1 : Vec F S128x384 .f32) (x2 : Vec F S384 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__node_proj_kernel i arg0 harg0 arg1 harg1 arg2 harg2 arg3 harg3) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body at a point
    each input's buffer at its block and the output's at `out0_3` of the input blocks; the class invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The edge-projection kernel (the second pallas_call: two hundred grid points, each a block of 4000 rows of the edge
  features and a block of 4000 rows of the second edge array, against two whole 128 x 128 weight matrices and their two
  rows of 128 biases) as the pipeline library's proof data, at any float instance and at any contents `V` of the core's
  buffers at the region's entry.

  At a grid point the six input windows hold their blocks of the arrays as entered (the two weight and the two bias
  windows hold the whole arrays, fetched once and never moved), and the body leaves in each of the two output windows
  the one value it stores there: two affine maps of a 4000-row edge block, the first row block times the first weights
  plus the first biases broadcast over the rows, and the second row block times the second weights plus the second
  biases broadcast over the rows. Nothing is owed, every array is held whole, and the invariant is the class invariant:
  the scoped buffers no window stages and the generator register pass through untouched.
-/
import proofs.«127344_j38285338476696_1_alg».proof.Proof.Gen.KernelIdeal.Launch
import proofs.«127344_j38285338476696_1_alg».proof.Proof.Gen.KernelIdeal.Skeleton
import proofs.«127344_j38285338476696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: a window that is
    not fetched at a point has not moved since it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each is the whole of its buffer. -/
abbrev r1_a : Rect S4000x128 := Rect.unit (s := S4000x128) ![0, 0] S4000x128.size inb_S4000x128_S4000x128_0_0
abbrev r1_w : Rect S128x128 := Rect.unit (s := S128x128) ![0, 0] S128x128.size inb_S128x128_S128x128_0_0
abbrev r1_b : Rect S128 := Rect.unit (s := S128) ![0] S128.size inb_S128_S128_0

/-- The first output window's staging buffer after the body, from the input windows' blocks: its one store. -/
def out1_6 (x0 : Vec F S4000x128 .f32) (x2 : Vec F S128x128 .f32) (x3 : Vec F S128 .f32) : Vec F S4000x128 .f32 :=
  View.canon [⟨r1_a, k1_pay1 (View.ld x0 r1_a) (View.ld x2 r1_w) (View.ld x3 r1_b)⟩]

/-- The second output window's staging buffer after the body, from the input windows' blocks: its one store. -/
def out1_7 (x1 : Vec F S4000x128 .f32) (x4 : Vec F S128x128 .f32) (x5 : Vec F S128 .f32) : Vec F S4000x128 .f32 :=
  View.canon [⟨r1_a, k1_pay2 (View.ld x1 r1_a) (View.ld x4 r1_w) (View.ld x5 r1_b)⟩]

/-- A store of the whole buffer covers it. -/
theorem cover1_a (p0 : Vec F S4000x128 .f32) (y : S4000x128.Idx) :
    ∃ pc ∈ ([⟨r1_a, p0⟩] : List (View.Piece (Elt F) S4000x128 .f32)), y ∈ pc.1.set :=
  View.cover_of_tiled [⟨r1_a, p0⟩] S4000x128.size (by rfl) y

set_option maxHeartbeats 1000000 in
/-- The body on whole staging memrefs, the inputs' at read contents and the outputs' at anything, runs to the
    continuation holding the inputs' as they were and the two outputs' at `out1_6` and `out1_7` of the inputs'. -/
theorem sound_kernel1 (c : Dev nD) (E : Set ℕ) (i : grid1.Coords) (arg0 : Memref sig .tc .vmem S4000x128 .f32) (harg0 : arg0.IsWhole) (arg1 : Memref sig .tc .vmem S4000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S4000x128 .f32) (harg6 : arg6.IsWhole) (arg7 : Memref sig .tc .vmem S4000x128 .f32) (harg7 : arg7.IsWhole)
    (x0 : Vec F S4000x128 .f32) (x1 : Vec F S4000x128 .f32) (x2 : Vec F S128x128 .f32) (x3 : Vec F S128 .f32) (x4 : Vec F S128x128 .f32) (x5 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x2 x3) ∗ owns (c : Thread nD τ) arg7 fullShare (out1_7 x1 x4 x5)) -∗ K ⟨⟩))
      ⊢ wp frame (wpE (defs₀ (F := F)) Variants.none c none) E (cc1__edge_proj_kernel i arg0 harg0 arg1 harg1 arg2 harg2 arg3 harg3 arg4 harg4 arg5 harg5 arg6 harg6 arg7 harg7) K := by
  simp only [cc1__edge_proj_kernel_eq_skeleton]; unfold cc1__edge_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_a _)
  iexists _; isplitr
  swap; · iexact H7
  ipureintro
  exact View.read_writes_eq_canon _ _ _ (cover1_a _)

/-- The proof data of the second pipeline on core `c`: the arrays as the region finds them; after the body at a point
    each input's buffer at its block and the two outputs' at `out1_6` and `out1_7` of the input blocks; the class
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 3 t)
    | ⟨7, _⟩ => out1_7 (iblk1 V c 1 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 2 t) (iblk1 V c 3 t) := by dsimp only [dat1]
theorem after1_7 (c : Dev nD) (t : Fin cfg1.N) : (dat1 V c).after 7 t = out1_7 (iblk1 V c 1 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The edge-attention kernel (the third pallas_call: four hundred grid points, each a block of 2000 edges) as the
  pipeline library's proof data, at any float instance and at any contents `V` of the core's buffers at the region's
  entry.

  At a grid point the five input windows hold their blocks of the arrays as entered: the gathered keys, queries and
  values of the block's edges and the two edge maps. The body leaves three values in the three output windows. The
  scores: key times query, scaled by a quarter, plus the second edge map, times the first edge map, entry by entry. The
  weights: per edge and per head the sum of the head's sixteen score channels, clamped to [-5, 5] and exponentiated.
  The weighted values: the values with each head's sixteen channels scaled by the head's weight. Nothing is owed, every
  array is held whole, and the invariant is the class invariant: the scoped buffers no window stages and the generator
  register pass through untouched.
-/
import proofs.«127344_j38285338476696_1_alg».proof.Proof.Gen.KernelIdeal.Launch
import proofs.«127344_j38285338476696_1_alg».proof.Proof.Gen.KernelIdeal.Skeleton
import proofs.«127344_j38285338476696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point: every input window is fetched at every
    point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each is the whole of its buffer. -/
abbrev r2_a : Rect S2000x128 := Rect.unit (s := S2000x128) ![0, 0] S2000x128.size inb_S2000x128_S2000x128_0_0
abbrev r2_s : Rect S2000x8 := Rect.unit (s := S2000x8) ![0, 0] S2000x8.size inb_S2000x8_S2000x8_0_0

/-- The scores window's staging buffer after the body, from the keys', queries' and two edge maps' blocks. -/
def out2_5 (x0 x1 x3 x4 : Vec F S2000x128 .f32) : Vec F S2000x128 .f32 :=
  View.canon [⟨r2_a, k2_pay4 (View.ld x0 r2_a) (View.ld x1 r2_a) (View.ld x3 r2_a) (View.ld x4 r2_a)⟩]

/-- The weights window's staging buffer after the body: the clamped exponentials of the eight heads' channel sums. -/
def out2_7 (x0 x1 x3 x4 : Vec F S2000x128 .f32) : Vec F S2000x8 .f32 :=
  View.canon [⟨r2_s, k2_pay1 (k2_pay5 (View.ld x0 r2_a) (View.ld x1 r2_a) (View.ld x3 r2_a) (View.ld x4 r2_a)) (k2_pay6 (View.ld x0 r2_a) (View.ld x1 r2_a) (View.ld x3 r2_a) (View.ld x4 r2_a)) (k2_pay7 (View.ld x0 r2_a) (View.ld x1 r2_a) (View.ld x3 r2_a) (View.ld x4 r2_a)) (k2_pay8 (View.ld x0 r2_a) (View.ld x1 r2_a) (View.ld x3 r2_a) (View.ld x4 r2_a)) (k2_pay9 (View.ld x0 r2_a) (View.ld x1 r2_a) (View.ld x3 r2_a) (View.ld x4 r2_a)) (k2_pay10 (View.ld x0 r2_a) (View.ld x1 r2_a) (View.ld x3 r2_a) (View.ld x4 r2_a)) (k2_pay11 (View.ld x0 r2_a) (View.ld x1 r2_a) (View.ld x3 r2_a) (View.ld x4 r2_a)) (k2_pay12 (View.ld x0 r2_a) (View.ld x1 r2_a) (View.ld x3 r2_a) (View.ld x4 r2_a))⟩]

/-- The weighted-values window's staging buffer after the body: the values' block scaled head by head by the weights. -/
def out2_6 (x0 x1 x2 x3 x4 : Vec F S2000x128 .f32) : Vec F S2000x128 .f32 :=
  View.canon [⟨r2_a, k2_pay2 (k2_pay3 (View.ld x2 r2_a)) (k2_pay5 (View.ld x0 r2_a) (View.ld x1 r2_a) (View.ld x3 r2_a) (View.ld x4 r2_a)) (k2_pay6 (View.ld x0 r2_a) (View.ld x1 r2_a) (View.ld x3 r2_a) (View.ld x4 r2_a)) (k2_pay7 (View.ld x0 r2_a) (View.ld x1 r2_a) (View.ld x3 r2_a) (View.ld x4 r2_a)) (k2_pay8 (View.ld x0 r2_a) (View.ld x1 r2_a) (View.ld x3 r2_a) (View.ld x4 r2_a)) (k2_pay9 (View.ld x0 r2_a) (View.ld x1 r2_a) (View.ld x3 r2_a) (View.ld x4 r2_a)) (k2_pay10 (View.ld x0 r2_a) (View.ld x1 r2_a) (View.ld x3 r2_a) (View.ld x4 r2_a)) (k2_pay11 (View.ld x0 r2_a) (View.ld x1 r2_a) (View.ld x3 r2_a) (View.ld x4 r2_a)) (k2_pay12 (View.ld x0 r2_a) (View.ld x1 r2_a) (View.ld x3 r2_a) (View.ld x4 r2_a))⟩]

/-- A store of the whole buffer covers it. -/
theorem cover2_a (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y
theorem cover2_5 (p0 : Vec F S2000x128 .f32) (y : S2000x128.Idx) :
    ∃ pc ∈ ([⟨r2_a, p0⟩] : List (View.Piece (Elt F) S2000x128 .f32)), y ∈ pc.1.set := cover2_a p0 y
theorem cover2_6 (p0 : Vec F S2000x128 .f32) (y : S2000x128.Idx) :
    ∃ pc ∈ ([⟨r2_a, p0⟩] : List (View.Piece (Elt F) S2000x128 .f32)), y ∈ pc.1.set := cover2_a p0 y
theorem cover2_7 (p0 : Vec F S2000x8 .f32) (y : S2000x8.Idx) :
    ∃ pc ∈ ([⟨r2_s, p0⟩] : List (View.Piece (Elt F) S2000x8 .f32)), y ∈ pc.1.set :=
  View.cover_of_tiled [⟨r2_s, p0⟩] S2000x8.size (by rfl) y

set_option maxHeartbeats 4000000 in
/-- The body on whole staging memrefs, the inputs' at read contents and the outputs' at anything, runs to the
    continuation holding the inputs' as they were and the outputs' at `out2_5`, `out2_6`, `out2_7` of the inputs'. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x8 .f32) (harg8 : arg8.IsWhole)
    (x0 x1 x2 x3 x4 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x3 x4) ∗ owns (c : Thread nD τ) arg7 fullShare (out2_6 x0 x1 x2 x3 x4) ∗ owns (c : Thread nD τ) arg8 fullShare (out2_7 x0 x1 x3 x4)) -∗ K ⟨⟩))
      ⊢ wp frame (wpE (defs₀ (F := F)) Variants.none c none) E (cc2__edge_attn_kernel i arg1 harg1 arg2 harg2 arg3 harg3 arg4 harg4 arg5 harg5 arg6 harg6 arg7 harg7 arg8 harg8) K := by
  simp only [cc2__edge_attn_kernel_eq_skeleton]; unfold cc2__edge_attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-- The proof data of the third pipeline on core `c`: the arrays as the region finds them; after the body at a point
    each input's buffer at its block and the three outputs' at `out2_5`, `out2_6`, `out2_7` of the input blocks; the
    class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 3 t) (iblk2 V c 4 t)
    | ⟨6, _⟩ => out2_6 (iblk2 V c 0 t) (iblk2 V c 1 t) (iblk2 V c 2 t) (iblk2 V c 3 t) (iblk2 V c 4 t)
    | ⟨7, _⟩ => out2_7 (iblk2 V c 0 t) (iblk2 V c 1 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]
theorem after2_7 (c : Dev nD) (t : Fin cfg2.N) : (dat2 V c).after 7 t = out2_7 (iblk2 V c 0 t) (iblk2 V c 1 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole run of the program: three kernel regions among four stretches of host operations.

  Between two items a core holds every unscoped buffer whole at a valuation. The valuations are a fold through the
  main function: a stretch of host operations moves the valuation along its operations; a kernel region replaces its
  windows' arrays by what its write-backs leave and keeps every other buffer. Each region is entered from the valuation
  before it and left at the one after it, so the items chain, and every weakly fair execution from a memory with zero
  counters terminates with every unscoped buffer at the last valuation. An argument array is written by no host
  operation and is no region's output, so the last valuation has it as launched.
-/
import proofs.«127344_j38285338476696_1_alg».proof.Proof.Gen.KernelIdeal.Launch
import proofs.«127344_j38285338476696_1_alg».proof.Proof.Gen.KernelIdeal.Skeleton
import proofs.«127344_j38285338476696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«127344_j38285338476696_1_alg».proof.Proof.Gen.KernelIdeal.Regions
import proofs.«127344_j38285338476696_1_alg».proof.Proof.LibRegionHeld
import proofs.«127344_j38285338476696_1_alg».proof.Proof.KI.Body0
import proofs.«127344_j38285338476696_1_alg».proof.Proof.KI.Body1
import proofs.«127344_j38285338476696_1_alg».proof.Proof.KI.Body2
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the items -/

/-- Core `c`'s buffers at launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the third stretch (the third region's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the third region's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- After the last stretch: the end. -/
abbrev W7 : Dev nD → Valuation τ sig (Elt F) := fun c => StableHlo.after hostOps3 (W6 m c)

/-- At a region's exit each of its arrays holds what the pipeline leaves and every other buffer what it held. -/
theorem hF0 (c : Dev nD) (w : Fin cfg0.W) : (dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) := (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) := (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## What each item leaves unchanged -/

theorem W1_keep (c : Dev nD) (b : Ref sig .tc) (h : b ∉ (hostOps0_W : List (Ref sig .tc))) : W1 m c b = W0 m c b :=
  StableHlo.after_of_writes_sub hostOps0 _ hostOps0_writes h
theorem W3_keep (c : Dev nD) (b : Ref sig .tc) (h : b ∉ (hostOps1_W : List (Ref sig .tc))) : W3 m c b = W2 m c b :=
  StableHlo.after_of_writes_sub hostOps1 _ hostOps1_writes h
theorem W5_keep (c : Dev nD) (b : Ref sig .tc) (h : b ∉ (hostOps2_W : List (Ref sig .tc))) : W5 m c b = W4 m c b :=
  StableHlo.after_of_writes_sub hostOps2 _ hostOps2_writes h
theorem W7_keep (c : Dev nD) (b : Ref sig .tc) (h : b ∉ (hostOps3_W : List (Ref sig .tc))) : W7 m c b = W6 m c b :=
  StableHlo.after_of_writes_sub hostOps3 _ hostOps3_writes h

/-- The first region changes only its output array. -/
theorem W2_keep (c : Dev nD) (b : Ref sig .tc) (hb : b ≠ main_v2) : W2 m c b = W1 m c b := by
  by_cases h : ∃ w, Pipeline.arrRef spec0 w = b
  · obtain ⟨w, rfl⟩ := h
    match w with
    | ⟨0, _⟩ => exact (W2_arr m c 0).trans (((dat0 (V1 m) c).arrAt_in 0 rfl _).trans (A_eq0 (V1 m) c 0))
    | ⟨1, _⟩ => exact (W2_arr m c 1).trans (((dat0 (V1 m) c).arrAt_in 1 rfl _).trans (A_eq0 (V1 m) c 1))
    | ⟨2, _⟩ => exact (W2_arr m c 2).trans (((dat0 (V1 m) c).arrAt_in 2 rfl _).trans (A_eq0 (V1 m) c 2))
    | ⟨3, _⟩ => exact absurd rfl hb
  · exact W2_of_ne m c b fun w e => h ⟨w, e⟩

/-- The second region changes only its two output arrays. -/
theorem W4_keep (c : Dev nD) (b : Ref sig .tc) (hb0 : b ≠ main_v6_0) (hb1 : b ≠ main_v6_1) : W4 m c b = W3 m c b := by
  by_cases h : ∃ w, Pipeline.arrRef spec1 w = b
  · obtain ⟨w, rfl⟩ := h
    match w with
    | ⟨0, _⟩ => exact (W4_arr m c 0).trans (((dat1 (V3 m) c).arrAt_in 0 rfl _).trans (A_eq1 (V3 m) c 0))
    | ⟨1, _⟩ => exact (W4_arr m c 1).trans (((dat1 (V3 m) c).arrAt_in 1 rfl _).trans (A_eq1 (V3 m) c 1))
    | ⟨2, _⟩ => exact (W4_arr m c 2).trans (((dat1 (V3 m) c).arrAt_in 2 rfl _).trans (A_eq1 (V3 m) c 2))
    | ⟨3, _⟩ => exact (W4_arr m c 3).trans (((dat1 (V3 m) c).arrAt_in 3 rfl _).trans (A_eq1 (V3 m) c 3))
    | ⟨4, _⟩ => exact (W4_arr m c 4).trans (((dat1 (V3 m) c).arrAt_in 4 rfl _).trans (A_eq1 (V3 m) c 4))
    | ⟨5, _⟩ => exact (W4_arr m c 5).trans (((dat1 (V3 m) c).arrAt_in 5 rfl _).trans (A_eq1 (V3 m) c 5))
    | ⟨6, _⟩ => exact absurd rfl hb0
    | ⟨7, _⟩ => exact absurd rfl hb1
  · exact W4_of_ne m c b fun w e => h ⟨w, e⟩

/-- The third region changes only its three output arrays. -/
theorem W6_keep (c : Dev nD) (b : Ref sig .tc) (hb0 : b ≠ main_v28_0) (hb1 : b ≠ main_v28_1) (hb2 : b ≠ main_v28_2) : W6 m c b = W5 m c b := by
  by_cases h : ∃ w, Pipeline.arrRef spec2 w = b
  · obtain ⟨w, rfl⟩ := h
    match w with
    | ⟨0, _⟩ => exact (W6_arr m c 0).trans (((dat2 (V5 m) c).arrAt_in 0 rfl _).trans (A_eq2 (V5 m) c 0))
    | ⟨1, _⟩ => exact (W6_arr m c 1).trans (((dat2 (V5 m) c).arrAt_in 1 rfl _).trans (A_eq2 (V5 m) c 1))
    | ⟨2, _⟩ => exact (W6_arr m c 2).trans (((dat2 (V5 m) c).arrAt_in 2 rfl _).trans (A_eq2 (V5 m) c 2))
    | ⟨3, _⟩ => exact (W6_arr m c 3).trans (((dat2 (V5 m) c).arrAt_in 3 rfl _).trans (A_eq2 (V5 m) c 3))
    | ⟨4, _⟩ => exact (W6_arr m c 4).trans (((dat2 (V5 m) c).arrAt_in 4 rfl _).trans (A_eq2 (V5 m) c 4))
    | ⟨5, _⟩ => exact absurd rfl hb0
    | ⟨6, _⟩ => exact absurd rfl hb1
    | ⟨7, _⟩ => exact absurd rfl hb2
  · exact W6_of_ne m c b fun w e => h ⟨w, e⟩

/-- A buffer no host operation writes and no region puts out reaches the end as launched. -/
theorem W7_launch (c : Dev nD) (b : Ref sig .tc) (h0 : b ∉ (hostOps0_W : List (Ref sig .tc))) (h1 : b ≠ main_v2)
    (h2 : b ∉ (hostOps1_W : List (Ref sig .tc))) (h3 : b ≠ main_v6_0) (h3' : b ≠ main_v6_1)
    (h4 : b ∉ (hostOps2_W : List (Ref sig .tc))) (h5 : b ≠ main_v28_0) (h5' : b ≠ main_v28_1) (h5'' : b ≠ main_v28_2)
    (h6 : b ∉ (hostOps3_W : List (Ref sig .tc))) : W7 m c b = m ((c : Thread nD τ).loc b) :=
  (W7_keep m c b h6).trans <| (W6_keep m c b h5 h5' h5'').trans <| (W5_keep m c b h4).trans <|
    (W4_keep m c b h3 h3').trans <| (W3_keep m c b h2).trans <| (W2_keep m c b h1).trans <| (W1_keep m c b h0).trans rfl

/-! ## The proof data family, the regions and the host stretches as segments -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The first region, entered from the valuation before it and left at the one after it. -/
def reg0 : Pipeline.RegionSeg (pcfgs (F := F)) adm (pdats m) () defs₀ 𝒱₀ L lv 0 :=
  Pipeline.RegionSeg.ofHeld (pcfgs (F := F)) adm (pdats m) defs₀ 𝒱₀ L lv 0
    launch0.win launch0.block_pos launch0.arr_whole launch0.stage_whole
    (fun c => Pipeline.emp_prefHeld_of_no_table _ rfl c _ _)
    (fun c => body_obligation0 (V1 m) c) (fun _ _ => rfl) (fun _ _ => rfl) (fun _ => rfl)
    (W1 m) (W2 m) (fun _ _ => rfl) (hF0 m) (hrest0 m) (fun _ => .rfl) (fun _ => .rfl)

set_option backward.isDefEq.respectTransparency.types false in
/-- The second region. -/
def reg1 : Pipeline.RegionSeg (pcfgs (F := F)) adm (pdats m) () defs₀ 𝒱₀ L lv 1 :=
  Pipeline.RegionSeg.ofHeld (pcfgs (F := F)) adm (pdats m) defs₀ 𝒱₀ L lv 1
    launch1.win launch1.block_pos launch1.arr_whole launch1.stage_whole
    (fun c => Pipeline.emp_prefHeld_of_no_table _ rfl c _ _)
    (fun c => body_obligation1 (V3 m) c) (fun _ _ => rfl) (fun _ _ => rfl) (fun _ => rfl)
    (W3 m) (W4 m) (fun _ _ => rfl) (hF1 m) (hrest1 m) (fun _ => .rfl) (fun _ => .rfl)

set_option backward.isDefEq.respectTransparency.types false in
/-- The third region. -/
def reg2 : Pipeline.RegionSeg (pcfgs (F := F)) adm (pdats m) () defs₀ 𝒱₀ L lv 2 :=
  Pipeline.RegionSeg.ofHeld (pcfgs (F := F)) adm (pdats m) defs₀ 𝒱₀ L lv 2
    launch2.win launch2.block_pos launch2.arr_whole launch2.stage_whole
    (fun c => Pipeline.emp_prefHeld_of_no_table _ rfl c _ _)
    (fun c => body_obligation2 (V5 m) c) (fun _ _ => rfl) (fun _ _ => rfl) (fun _ => rfl)
    (W5 m) (W6 m) (fun _ _ => rfl) (hF2 m) (hrest2 m) (fun _ => .rfl) (fun _ => .rfl)

/-- The main function's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

/-- The last thread state without what is owed: every unscoped buffer at the last valuation, the generator register at
    some state. -/
abbrev Tₙ (c : Dev nD) : sProp 𝕄 := iprop(StableHlo.held (c : Thread nD τ) (Pipeline.ucRefs τ sig) (W7 m c) ∗ ∃ r, prngReg c r)

set_option backward.isDefEq.respectTransparency.types false in
/-- THE RUN. From any memory with zero counters every weakly fair execution of the main function terminates, nothing
    faulting, and every final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ (iprop(Tₙ m c ∗ ∃ W, owes (c : Thread nD τ) (0 : CellTallies nD τ sig Unit) W) : sProp 𝕄)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have arg : ∀ (b : Ref sig .tc) (hs : ¬ (Proc.devRef .tc b : DevRef τ sig).isScoped)
        (h0 : b ∉ (hostOps0_W : List (Ref sig .tc))) (h1 : b ≠ main_v2) (h2 : b ∉ (hostOps1_W : List (Ref sig .tc)))
        (h3 : b ≠ main_v6_0) (h3' : b ≠ main_v6_1) (h4 : b ∉ (hostOps2_W : List (Ref sig .tc)))
        (h5 : b ≠ main_v28_0) (h5' : b ≠ main_v28_1) (h5'' : b ≠ main_v28_2) (h6 : b ∉ (hostOps3_W : List (Ref sig .tc))),
        r.2.mem ((c.tc : Thread nD τ).loc b) = m ((c.tc : Thread nD τ).loc b) :=
      fun b hs h0 h1 h2 h3 h3' h4 h5 h5' h5'' h6 =>
        (h c _ (mem_uc b hs)).trans (W7_launch m c b h0 h1 h2 h3 h3' h4 h5 h5' h5'' h6)
    ⟨arg main_arg0 (by decide) (by decide) (by decide) (by decide) (by decide) (by decide) (by decide) (by decide) (by decide) (by decide) (by decide),
     arg main_arg1 (by decide) (by decide) (by decide) (by decide) (by decide) (by decide) (by decide) (by decide) (by decide) (by decide) (by decide),
     arg main_arg2 (by decide) (by decide) (by decide) (by decide) (by decide) (by decide) (by decide) (by decide) (by decide) (by decide) (by decide),
     arg main_arg3 (by decide) (by decide) (by decide) (by decide) (by decide) (by decide) (by decide) (by decide) (by decide) (by decide) (by decide),
     arg main_arg4 (by decide) (by decide) (by decide) (by decide) (by decide) (by decide) (by decide) (by decide) (by decide) (by decide) (by decide),
     arg main_arg5 (by decide) (by decide) (by decide) (by decide) (by decide) (by decide) (by decide) (by decide) (by decide) (by decide) (by decide),
     arg main_arg6 (by decide) (by decide) (by decide) (by decide) (by decide) (by decide) (by decide) (by decide) (by decide) (by decide) (by decide),
     arg main_arg7 (by decide) (by decide) (by decide) (by decide) (by decide) (by decide) (by decide) (by decide) (by decide) (by decide) (by decide),
     arg main_arg8 (by decide) (by decide) (by decide) (by decide) (by decide) (by decide) (by decide) (by decide) (by decide) (by decide) (by decide),
     arg main_arg9 (by decide) (by decide) (by decide) (by decide) (by decide) (by decide) (by decide) (by decide) (by decide) (by decide) (by decide),
     arg main_arg10 (by decide) (by decide) (by decide) (by decide) (by decide) (by decide) (by decide) (by decide) (by decide) (by decide) (by decide),
     arg main_arg11 (by decide) (by decide) (by decide) (by decide) (by decide) (by decide) (by decide) (by decide) (by decide) (by decide) (by decide),
     arg main_arg12 (by decide) (by decide) (by decide) (by decide) (by decide) (by decide) (by decide) (by decide) (by decide) (by decide) (by decide),
     arg main_arg13 (by decide) (by decide) (by decide) (by decide) (by decide) (by decide) (by decide) (by decide) (by decide) (by decide) (by decide),
     arg main_arg14 (by decide) (by decide) (by decide) (by decide) (by decide) (by decide) (by decide) (by decide) (by decide) (by decide) (by decide)⟩)
    (run_all m ρ)

end Cert.KernelIdeal.Hand

end
-- ==== Proof.Spec.lean ====
/-
  The mathematics both programs compute, index by index, on the extended reals.

  A graph layer over 50000 nodes and 800000 edges, 8 heads of 16 channels. Five affine maps of 128 channels (`lin`: a row
  against a column of the weight matrix, plus the bias): queries, keys and values of the node features, and two maps of
  the edge features. Every edge reads its source node's key and value rows and its target node's query row (`rowIx`:
  the row a signed index word names, clamped into the table), and its score in a channel is key times query times one
  quarter, plus one edge map, times the other (`eo`: the first result, laid out [edge, head, channel]). The weight of an
  edge in a head is the exponential of the head's channel sum clamped to [-5, 5] (`sc`); the second result divides, for
  every node, head and channel, the sum over the edges that point at the node of value times weight by the sum of their
  weights plus a small constant (`hout`). The index columns (`cs`, `cd` for the gathers, `cz` for the sums) are taken as
  given: both programs make them from the index arrays by the same operations.
-/
import Idealize.ShloMosaic.PureOps.Ideal
import Idealize.ShloMosaic.Lib.ValueIdx

noncomputable section

open scoped BigOperators

namespace Cert.Spec

open Idealize.ShloMosaic Idealize.ShloMosaic.ValueIdx

/-- The number of nodes and of edges. -/
abbrev nN : ℕ := 50000
abbrev nE : ℕ := 800000

/-- An affine map's output at row `r` and column `j`: the row of `x` against column `j` of `w`, plus the bias. -/
def lin {R K C : ℕ} (x : (⟨2, ![R, K]⟩ : Shape).Idx → EReal) (w : (⟨2, ![K, C]⟩ : Shape).Idx → EReal)
    (b : (⟨1, ![C]⟩ : Shape).Idx → EReal) (r : Fin R) (j : Fin C) : EReal :=
  (∑ k : Fin K, x (ix2 r k) * w (ix2 k j)) + b (ix1 j)

/-- The table row an index column names for edge `e`: the word read signed, clamped into the table. -/
def rowIx (c : (⟨2, ![nE, 1]⟩ : Shape).Idx → BitVec 32) (e : Fin nE) : Fin nN :=
  ⟨min (c (ix2 e 0)).toInt.toNat (nN - 1), lt_of_le_of_lt (Nat.min_le_right _ _) (by decide)⟩

/-- Channel `d` of head `hh` among the 128 flat channels. -/
def col (hh : Fin 8) (d : Fin 16) : Fin 128 := ⟨16 * hh.val + d.val, by omega⟩

/-- The head of a flat channel. -/
def headOf (j : Fin 128) : Fin 8 := ⟨j.val / 16, by omega⟩

theorem headOf_col (hh : Fin 8) (d : Fin 16) : headOf (col hh d) = hh := by
  apply Fin.ext; show (16 * hh.val + d.val) / 16 = hh.val; omega

/-! ## The edge arithmetic over the gathered rows and the edge maps, for any number of edge rows (a block's, or all) -/

section Edge

variable {R : ℕ} (kg qg vg pe pkr : (⟨2, ![R, 128]⟩ : Shape).Idx → EReal)

/-- The score of edge `e` in flat channel `j`. -/
def eoR (e : Fin R) (j : Fin 128) : EReal :=
  (kg (ix2 e j) * qg (ix2 e j) * Ideal.ofBits .f32 0x3E800000#32 + pkr (ix2 e j)) * pe (ix2 e j)

/-- The weight of edge `e` in head `hh`. -/
def scR (e : Fin R) (hh : Fin 8) : EReal :=
  Ideal.exp (min (Ideal.ofBits .f32 0x40A00000#32) (max (Ideal.ofBits .f32 0xC0A00000#32) (∑ d : Fin 16, eoR kg qg pe pkr e (col hh d))))

/-- The weighted value of edge `e` in flat channel `j`. -/
def wvR (e : Fin R) (j : Fin 128) : EReal := vg (ix2 e j) * scR kg qg pe pkr e (headOf j)

end Edge

/-! ## The whole layer over the argument arrays -/

/-- The argument arrays, and the three index columns. -/
structure Args where
  h : (⟨2, ![nN, 128]⟩ : Shape).Idx → EReal
  ea : (⟨2, ![nE, 128]⟩ : Shape).Idx → EReal
  kr : (⟨2, ![nE, 128]⟩ : Shape).Idx → EReal
  Qw : (⟨2, ![128, 128]⟩ : Shape).Idx → EReal
  Qb : (⟨1, ![128]⟩ : Shape).Idx → EReal
  Kw : (⟨2, ![128, 128]⟩ : Shape).Idx → EReal
  Kb : (⟨1, ![128]⟩ : Shape).Idx → EReal
  Vw : (⟨2, ![128, 128]⟩ : Shape).Idx → EReal
  Vb : (⟨1, ![128]⟩ : Shape).Idx → EReal
  Ew : (⟨2, ![128, 128]⟩ : Shape).Idx → EReal
  Eb : (⟨1, ![128]⟩ : Shape).Idx → EReal
  Rw : (⟨2, ![128, 128]⟩ : Shape).Idx → EReal
  Rb : (⟨1, ![128]⟩ : Shape).Idx → EReal
  cs : (⟨2, ![nE, 1]⟩ : Shape).Idx → BitVec 32
  cd : (⟨2, ![nE, 1]⟩ : Shape).Idx → BitVec 32
  cz : (⟨2, ![nE, 1]⟩ : Shape).Idx → BitVec 32

variable (a : Args)

/-- The gathered key, query and value rows and the two edge maps, as [edge, flat channel] arrays. -/
def kgA : (⟨2, ![nE, 128]⟩ : Shape).Idx → EReal := fun i => lin a.h a.Kw a.Kb (rowIx a.cs (i 0)) (i 1)
def qgA : (⟨2, ![nE, 128]⟩ : Shape).Idx → EReal := fun i => lin a.h a.Qw a.Qb (rowIx a.cd (i 0)) (i 1)
def vgA : (⟨2, ![nE, 128]⟩ : Shape).Idx → EReal := fun i => lin a.h a.Vw a.Vb (rowIx a.cs (i 0)) (i 1)
def peA : (⟨2, ![nE, 128]⟩ : Shape).Idx → EReal := fun i => lin a.ea a.Ew a.Eb (i 0) (i 1)
def pkrA : (⟨2, ![nE, 128]⟩ : Shape).Idx → EReal := fun i => lin a.kr a.Rw a.Rb (i 0) (i 1)

/-- Edge `e`'s score in flat channel `j`, its weight in head `hh`, its weighted value in flat channel `j`. -/
def eo (e : Fin nE) (j : Fin 128) : EReal := eoR (kgA a) (qgA a) (peA a) (pkrA a) e j
def sc (e : Fin nE) (hh : Fin 8) : EReal := scR (kgA a) (qgA a) (peA a) (pkrA a) e hh
def wv (e : Fin nE) (j : Fin 128) : EReal := wvR (kgA a) (qgA a) (vgA a) (peA a) (pkrA a) e j

/-- The first result: the scores, [edge, head, channel]. -/
def eout (e : Fin nE) (hh : Fin 8) (d : Fin 16) : EReal := eo a e (col hh d)

/-- The second result: per node, head and channel, the weighted values of the edges pointing at the node, summed, over
    their weights, summed, plus the small constant. -/
def hout (n : Fin nN) (hh : Fin 8) (d : Fin 16) : EReal :=
  Ideal.div (∑ e : Fin nE, if (a.cz (ix2 e 0)).toInt = (n.val : Int) then wv a e (col hh d) else 0)
    ((∑ e : Fin nE, if (a.cz (ix2 e 0)).toInt = (n.val : Int) then sc a e hh else 0) + Ideal.ofBits .f32 0x358637BD#32)

end Cert.Spec

end
-- ==== Proof.KI.Cols.lean ====
/-
  The index columns the kernel program makes from its two index arrays, and the specification's arguments read off a
  memory. A gather's column holds, per edge, the index word with a negative word raised by the number of nodes (the
  gather then clamps it into the table); a segment sum's column holds the word as it is (a word that names no node adds
  nowhere).
-/
import proofs.«127344_j38285338476696_1_alg».proof.Proof.Gen.KernelIdeal
import proofs.«127344_j38285338476696_1_alg».proof.Proof.Spec

noncomputable section

namespace Cert.KernelIdeal.Hand

open Idealize.ShloMosaic Idealize.ShloMosaic.TcCoe Idealize.SL.Sem Cert.KernelIdeal Cert.KernelIdeal.Gen

/-- The column a gather reads its rows by: negative words wrapped once, then laid out as [edges, 1]. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The column a segment sum files its rows by: the words as they are, laid out as [edges, 1]. -/
def plainCol (s : IVec S800000 32) : IVec S800000x1 32 := broadcastInDim S800000x1 ![0] bcast_S800000_S800000x1_0 s

/-- The specification's arguments on core `c` of a memory. -/
def argsOf (m : (ℓ : Loc nD τ sig) → Buf (Elt Ideal) ℓ) (c : Dev nD) : Cert.Spec.Args where
  h := m ((c : Thread nD τ).loc main_arg0)
  ea := m ((c : Thread nD τ).loc main_arg1)
  kr := m ((c : Thread nD τ).loc main_arg2)
  Qw := m ((c : Thread nD τ).loc main_arg5)
  Qb := m ((c : Thread nD τ).loc main_arg6)
  Kw := m ((c : Thread nD τ).loc main_arg7)
  Kb := m ((c : Thread nD τ).loc main_arg8)
  Vw := m ((c : Thread nD τ).loc main_arg9)
  Vb := m ((c : Thread nD τ).loc main_arg10)
  Ew := m ((c : Thread nD τ).loc main_arg11)
  Eb := m ((c : Thread nD τ).loc main_arg12)
  Rw := m ((c : Thread nD τ).loc main_arg13)
  Rb := m ((c : Thread nD τ).loc main_arg14)
  cs := wrapCol (m ((c : Thread nD τ).loc main_arg3))
  cd := wrapCol (m ((c : Thread nD τ).loc main_arg4))
  cz := plainCol (m ((c : Thread nD τ).loc main_arg4))

end Cert.KernelIdeal.Hand

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.KI.Pay01.lean ====
/-
  The payloads of the two projection kernels read at an index, on the extended reals.

  Each payload is a block of rows against a weight matrix, accumulated into zero, plus the bias laid out as one row and
  repeated over the rows of the block. Read at row p and column q it is the sum over k of x[p,k] * w[k,q], plus b[q]:
  the affine map of the specification.
-/
import proofs.«127344_j38285338476696_1_alg».proof.Proof.Gen.KernelIdeal.Skeleton
import proofs.«127344_j38285338476696_1_alg».proof.Proof.Spec
import proofs.«127344_j38285338476696_1_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The node projection's payload at row p, column q. -/
theorem pay0_apply (x : Vec Ideal S5000x128 .f32) (w : Vec Ideal S128x384 .f32) (b : Vec Ideal S384 .f32) (p : Fin 5000) (q : Fin 384) :
    k0_pay1 (F := Ideal) x w b (ix2 p q) = Cert.Spec.lin x w b p q := by
  unfold k0_pay1 Cert.Spec.lin
  simp only [shapeCast_self]
  refine (addf_apply _ _ _).trans ?_
  refine congrArg₂ (· + ·) ?_ ?_
  · exact plain_matmul_zero_apply (M := 5000) (K := 128) (N := 384) none x w (ix2 p q)
  · exact (broadcastTo_1b_ab_apply _ _ p q).trans (shapeCast_a_1a_apply b _ 0 q)

/-- The edge projection's first payload at row p, column q. -/
theorem pay1a_apply (x : Vec Ideal S4000x128 .f32) (w : Vec Ideal S128x128 .f32) (b : Vec Ideal S128 .f32) (p : Fin 4000) (q : Fin 128) :
    k1_pay1 (F := Ideal) x w b (ix2 p q) = Cert.Spec.lin x w b p q := by
  unfold k1_pay1 Cert.Spec.lin
  refine (addf_apply _ _ _).trans ?_
  refine congrArg₂ (· + ·) ?_ ?_
  · exact plain_matmul_zero_apply (M := 4000) (K := 128) (N := 128) none x w (ix2 p q)
  · exact (broadcastTo_1b_ab_apply _ _ p q).trans (shapeCast_a_1a_apply b _ 0 q)

/-- The edge projection's second payload at row p, column q. -/
theorem pay1b_apply (x : Vec Ideal S4000x128 .f32) (w : Vec Ideal S128x128 .f32) (b : Vec Ideal S128 .f32) (p : Fin 4000) (q : Fin 128) :
    k1_pay2 (F := Ideal) x w b (ix2 p q) = Cert.Spec.lin x w b p q := by
  unfold k1_pay2 Cert.Spec.lin
  refine (addf_apply _ _ _).trans ?_
  refine congrArg₂ (· + ·) ?_ ?_
  · exact plain_matmul_zero_apply (M := 4000) (K := 128) (N := 128) none x w (ix2 p q)
  · exact (broadcastTo_1b_ab_apply _ _ p q).trans (shapeCast_a_1a_apply b _ 0 q)

end Cert.KernelIdeal.Pay

end
-- ==== Proof.KI.Final01.lean ====
/-
  The first two kernels' output arrays after their runs, as whole-array functions of the arrays the regions find.

  Every output window is written back at every grid point, point t's block being rows [t * rows, (t + 1) * rows) and
  all columns of its array, so the blocks tile the array. What a point writes back is the affine map of its row block
  against the whole weight matrix plus the biases, which is the restriction to the block's rows of ONE function of the
  arrays: at row r and column j, the row r of the features against column j of the weights, plus bias j. Hence each
  output array ends holding that function: the node projection's [50000, 384] array, and the edge projection's two
  [800000, 128] arrays.
-/
import proofs.«127344_j38285338476696_1_alg».proof.Proof.Gen.KernelIdeal.Launch
import proofs.«127344_j38285338476696_1_alg».proof.Proof.Gen.KernelIdeal.Skeleton
import proofs.«127344_j38285338476696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«127344_j38285338476696_1_alg».proof.Proof.Spec
import proofs.«127344_j38285338476696_1_alg».proof.Proof.KI.Body0
import proofs.«127344_j38285338476696_1_alg».proof.Proof.KI.Body1
import proofs.«127344_j38285338476696_1_alg».proof.Proof.KI.Pay01

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-- The zero offsets of a whole-buffer rectangle, of rank 2 and of rank 1. -/
theorem zero_off2 : (![0, 0] : Fin 2 → Nat) = fun _ => 0 := funext fun a => by fin_cases a <;> rfl
theorem zero_off1 : (![0] : Fin 1 → Nat) = fun _ => 0 := funext fun a => by fin_cases a <;> rfl

/-! ## The node projection: the [50000, 384] array -/

/-- The function the output array ends holding: row `i 0` of the node features against column `i 1` of the weights,
    plus bias `i 1`. -/
abbrev nodeProj (c : Dev nD) : S50000x384.Idx → EReal := fun i =>
  Cert.Spec.lin (V c (Pipeline.arrRef spec0 0)) (V c (Pipeline.arrRef spec0 1)) (V c (Pipeline.arrRef spec0 2)) (i 0) (i 1)

/-- The three input blocks at a point, at their literal types. -/
abbrev xblk0 (c : Dev nD) (t : Fin cfg0.N) : Vec Ideal S5000x128 .f32 := iblk0 V c 0 t
abbrev wblk0 (c : Dev nD) (t : Fin cfg0.N) : Vec Ideal S128x384 .f32 := iblk0 V c 1 t
abbrev bblk0 (c : Dev nD) (t : Fin cfg0.N) : Vec Ideal S384 .f32 := iblk0 V c 2 t

/-- The printed index maps over the grid: the feature and output windows are at block row `t`, column block 0; the
    weight and bias windows are at block 0 on every axis. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The feature block at point `t` is rows `5000 t …` of the feature array. -/
theorem xblk0_apply (c : Dev nD) (t : Fin cfg0.N) (p : Fin 5000) (k : Fin 128) (r : Fin 50000)
    (hr : r.val = t.val * 5000 + p.val) :
    xblk0 V c t (ix2 p k) = (V c (Pipeline.arrRef spec0 0) : S50000x128.Idx → EReal) (ix2 r k) := by
  obtain ⟨e0, e1, -⟩ := index_facts0 t
  show (V c (Pipeline.arrRef spec0 0) : S50000x128.Idx → EReal) (((cfg0.win 0).blk t).view.emb (ix2 p k)) = _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight block at every point is the whole weight array. -/
theorem wblk0_apply (c : Dev nD) (t : Fin cfg0.N) (k : Fin 128) (q : Fin 384) :
    wblk0 V c t (ix2 k q) = (V c (Pipeline.arrRef spec0 1) : S128x384.Idx → EReal) (ix2 k q) := by
  obtain ⟨-, -, e0, e1, -⟩ := index_facts0 t
  show (V c (Pipeline.arrRef spec0 1) : S128x384.Idx → EReal) (((cfg0.win 1).blk t).view.emb (ix2 k q)) = _
  congr 1
  funext a
  apply Fin.ext
  match a with
  | ⟨0, _⟩ => show win0_1.index t (0 : Fin 2) * 128 + 1 * k.val = k.val; rw [e0]; omega
  | ⟨1, _⟩ => show win0_1.index t (1 : Fin 2) * 384 + 1 * q.val = q.val; rw [e1]; omega

/-- The bias block at every point is the whole bias array. -/
theorem bblk0_apply (c : Dev nD) (t : Fin cfg0.N) (q : Fin 384) :
    bblk0 V c t (ix1 q) = (V c (Pipeline.arrRef spec0 2) : S384.Idx → EReal) (ix1 q) := by
  obtain ⟨-, -, -, -, e0, -⟩ := index_facts0 t
  show (V c (Pipeline.arrRef spec0 2) : S384.Idx → EReal) (((cfg0.win 2).blk t).view.emb (ix1 q)) = _
  congr 1
  funext a
  apply Fin.ext
  match a with
  | ⟨0, _⟩ => show win0_2.index t (0 : Fin 1) * 384 + 1 * q.val = q.val; rw [e0]; omega

/-- The payload of point `t` at element `y` of its block is the function at the array index `i` the element sits at. -/
theorem point0 (c : Dev nD) (t : Fin cfg0.N) (y : S5000x384.Idx) (i : S50000x384.Idx)
    (h0 : (i 0).val = t.val * 5000 + (y 0).val) (h1 : (i 1).val = (y 1).val) :
    k0_pay1 (F := Ideal) (xblk0 V c t) (wblk0 V c t) (bblk0 V c t) y = nodeProj V c i := by
  obtain ⟨p, q, rfl⟩ : ∃ p q, y = ix2 p q := ⟨y 0, y 1, eq_ix2 y⟩
  have hq : i 1 = q := Fin.ext h1
  rw [Cert.KernelIdeal.Pay.pay0_apply]
  show Cert.Spec.lin _ _ _ p q = Cert.Spec.lin _ _ _ (i 0) (i 1)
  rw [hq]
  unfold Cert.Spec.lin
  refine congrArg₂ (· + ·) (Finset.sum_congr rfl fun k _ => ?_) (bblk0_apply V c t q)
  exact congrArg₂ (· * ·) (xblk0_apply V c t p k (i 0) h0) (wblk0_apply V c t k q)

/-- What point `t` writes back is block `t` of the function. -/
theorem flushed0_3_eq (c : Dev nD) (t : Fin cfg0.N) :
    (dat0 V c).flushed 3 t = ((cfg0.win 3).blk t).view.read (Elt Ideal) (nodeProj V c) := by
  show (cfg0.win 3).cut (grid0.coords t) ((dat0 V c).after 3 t) = _
  rw [after0_3]
  unfold out0_3
  rw [View.canon_unit_zero zero_off2]
  simp only [View.ld_unit_zero (S := S5000x128) zero_off2, View.ld_unit_zero (S := S128x384) zero_off2,
    View.ld_unit_zero (S := S384) zero_off1]
  obtain ⟨-, -, -, -, -, e0, e1⟩ := index_facts0 t
  funext y
  show k0_pay1 (F := Ideal) (xblk0 V c t) (wblk0 V c t) (bblk0 V c t) y
    = nodeProj V c (((cfg0.win 3).blk t).view.emb y)
  refine point0 V c t y _ ?_ ?_
  · show win0_3.index t (0 : Fin 2) * 5000 + 1 * (y 0).val = _; rw [e0]; omega
  · show win0_3.index t (1 : Fin 2) * 384 + 1 * (y 1).val = _; rw [e1]; omega

/-- An index of the array is in point `t`'s block iff each coordinate is in the block's range on its axis. -/
theorem mem_blk0_3 (t : Fin cfg0.N) (i : S50000x384.Idx) :
    i ∈ ((cfg0.win 3).blk t).view.set ↔ ∀ a : Fin 2, win0_3.index t a * S5000x384.size a ≤ (i a).val
      ∧ (i a).val < win0_3.index t a * S5000x384.size a + S5000x384.size a := by
  show i ∈ ((View.whole main_v2).slice (win0_3.rect t)).set ↔ _
  rw [View.set_slice_whole, Rect.mem_set_unit]
  exact Iff.rfl

/-- Every index of the array is in the block of the point its row's block number names. -/
theorem cover0_3_arr (i : S50000x384.Idx) :
    ∃ t : Fin cfg0.N, (cfg0.win 3).flush t = true ∧ i ∈ ((cfg0.win 3).blk t).view.set := by
  have hi0 : (i 0).val < 50000 := (i 0).isLt
  have hi1 : (i 1).val < 384 := (i 1).isLt
  have hN : cfg0.N = 10 := N_0
  let t : Fin cfg0.N := ⟨(i 0).val / 5000, by rw [hN]; omega⟩
  obtain ⟨-, -, -, -, -, e0, e1⟩ := index_facts0 t
  have ht : t.val = (i 0).val / 5000 := rfl
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 384 ≤ (i 1).val ∧ (i 1).val < win0_3.index t (1 : Fin 2) * 384 + 384
    rw [e1]; omega

/-- The node projection's output array after the run. -/
theorem final0_3 (c : Dev nD) : (dat0 V c).arrAt 3 cfg0.N = fun i =>
    Cert.Spec.lin (V c (Pipeline.arrRef spec0 0)) (V c (Pipeline.arrRef spec0 1)) (V c (Pipeline.arrRef spec0 2)) (i 0) (i 1) :=
  (dat0 V c).arrAt_eq_of_cover 3 (nodeProj V c) (fun t _ => flushed0_3_eq V c t) cover0_3_arr

/-! ## The edge projection: the two [800000, 128] arrays -/

/-- The functions the two output arrays end holding: row `i 0` of the edge features (of the second edge array) against
    column `i 1` of the first (second) weight matrix, plus bias `i 1`. -/
abbrev edgeProjA (c : Dev nD) : S800000x128.Idx → EReal := fun i =>
  Cert.Spec.lin (V c (Pipeline.arrRef spec1 0)) (V c (Pipeline.arrRef spec1 2)) (V c (Pipeline.arrRef spec1 3)) (i 0) (i 1)
abbrev edgeProjB (c : Dev nD) : S800000x128.Idx → EReal := fun i =>
  Cert.Spec.lin (V c (Pipeline.arrRef spec1 1)) (V c (Pipeline.arrRef spec1 4)) (V c (Pipeline.arrRef spec1 5)) (i 0) (i 1)

/-- The six input blocks at a point, at their literal types. -/
abbrev eblk1 (c : Dev nD) (t : Fin cfg1.N) : Vec Ideal S4000x128 .f32 := iblk1 V c 0 t
abbrev kblk1 (c : Dev nD) (t : Fin cfg1.N) : Vec Ideal S4000x128 .f32 := iblk1 V c 1 t
abbrev ewblk1 (c : Dev nD) (t : Fin cfg1.N) : Vec Ideal S128x128 .f32 := iblk1 V c 2 t
abbrev ebblk1 (c : Dev nD) (t : Fin cfg1.N) : Vec Ideal S128 .f32 := iblk1 V c 3 t
abbrev rwblk1 (c : Dev nD) (t : Fin cfg1.N) : Vec Ideal S128x128 .f32 := iblk1 V c 4 t
abbrev rbblk1 (c : Dev nD) (t : Fin cfg1.N) : Vec Ideal S128 .f32 := iblk1 V c 5 t

/-- The printed index maps over the grid: the two edge windows and the two output windows are at block row `t`, column
    block 0; the weight and bias windows are at block 0 on every axis. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The first edge block at point `t` is rows `4000 t …` of the first edge array. -/
theorem eblk1_apply (c : Dev nD) (t : Fin cfg1.N) (p : Fin 4000) (k : Fin 128) (r : Fin 800000)
    (hr : r.val = t.val * 4000 + p.val) :
    eblk1 V c t (ix2 p k) = (V c (Pipeline.arrRef spec1 0) : S800000x128.Idx → EReal) (ix2 r k) := by
  obtain ⟨e0, e1, -⟩ := index_facts1 t
  show (V c (Pipeline.arrRef spec1 0) : S800000x128.Idx → EReal) (((cfg1.win 0).blk t).view.emb (ix2 p k)) = _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- The second edge block at point `t` is rows `4000 t …` of the second edge array. -/
theorem kblk1_apply (c : Dev nD) (t : Fin cfg1.N) (p : Fin 4000) (k : Fin 128) (r : Fin 800000)
    (hr : r.val = t.val * 4000 + p.val) :
    kblk1 V c t (ix2 p k) = (V c (Pipeline.arrRef spec1 1) : S800000x128.Idx → EReal) (ix2 r k) := by
  obtain ⟨-, -, e0, e1, -⟩ := index_facts1 t
  show (V c (Pipeline.arrRef spec1 1) : S800000x128.Idx → EReal) (((cfg1.win 1).blk t).view.emb (ix2 p k)) = _
  congr 1
  funext a
  apply Fin.ext
  match a with
  | ⟨0, _⟩ => show win1_1.index t (0 : Fin 2) * 4000 + 1 * p.val = r.val; rw [e0, hr]; omega
  | ⟨1, _⟩ => show win1_1.index t (1 : Fin 2) * 128 + 1 * k.val = k.val; rw [e1]; omega

/-- The weight and bias blocks at every point are the whole weight and bias arrays. -/
theorem ewblk1_apply (c : Dev nD) (t : Fin cfg1.N) (k : Fin 128) (q : Fin 128) :
    ewblk1 V c t (ix2 k q) = (V c (Pipeline.arrRef spec1 2) : S128x128.Idx → EReal) (ix2 k q) := by
  obtain ⟨-, -, -, -, e0, e1, -⟩ := index_facts1 t
  show (V c (Pipeline.arrRef spec1 2) : S128x128.Idx → EReal) (((cfg1.win 2).blk t).view.emb (ix2 k q)) = _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem ebblk1_apply (c : Dev nD) (t : Fin cfg1.N) (q : Fin 128) :
    ebblk1 V c t (ix1 q) = (V c (Pipeline.arrRef spec1 3) : S128.Idx → EReal) (ix1 q) := by
  obtain ⟨-, -, -, -, -, -, e0, -⟩ := index_facts1 t
  show (V c (Pipeline.arrRef spec1 3) : S128.Idx → EReal) (((cfg1.win 3).blk t).view.emb (ix1 q)) = _
  congr 1
  funext a
  apply Fin.ext
  match a with
  | ⟨0, _⟩ => show win1_3.index t (0 : Fin 1) * 128 + 1 * q.val = q.val; rw [e0]; omega

theorem rwblk1_apply (c : Dev nD) (t : Fin cfg1.N) (k : Fin 128) (q : Fin 128) :
    rwblk1 V c t (ix2 k q) = (V c (Pipeline.arrRef spec1 4) : S128x128.Idx → EReal) (ix2 k q) := by
  obtain ⟨-, -, -, -, -, -, -, e0, e1, -⟩ := index_facts1 t
  show (V c (Pipeline.arrRef spec1 4) : S128x128.Idx → EReal) (((cfg1.win 4).blk t).view.emb (ix2 k q)) = _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

theorem rbblk1_apply (c : Dev nD) (t : Fin cfg1.N) (q : Fin 128) :
    rbblk1 V c t (ix1 q) = (V c (Pipeline.arrRef spec1 5) : S128.Idx → EReal) (ix1 q) := by
  obtain ⟨-, -, -, -, -, -, -, -, -, e0, -⟩ := index_facts1 t
  show (V c (Pipeline.arrRef spec1 5) : S128.Idx → EReal) (((cfg1.win 5).blk t).view.emb (ix1 q)) = _
  congr 1
  funext a
  apply Fin.ext
  match a with
  | ⟨0, _⟩ => show win1_5.index t (0 : Fin 1) * 128 + 1 * q.val = q.val; rw [e0]; omega

/-- The first payload of point `t` at element `y` of its block is the first function at the array index `i` the
    element sits at, -/
theorem point1a (c : Dev nD) (t : Fin cfg1.N) (y : S4000x128.Idx) (i : S800000x128.Idx)
    (h0 : (i 0).val = t.val * 4000 + (y 0).val) (h1 : (i 1).val = (y 1).val) :
    k1_pay1 (F := Ideal) (eblk1 V c t) (ewblk1 V c t) (ebblk1 V c t) y = edgeProjA V c i := by
  obtain ⟨p, q, rfl⟩ : ∃ p q, y = ix2 p q := ⟨y 0, y 1, eq_ix2 y⟩
  have hq : i 1 = q := Fin.ext h1
  rw [Cert.KernelIdeal.Pay.pay1a_apply]
  show Cert.Spec.lin _ _ _ p q = Cert.Spec.lin _ _ _ (i 0) (i 1)
  rw [hq]
  unfold Cert.Spec.lin
  refine congrArg₂ (· + ·) (Finset.sum_congr rfl fun k _ => ?_) (ebblk1_apply V c t q)
  exact congrArg₂ (· * ·) (eblk1_apply V c t p k (i 0) h0) (ewblk1_apply V c t k q)

/-- and the second payload's is the second function there. -/
theorem point1b (c : Dev nD) (t : Fin cfg1.N) (y : S4000x128.Idx) (i : S800000x128.Idx)
    (h0 : (i 0).val = t.val * 4000 + (y 0).val) (h1 : (i 1).val = (y 1).val) :
    k1_pay2 (F := Ideal) (kblk1 V c t) (rwblk1 V c t) (rbblk1 V c t) y = edgeProjB V c i := by
  obtain ⟨p, q, rfl⟩ : ∃ p q, y = ix2 p q := ⟨y 0, y 1, eq_ix2 y⟩
  have hq : i 1 = q := Fin.ext h1
  rw [Cert.KernelIdeal.Pay.pay1b_apply]
  show Cert.Spec.lin _ _ _ p q = Cert.Spec.lin _ _ _ (i 0) (i 1)
  rw [hq]
  unfold Cert.Spec.lin
  refine congrArg₂ (· + ·) (Finset.sum_congr rfl fun k _ => ?_) (rbblk1_apply V c t q)
  exact congrArg₂ (· * ·) (kblk1_apply V c t p k (i 0) h0) (rwblk1_apply V c t k q)

/-- What point `t` writes back to the first output array is block `t` of the first function, -/
theorem flushed1_6_eq (c : Dev nD) (t : Fin cfg1.N) :
    (dat1 V c).flushed 6 t = ((cfg1.win 6).blk t).view.read (Elt Ideal) (edgeProjA V c) := by
  show (cfg1.win 6).cut (grid1.coords t) ((dat1 V c).after 6 t) = _
  rw [after1_6]
  unfold out1_6
  rw [View.canon_unit_zero zero_off2]
  simp only [View.ld_unit_zero (S := S4000x128) zero_off2, View.ld_unit_zero (S := S128x128) zero_off2,
    View.ld_unit_zero (S := S128) zero_off1]
  obtain ⟨-, -, -, -, -, -, -, -, -, -, e0, e1, -⟩ := index_facts1 t
  funext y
  show k1_pay1 (F := Ideal) (eblk1 V c t) (ewblk1 V c t) (ebblk1 V c t) y
    = edgeProjA V c (((cfg1.win 6).blk t).view.emb y)
  refine point1a V c t y _ ?_ ?_
  · show win1_6.index t (0 : Fin 2) * 4000 + 1 * (y 0).val = _; rw [e0]; omega
  · show win1_6.index t (1 : Fin 2) * 128 + 1 * (y 1).val = _; rw [e1]; omega

/-- and to the second output array, block `t` of the second. -/
theorem flushed1_7_eq (c : Dev nD) (t : Fin cfg1.N) :
    (dat1 V c).flushed 7 t = ((cfg1.win 7).blk t).view.read (Elt Ideal) (edgeProjB V c) := by
  show (cfg1.win 7).cut (grid1.coords t) ((dat1 V c).after 7 t) = _
  rw [after1_7]
  unfold out1_7
  rw [View.canon_unit_zero zero_off2]
  simp only [View.ld_unit_zero (S := S4000x128) zero_off2, View.ld_unit_zero (S := S128x128) zero_off2,
    View.ld_unit_zero (S := S128) zero_off1]
  obtain ⟨-, -, -, -, -, -, -, -, -, -, -, -, e0, e1⟩ := index_facts1 t
  funext y
  show k1_pay2 (F := Ideal) (kblk1 V c t) (rwblk1 V c t) (rbblk1 V c t) y
    = edgeProjB V c (((cfg1.win 7).blk t).view.emb y)
  refine point1b V c t y _ ?_ ?_
  · show win1_7.index t (0 : Fin 2) * 4000 + 1 * (y 0).val = _; rw [e0]; omega
  · show win1_7.index t (1 : Fin 2) * 128 + 1 * (y 1).val = _; rw [e1]; omega

/-- An index of an output array is in point `t`'s block iff each coordinate is in the block's range on its axis. -/
theorem mem_blk1_6 (t : Fin cfg1.N) (i : S800000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v6_0).slice (win1_6.rect t)).set ↔ _
  rw [View.set_slice_whole, Rect.mem_set_unit]
  exact Iff.rfl
theorem mem_blk1_7 (t : Fin cfg1.N) (i : S800000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v6_1).slice (win1_7.rect t)).set ↔ _
  rw [View.set_slice_whole, Rect.mem_set_unit]
  exact Iff.rfl

/-- Every index of an output array is in the block of the point its row's block number names. -/
theorem cover1_6_arr (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  have hN : cfg1.N = 200 := N_1
  let t : Fin cfg1.N := ⟨(i 0).val / 4000, by rw [hN]; omega⟩
  obtain ⟨-, -, -, -, -, -, -, -, -, -, e0, e1, -⟩ := index_facts1 t
  have ht : t.val = (i 0).val / 4000 := rfl
  refine ⟨t, flush1_6 t, ?_⟩
  rw [mem_blk1_6]
  intro a
  match a with
  | ⟨0, _⟩ =>
    show win1_6.index t (0 : Fin 2) * 4000 ≤ (i 0).val ∧ (i 0).val < win1_6.index t (0 : Fin 2) * 4000 + 4000
    rw [e0, ht]; omega
  | ⟨1, _⟩ =>
    show win1_6.index t (1 : Fin 2) * 128 ≤ (i 1).val ∧ (i 1).val < win1_6.index t (1 : Fin 2) * 128 + 128
    rw [e1]; omega
theorem cover1_7_arr (i : S800000x128.Idx) :
    ∃ t : Fin cfg1.N, (cfg1.win 7).flush t = true ∧ i ∈ ((cfg1.win 7).blk t).view.set := by
  have hi0 : (i 0).val < 800000 := (i 0).isLt
  have hi1 : (i 1).val < 128 := (i 1).isLt
  have hN : cfg1.N = 200 := N_1
  let t : Fin cfg1.N := ⟨(i 0).val / 4000, by rw [hN]; omega⟩
  obtain ⟨-, -, -, -, -, -, -, -, -, -, -, -, e0, e1⟩ := index_facts1 t
  have ht : t.val = (i 0).val / 4000 := rfl
  refine ⟨t, flush1_7 t, ?_⟩
  rw [mem_blk1_7]
  intro a
  match a with
  | ⟨0, _⟩ =>
    show win1_7.index t (0 : Fin 2) * 4000 ≤ (i 0).val ∧ (i 0).val < win1_7.index t (0 : Fin 2) * 4000 + 4000
    rw [e0, ht]; omega
  | ⟨1, _⟩ =>
    show win1_7.index t (1 : Fin 2) * 128 ≤ (i 1).val ∧ (i 1).val < win1_7.index t (1 : Fin 2) * 128 + 128
    rw [e1]; omega

/-- The edge projection's two output arrays after the run. -/
theorem final1_6 (c : Dev nD) : (dat1 V c).arrAt 6 cfg1.N = fun i =>
    Cert.Spec.lin (V c (Pipeline.arrRef spec1 0)) (V c (Pipeline.arrRef spec1 2)) (V c (Pipeline.arrRef spec1 3)) (i 0) (i 1) :=
  (dat1 V c).arrAt_eq_of_cover 6 (edgeProjA V c) (fun t _ => flushed1_6_eq V c t) cover1_6_arr
theorem final1_7 (c : Dev nD) : (dat1 V c).arrAt 7 cfg1.N = fun i =>
    Cert.Spec.lin (V c (Pipeline.arrRef spec1 1)) (V c (Pipeline.arrRef spec1 4)) (V c (Pipeline.arrRef spec1 5)) (i 0) (i 1) :=
  (dat1 V c).arrAt_eq_of_cover 7 (edgeProjB V c) (fun t _ => flushed1_7_eq V c t) cover1_7_arr

end Cert.KernelIdeal.Hand

end
-- ==== Proof.KI.CatLin.lean ====
/-
  Three affine maps done as one: the three 128-column weight matrices laid side by side and the three biases end to
  end give, in columns [0,128), [128,256), [256,384) of the one product, the three maps' outputs; and a 128-column
  window of a 384-column array reads the array at the window's offset plus the column.
-/
import proofs.«127344_j38285338476696_1_alg».proof.Proof.Gen.KernelIdeal
import proofs.«127344_j38285338476696_1_alg».proof.Proof.Spec
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The three weight matrices side by side, read at row `k` and a column of each third: that matrix at `(k, j)`. -/
theorem cat3_w_apply (w0 w1 w2 : FVec Ideal S128x128 .f32) (k : Fin 128) (j : Fin 128) :
    concatenate S128x384 1 [⟨S128x128, w0⟩, ⟨S128x128, w1⟩, ⟨S128x128, w2⟩] concatenates_S128x128_S128x128_S128x128_S128x384_d1 (ix2 k (⟨j.val, by omega⟩ : Fin 384)) = w0 (ix2 k j)
    ∧ concatenate S128x384 1 [⟨S128x128, w0⟩, ⟨S128x128, w1⟩, ⟨S128x128, w2⟩] concatenates_S128x128_S128x128_S128x128_S128x384_d1 (ix2 k (⟨128 + j.val, by omega⟩ : Fin 384)) = w1 (ix2 k j)
    ∧ concatenate S128x384 1 [⟨S128x128, w0⟩, ⟨S128x128, w1⟩, ⟨S128x128, w2⟩] concatenates_S128x128_S128x128_S128x128_S128x384_d1 (ix2 k (⟨256 + j.val, by omega⟩ : Fin 384)) = w2 (ix2 k j) := by
  have hi : ∀ c : Fin 384, ∀ b : Fin S128x128.rank, b.cast (rfl : S128x128.rank = S128x384.rank) ≠ (1 : Fin S128x384.rank) →
      ((ix2 k j : S128x128.Idx) b).val = ((ix2 k c : S128x384.Idx) (b.cast rfl)).val := by
    intro c b hb
    match b with
    | ⟨0, _⟩ => rfl
    | ⟨1, _⟩ => exact absurd rfl hb
  refine ⟨?_, ?_, ?_⟩
  · exact concatenate_apply_piece 1 [⟨S128x128, w0⟩, ⟨S128x128, w1⟩, ⟨S128x128, w2⟩] concatenates_S128x128_S128x128_S128x128_S128x384_d1 (ix2 k (⟨j.val, by omega⟩ : Fin 384)) 0 (by show 0 < 3; omega) S128x128 w0 rfl rfl 0 rfl (ix2 k j) (hi _) (Nat.zero_add _)
  · exact concatenate_apply_piece 1 [⟨S128x128, w0⟩, ⟨S128x128, w1⟩, ⟨S128x128, w2⟩] concatenates_S128x128_S128x128_S128x128_S128x384_d1 (ix2 k (⟨128 + j.val, by omega⟩ : Fin 384)) 1 (by show 1 < 3; omega) S128x128 w1 rfl rfl 128 rfl (ix2 k j) (hi _) rfl
  · exact concatenate_apply_piece 1 [⟨S128x128, w0⟩, ⟨S128x128, w1⟩, ⟨S128x128, w2⟩] concatenates_S128x128_S128x128_S128x128_S128x384_d1 (ix2 k (⟨256 + j.val, by omega⟩ : Fin 384)) 2 (by show 2 < 3; omega) S128x128 w2 rfl rfl 256 rfl (ix2 k j) (hi _) rfl

/-- The three biases end to end, read at an entry of each third: that bias at `j`. -/
theorem cat3_b_apply (b0 b1 b2 : FVec Ideal S128 .f32) (j : Fin 128) :
    concatenate S384 0 [⟨S128, b0⟩, ⟨S128, b1⟩, ⟨S128, b2⟩] concatenates_S128_S128_S128_S384_d0 (ix1 (⟨j.val, by omega⟩ : Fin 384)) = b0 (ix1 j)
    ∧ concatenate S384 0 [⟨S128, b0⟩, ⟨S128, b1⟩, ⟨S128, b2⟩] concatenates_S128_S128_S128_S384_d0 (ix1 (⟨128 + j.val, by omega⟩ : Fin 384)) = b1 (ix1 j)
    ∧ concatenate S384 0 [⟨S128, b0⟩, ⟨S128, b1⟩, ⟨S128, b2⟩] concatenates_S128_S128_S128_S384_d0 (ix1 (⟨256 + j.val, by omega⟩ : Fin 384)) = b2 (ix1 j) := by
  have hi : ∀ c : Fin 384, ∀ b : Fin S128.rank, b.cast (rfl : S128.rank = S384.rank) ≠ (0 : Fin S384.rank) →
      ((ix1 j : S128.Idx) b).val = ((ix1 c : S384.Idx) (b.cast rfl)).val := by
    intro c b hb
    match b with
    | ⟨0, _⟩ => exact absurd rfl hb
  refine ⟨?_, ?_, ?_⟩
  · exact concatenate_apply_piece 0 [⟨S128, b0⟩, ⟨S128, b1⟩, ⟨S128, b2⟩] concatenates_S128_S128_S128_S384_d0 (ix1 (⟨j.val, by omega⟩ : Fin 384)) 0 (by show 0 < 3; omega) S128 b0 rfl rfl 0 rfl (ix1 j) (hi _) (Nat.zero_add _)
  · exact concatenate_apply_piece 0 [⟨S128, b0⟩, ⟨S128, b1⟩, ⟨S128, b2⟩] concatenates_S128_S128_S128_S384_d0 (ix1 (⟨128 + j.val, by omega⟩ : Fin 384)) 1 (by show 1 < 3; omega) S128 b1 rfl rfl 128 rfl (ix1 j) (hi _) rfl
  · exact concatenate_apply_piece 0 [⟨S128, b0⟩, ⟨S128, b1⟩, ⟨S128, b2⟩] concatenates_S128_S128_S128_S384_d0 (ix1 (⟨256 + j.val, by omega⟩ : Fin 384)) 2 (by show 2 < 3; omega) S128 b2 rfl rfl 256 rfl (ix1 j) (hi _) rfl

/-- The one affine map against the side-by-side weights and end-to-end biases, in a column of each third, is that
    third's own affine map. -/
theorem lin_cat (h : FVec Ideal S50000x128 .f32) (w0 w1 w2 : FVec Ideal S128x128 .f32) (b0 b1 b2 : FVec Ideal S128 .f32)
    (n : Fin 50000) (j : Fin 128) :
    Cert.Spec.lin h (concatenate S128x384 1 [⟨S128x128, w0⟩, ⟨S128x128, w1⟩, ⟨S128x128, w2⟩] concatenates_S128x128_S128x128_S128x128_S128x384_d1)
        (concatenate S384 0 [⟨S128, b0⟩, ⟨S128, b1⟩, ⟨S128, b2⟩] concatenates_S128_S128_S128_S384_d0) n ⟨j.val, by omega⟩ = Cert.Spec.lin h w0 b0 n j
    ∧ Cert.Spec.lin h (concatenate S128x384 1 [⟨S128x128, w0⟩, ⟨S128x128, w1⟩, ⟨S128x128, w2⟩] concatenates_S128x128_S128x128_S128x128_S128x384_d1)
        (concatenate S384 0 [⟨S128, b0⟩, ⟨S128, b1⟩, ⟨S128, b2⟩] concatenates_S128_S128_S128_S384_d0) n ⟨128 + j.val, by omega⟩ = Cert.Spec.lin h w1 b1 n j
    ∧ Cert.Spec.lin h (concatenate S128x384 1 [⟨S128x128, w0⟩, ⟨S128x128, w1⟩, ⟨S128x128, w2⟩] concatenates_S128x128_S128x128_S128x128_S128x384_d1)
        (concatenate S384 0 [⟨S128, b0⟩, ⟨S128, b1⟩, ⟨S128, b2⟩] concatenates_S128_S128_S128_S384_d0) n ⟨256 + j.val, by omega⟩ = Cert.Spec.lin h w2 b2 n j := by
  unfold Cert.Spec.lin
  refine ⟨?_, ?_, ?_⟩
  · refine congrArg₂ (· + ·) (Finset.sum_congr rfl fun k _ => ?_) (cat3_b_apply b0 b1 b2 j).1
    exact congrArg (h (ix2 n k) * ·) (cat3_w_apply w0 w1 w2 k j).1
  · refine congrArg₂ (· + ·) (Finset.sum_congr rfl fun k _ => ?_) (cat3_b_apply b0 b1 b2 j).2.1
    exact congrArg (h (ix2 n k) * ·) (cat3_w_apply w0 w1 w2 k j).2.1
  · refine congrArg₂ (· + ·) (Finset.sum_congr rfl fun k _ => ?_) (cat3_b_apply b0 b1 b2 j).2.2
    exact congrArg (h (ix2 n k) * ·) (cat3_w_apply w0 w1 w2 k j).2.2

/-- A 128-column window of a 384-column array from column 0, 128 or 256, read at `(n, j)`: the array at row `n` and
    the window's offset plus `j`. -/
theorem slice_cols (X : FVec Ideal S50000x384 .f32) (n : Fin 50000) (j : Fin 128) :
    extractStridedSlice S50000x128 ![0, 0] X slices_S50000x384_S50000x128_0_0 (ix2 n j) = X (ix2 n ⟨j.val, by omega⟩)
    ∧ extractStridedSlice S50000x128 ![0, 128] X slices_S50000x384_S50000x128_0_128 (ix2 n j) = X (ix2 n ⟨128 + j.val, by omega⟩)
    ∧ extractStridedSlice S50000x128 ![0, 256] X slices_S50000x384_S50000x128_0_256 (ix2 n j) = X (ix2 n ⟨256 + j.val, by omega⟩) :=
  ⟨slice2_axis1_apply 0 X slices_S50000x384_S50000x128_0_0 n j ⟨j.val, by omega⟩ (Nat.zero_add _).symm,
   slice2_axis1_apply 128 X slices_S50000x384_S50000x128_0_128 n j ⟨128 + j.val, by omega⟩ rfl,
   slice2_axis1_apply 256 X slices_S50000x384_S50000x128_0_256 n j ⟨256 + j.val, by omega⟩ rfl⟩

end Cert.KernelIdeal.Hand

end
-- ==== Proof.LibRowGather.lean ====
/-
  A ROW gather read at an index: the gather that takes whole rows of a table by a vector of row numbers. The table is
  [N, C] (or [N, A, B]), the start indices are an [R, 1] column (one row number per result row), the table's row axis
  is collapsed and start-indexed, the other axes are offset axes whose slice is the whole axis, and there are no
  batching axes. Result element (e, j) (or (e, a, b)) reads the table at row "word e read signed and clamped into
  [0, N - 1]" (a negative word reads row 0, one past the end reads the last row) and column j (or (a, b)).
-/
import Idealize.ShloMosaic.PureOps.ShapeOps
import Idealize.ShloMosaic.Lib.ValueIdx

namespace Idealize.ShloMosaic.ValueIdx

open Idealize.ShloMosaic

/-- An entry of a list known to be `l'`, at a position known to be `k'`. -/
theorem getElem_of_list_eq_of_pos {β : Type} {l l' : List β} (h : l = l') {k k' : Nat} (hkk : k = k') (hk : k < l.length)
    (hk' : k' < l'.length) : l[k] = l'[k'] := by
  subst h; subst hkk; rfl

/-- The entries of a one-element list. -/
theorem getElem_of_list_eq_singleton {β : Type} {l : List β} {a : β} (h : l = [a]) (k : Nat) (hk : k < l.length) :
    l[k] = a := by
  subst h
  have hk0 : k = 0 := by simpa using hk
  subst hk0
  rfl

/-! ## Rank 2: rows of an [N, C] table -/

section RowGather2

variable {N R C w : Nat} (d : GatherDims ⟨2, ![N, C]⟩ ⟨2, ![R, 1]⟩ ⟨2, ![R, C]⟩)
  (hoff : d.offsetDims = [1]) (hcoll : d.collapsedSliceDims = [0]) (hob : d.operandBatchingDims = [])
  (hsim : d.startIndexMap = [0]) (hivd : d.indexVectorDim = 1)

include hoff hsim hivd in
/-- The start-indices position a result element reads its row number at: its own row, column 0. -/
theorem rowGather2_siIdx (j : (⟨2, ![R, C]⟩ : Shape).Idx) (c : Fin d.startIndexMap.length) :
    d.siIdx j c = ix2 (j 0) 0 := by
  have hbd : d.batchDims = [0] := by
    show Shape.kept _ d.offsetDims = [0]
    rw [hoff]; rfl
  funext b
  match b with
  | ⟨0, _⟩ =>
    unfold GatherDims.siIdx
    rw [dif_neg (by rw [hivd]; exact Nat.zero_ne_one)]
    unfold GatherDims.siCoord
    apply Fin.ext
    simp only [Fin.val_cast]
    rw [getElem_of_list_eq_singleton hbd]
  | ⟨1, _⟩ =>
    unfold GatherDims.siIdx
    rw [dif_pos (by rw [hivd])]
    apply Fin.ext
    have hc := c.isLt
    have hl : d.startIndexMap.length = 1 := by rw [hsim]; rfl
    show c.val = 0
    omega

include hoff hcoll hob hsim hivd in
/-- The ROW gather of an [N, C] table at result element `(e, j)`: the table's element in column `j` of the row that
    word `e` of the index column names, read signed and clamped into the table. -/
theorem rowGather2_apply {α : Type} (x : (⟨2, ![N, C]⟩ : Shape).Idx → α) (idx : IVec ⟨2, ![R, 1]⟩ w) (e : Fin R)
    (j : Fin C) (hN : 0 < N) :
    Host.gather d x idx (ix2 e j) = x (ix2 ⟨min (idx (ix2 e 0)).toInt.toNat (N - 1), by omega⟩ j) := by
  unfold Host.gather
  congr 1
  have hb : ∀ a : Fin 2, a ∉ d.operandBatchingDims := fun a => by rw [hob]; exact List.not_mem_nil
  have hsk : d.sKept = [1] := by
    show Shape.kept _ (d.collapsedSliceDims ++ d.operandBatchingDims) = [1]
    rw [hcoll, hob]; rfl
  funext a
  apply Fin.ext
  match a with
  | ⟨0, _⟩ =>
    have hk : (0 : Fin 2) ∉ d.sKept := by rw [hsk]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0
      = min (idx (ix2 e 0)).toInt.toNat (N - 1)
    rw [GatherDims.batchCoord_eq_zero _ _ _ (hb 0), GatherDims.offCoord_eq_zero _ _ _ hk, Nat.add_zero]
    unfold GatherDims.start
    rw [dif_pos hm, rowGather2_siIdx d hoff hsim hivd, hsl]
    rfl
  | ⟨1, _⟩ =>
    have hk : (1 : Fin 2) ∈ d.sKept := by rw [hsk]; simp
    have hp : List.idxOf (1 : Fin 2) d.sKept = 0 := by rw [hsk]; rfl
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add, getElem_of_list_eq_of_pos hoff hp _ (by simp)]
    rfl

end RowGather2

/-! ## Rank 3: rows of an [N, A, B] table -/

section RowGather3

variable {N R A B w : Nat} (d : GatherDims ⟨3, ![N, A, B]⟩ ⟨2, ![R, 1]⟩ ⟨3, ![R, A, B]⟩)
  (hoff : d.offsetDims = [1, 2]) (hcoll : d.collapsedSliceDims = [0]) (hob : d.operandBatchingDims = [])
  (hsim : d.startIndexMap = [0]) (hivd : d.indexVectorDim = 1)

include hoff hsim hivd in
/-- The start-indices position a result element reads its row number at: its own row, column 0. -/
theorem rowGather3_siIdx (j : (⟨3, ![R, A, B]⟩ : Shape).Idx) (c : Fin d.startIndexMap.length) :
    d.siIdx j c = ix2 (j 0) 0 := by
  have hbd : d.batchDims = [0] := by
    show Shape.kept _ d.offsetDims = [0]
    rw [hoff]; rfl
  funext b
  match b with
  | ⟨0, _⟩ =>
    unfold GatherDims.siIdx
    rw [dif_neg (by rw [hivd]; exact Nat.zero_ne_one)]
    unfold GatherDims.siCoord
    apply Fin.ext
    simp only [Fin.val_cast]
    rw [getElem_of_list_eq_singleton hbd]
  | ⟨1, _⟩ =>
    unfold GatherDims.siIdx
    rw [dif_pos (by rw [hivd])]
    apply Fin.ext
    have hc := c.isLt
    have hl : d.startIndexMap.length = 1 := by rw [hsim]; rfl
    show c.val = 0
    omega

include hoff hcoll hob hsim hivd in
/-- The ROW gather of an [N, A, B] table at result element `(e, a, b)`: the table's element `(a, b)` of the row
    that word `e` of the index column names, read signed and clamped into the table. -/
theorem rowGather3_apply {α : Type} (x : (⟨3, ![N, A, B]⟩ : Shape).Idx → α) (idx : IVec ⟨2, ![R, 1]⟩ w) (e : Fin R)
    (a : Fin A) (b : Fin B) (hN : 0 < N) :
    Host.gather d x idx (ix3 e a b) = x (ix3 ⟨min (idx (ix2 e 0)).toInt.toNat (N - 1), by omega⟩ a b) := by
  unfold Host.gather
  congr 1
  have hb : ∀ c : Fin 3, c ∉ d.operandBatchingDims := fun c => by rw [hob]; exact List.not_mem_nil
  have hsk : d.sKept = [1, 2] := by
    show Shape.kept _ (d.collapsedSliceDims ++ d.operandBatchingDims) = [1, 2]
    rw [hcoll, hob]; rfl
  funext c
  apply Fin.ext
  match c with
  | ⟨0, _⟩ =>
    have hk : (0 : Fin 3) ∉ d.sKept := by rw [hsk]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 e a b) idx 0 + d.batchCoord (ix3 e a b) 0 + d.offCoord (ix3 e a b) 0
      = min (idx (ix2 e 0)).toInt.toNat (N - 1)
    rw [GatherDims.batchCoord_eq_zero _ _ _ (hb 0), GatherDims.offCoord_eq_zero _ _ _ hk, Nat.add_zero]
    unfold GatherDims.start
    rw [dif_pos hm, rowGather3_siIdx d hoff hsim hivd, hsl]
    rfl
  | ⟨1, _⟩ =>
    have hk : (1 : Fin 3) ∈ d.sKept := by rw [hsk]; simp
    have hp : List.idxOf (1 : Fin 3) d.sKept = 0 := by rw [hsk]; rfl
    have hm : (1 : Fin 3) ∉ d.startIndexMap := by rw [hsim]; simp
    show d.start (ix3 e a b) idx 1 + d.batchCoord (ix3 e a b) 1 + d.offCoord (ix3 e a b) 1 = a.val
    rw [GatherDims.batchCoord_eq_zero _ _ _ (hb 1), Nat.add_zero]
    unfold GatherDims.start GatherDims.offCoord
    rw [dif_neg hm, dif_pos hk, Nat.zero_add, getElem_of_list_eq_of_pos hoff hp _ (by simp)]
    rfl
  | ⟨2, _⟩ =>
    have hk : (2 : Fin 3) ∈ d.sKept := by rw [hsk]; simp
    have hp : List.idxOf (2 : Fin 3) d.sKept = 1 := by rw [hsk]; rfl
    have hm : (2 : Fin 3) ∉ d.startIndexMap := by rw [hsim]; simp
    show d.start (ix3 e a b) idx 2 + d.batchCoord (ix3 e a b) 2 + d.offCoord (ix3 e a b) 2 = b.val
    rw [GatherDims.batchCoord_eq_zero _ _ _ (hb 2), Nat.add_zero]
    unfold GatherDims.start GatherDims.offCoord
    rw [dif_neg hm, dif_pos hk, Nat.zero_add, getElem_of_list_eq_of_pos hoff hp _ (by simp)]
    rfl

end RowGather3

end Idealize.ShloMosaic.ValueIdx
-- ==== Proof.KI.Host1.lean ====
/-
  The kernel program's buffers at the third region's entry, read as the specification's arrays, at the exact instance:
  a float is an extended real and every operation the exact one.

  The first stretch of host operations lays the query, key and value weight matrices side by side and their bias rows
  end to end; the first region multiplies the node features against that, so its result's three bands of 128 columns
  are the three affine maps of the node features (column `off + j` of the side-by-side matrix is column `j` of the
  matrix that band belongs to, and likewise for the biases), and the second stretch cuts the three bands apart. The
  second region leaves the two affine maps of the edge arrays. The third stretch makes a column of row numbers from
  each index array (a negative word moved up by the number of nodes) and gathers rows by it: result row `e` is the row
  of the table that word `e` names, read signed and clamped into the table, which is the specification's `rowIx`. So
  the gathered key and value rows are the key and value maps at each edge's source node, the gathered query rows the
  query map at its target node; the two edge maps and the target index array pass through the stretch untouched.
-/
import proofs.«127344_j38285338476696_1_alg».proof.Proof.Gen.KernelIdeal.Launch
import proofs.«127344_j38285338476696_1_alg».proof.Proof.Gen.KernelIdeal.Skeleton
import proofs.«127344_j38285338476696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«127344_j38285338476696_1_alg».proof.Proof.KI.Run
import proofs.«127344_j38285338476696_1_alg».proof.Proof.KI.Final01
import proofs.«127344_j38285338476696_1_alg».proof.Proof.KI.CatLin
import proofs.«127344_j38285338476696_1_alg».proof.Proof.KI.Cols
import proofs.«127344_j38285338476696_1_alg».proof.Proof.Spec
import proofs.«127344_j38285338476696_1_alg».proof.Proof.LibRowGather
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ)

/-! ## The first stretch: the three weight matrices side by side, the three bias rows end to end -/

theorem W1_v0 (c : Dev nD) : W1 m c main_v0 = concatenate S128x384 1 [⟨S128x128, m ((c : Thread nD τ).loc main_arg5)⟩, ⟨S128x128, m ((c : Thread nD τ).loc main_arg7)⟩, ⟨S128x128, m ((c : Thread nD τ).loc main_arg9)⟩] concatenates_S128x128_S128x128_S128x128_S128x384_d1 := by
  show StableHlo.after hostOps0 (W0 m c) (Proc.devRef .tc main_v0) = _
  after_results <;> rfl

theorem W1_v1 (c : Dev nD) : W1 m c main_v1 = concatenate S384 0 [⟨S128, m ((c : Thread nD τ).loc main_arg6)⟩, ⟨S128, m ((c : Thread nD τ).loc main_arg8)⟩, ⟨S128, m ((c : Thread nD τ).loc main_arg10)⟩] concatenates_S128_S128_S128_S384_d0 := by
  show StableHlo.after hostOps0 (W0 m c) (Proc.devRef .tc main_v1) = _
  after_results <;> rfl

theorem W1_arg0 (c : Dev nD) : W1 m c main_arg0 = m ((c : Thread nD τ).loc main_arg0) := (W1_keep m c main_arg0 (by decide)).trans rfl

/-! ## The first region: the node features against the side-by-side weights -/

theorem W2_v2 (c : Dev nD) : (W2 m c main_v2 : S50000x384.Idx → EReal) = fun i => Cert.Spec.lin (m ((c : Thread nD τ).loc main_arg0) : S50000x128.Idx → EReal) (W1 m c main_v0 : S128x384.Idx → EReal) (W1 m c main_v1 : S384.Idx → EReal) (i 0) (i 1) := by
  refine (W2_arr m c 3).trans ?_
  refine (final0_3 (V1 m) c).trans ?_
  have e0 : V1 m c (Pipeline.arrRef spec0 0) = m ((c : Thread nD τ).loc main_arg0) := W1_arg0 m c
  have e1 : V1 m c (Pipeline.arrRef spec0 1) = W1 m c main_v0 := rfl
  have e2 : V1 m c (Pipeline.arrRef spec0 2) = W1 m c main_v1 := rfl
  rw [e0, e1, e2]

/-! ## The second stretch: the three column bands of the first region's result are the three affine maps -/

theorem W3_v3_raw (c : Dev nD) : W3 m c main_v3 = extractStridedSlice S50000x128 ![0, 0] (W2 m c main_v2 : S50000x384.Idx → EReal) slices_S50000x384_S50000x128_0_0 := by
  show StableHlo.after hostOps1 (W2 m c) (Proc.devRef .tc main_v3) = _
  after_results <;> rfl

theorem W3_v3 (c : Dev nD) : (W3 m c main_v3 : S50000x128.Idx → EReal) = fun i => Cert.Spec.lin (m ((c : Thread nD τ).loc main_arg0) : S50000x128.Idx → EReal) (m ((c : Thread nD τ).loc main_arg5) : S128x128.Idx → EReal) (m ((c : Thread nD τ).loc main_arg6) : S128.Idx → EReal) (i 0) (i 1) := by
  rw [W3_v3_raw, W2_v2, W1_v0, W1_v1]
  funext i
  obtain ⟨n, j, rfl⟩ : ∃ n j, i = ix2 n j := ⟨i 0, i 1, eq_ix2 i⟩
  refine ((slice_cols _ n j).1).trans ?_
  exact (lin_cat _ _ _ _ _ _ _ n j).1

theorem W3_v4_raw (c : Dev nD) : W3 m c main_v4 = extractStridedSlice S50000x128 ![0, 128] (W2 m c main_v2 : S50000x384.Idx → EReal) slices_S50000x384_S50000x128_0_128 := by
  show StableHlo.after hostOps1 (W2 m c) (Proc.devRef .tc main_v4) = _
  after_results <;> rfl

theorem W3_v4 (c : Dev nD) : (W3 m c main_v4 : S50000x128.Idx → EReal) = fun i => Cert.Spec.lin (m ((c : Thread nD τ).loc main_arg0) : S50000x128.Idx → EReal) (m ((c : Thread nD τ).loc main_arg7) : S128x128.Idx → EReal) (m ((c : Thread nD τ).loc main_arg8) : S128.Idx → EReal) (i 0) (i 1) := by
  rw [W3_v4_raw, W2_v2, W1_v0, W1_v1]
  funext i
  obtain ⟨n, j, rfl⟩ : ∃ n j, i = ix2 n j := ⟨i 0, i 1, eq_ix2 i⟩
  refine ((slice_cols _ n j).2.1).trans ?_
  exact (lin_cat _ _ _ _ _ _ _ n j).2.1

theorem W3_v5_raw (c : Dev nD) : W3 m c main_v5 = extractStridedSlice S50000x128 ![0, 256] (W2 m c main_v2 : S50000x384.Idx → EReal) slices_S50000x384_S50000x128_0_256 := by
  show StableHlo.after hostOps1 (W2 m c) (Proc.devRef .tc main_v5) = _
  after_results <;> rfl

theorem W3_v5 (c : Dev nD) : (W3 m c main_v5 : S50000x128.Idx → EReal) = fun i => Cert.Spec.lin (m ((c : Thread nD τ).loc main_arg0) : S50000x128.Idx → EReal) (m ((c : Thread nD τ).loc main_arg9) : S128x128.Idx → EReal) (m ((c : Thread nD τ).loc main_arg10) : S128.Idx → EReal) (i 0) (i 1) := by
  rw [W3_v5_raw, W2_v2, W1_v0, W1_v1]
  funext i
  obtain ⟨n, j, rfl⟩ : ∃ n j, i = ix2 n j := ⟨i 0, i 1, eq_ix2 i⟩
  refine ((slice_cols _ n j).2.2).trans ?_
  exact (lin_cat _ _ _ _ _ _ _ n j).2.2

/-! ## The second region: the two edge maps; what it leaves alone -/

/-- An argument array reaches the second region's entry as launched. -/
theorem W3_arg (c : Dev nD) (b : Ref sig .tc) (h0 : b ∉ (hostOps0_W : List (Ref sig .tc))) (h1 : b ≠ main_v2)
    (h2 : b ∉ (hostOps1_W : List (Ref sig .tc))) : W3 m c b = m ((c : Thread nD τ).loc b) :=
  (W3_keep m c b h2).trans <| (W2_keep m c b h1).trans <| (W1_keep m c b h0).trans rfl

theorem W4_v6_0 (c : Dev nD) : (W4 m c main_v6_0 : S800000x128.Idx → EReal) = fun i => Cert.Spec.lin (m ((c : Thread nD τ).loc main_arg1) : S800000x128.Idx → EReal) (m ((c : Thread nD τ).loc main_arg11) : S128x128.Idx → EReal) (m ((c : Thread nD τ).loc main_arg12) : S128.Idx → EReal) (i 0) (i 1) := by
  refine (W4_arr m c 6).trans ?_
  refine (final1_6 (V3 m) c).trans ?_
  have e0 : V3 m c (Pipeline.arrRef spec1 0) = m ((c : Thread nD τ).loc main_arg1) := W3_arg m c main_arg1 (by decide) (by decide) (by decide)
  have e2 : V3 m c (Pipeline.arrRef spec1 2) = m ((c : Thread nD τ).loc main_arg11) := W3_arg m c main_arg11 (by decide) (by decide) (by decide)
  have e3 : V3 m c (Pipeline.arrRef spec1 3) = m ((c : Thread nD τ).loc main_arg12) := W3_arg m c main_arg12 (by decide) (by decide) (by decide)
  rw [e0, e2, e3]

theorem W4_v6_1 (c : Dev nD) : (W4 m c main_v6_1 : S800000x128.Idx → EReal) = fun i => Cert.Spec.lin (m ((c : Thread nD τ).loc main_arg2) : S800000x128.Idx → EReal) (m ((c : Thread nD τ).loc main_arg13) : S128x128.Idx → EReal) (m ((c : Thread nD τ).loc main_arg14) : S128.Idx → EReal) (i 0) (i 1) := by
  refine (W4_arr m c 7).trans ?_
  refine (final1_7 (V3 m) c).trans ?_
  have e1 : V3 m c (Pipeline.arrRef spec1 1) = m ((c : Thread nD τ).loc main_arg2) := W3_arg m c main_arg2 (by decide) (by decide) (by decide)
  have e4 : V3 m c (Pipeline.arrRef spec1 4) = m ((c : Thread nD τ).loc main_arg13) := W3_arg m c main_arg13 (by decide) (by decide) (by decide)
  have e5 : V3 m c (Pipeline.arrRef spec1 5) = m ((c : Thread nD τ).loc main_arg14) := W3_arg m c main_arg14 (by decide) (by decide) (by decide)
  rw [e1, e4, e5]

/-- An argument array reaches the third stretch as launched. -/
theorem W4_arg (c : Dev nD) (b : Ref sig .tc) (h0 : b ∉ (hostOps0_W : List (Ref sig .tc))) (h1 : b ≠ main_v2)
    (h2 : b ∉ (hostOps1_W : List (Ref sig .tc))) (h3 : b ≠ main_v6_0) (h3' : b ≠ main_v6_1) : W4 m c b = m ((c : Thread nD τ).loc b) :=
  (W4_keep m c b h3 h3').trans (W3_arg m c b h0 h1 h2)

/-! ## The third stretch: the gathered key, query and value rows; the edge maps and the target indices pass through -/

theorem W5_v13_raw (c : Dev nD) : W5 m c main_v13 = Host.gather gather_S50000x128_S800000x1_S800000x128_1_0_n_n_0_1_1128 (W4 m c main_v4 : S50000x128.Idx → EReal) (wrapCol (W4 m c main_arg3)) := by
  show StableHlo.after hostOps2 (W4 m c) (Proc.devRef .tc main_v13) = _
  after_results <;> rfl

theorem W5_kg (c : Dev nD) : W5 m c main_v13 = Cert.Spec.kgA (argsOf m c) := by
  rw [W5_v13_raw, W4_keep m c main_v4 (by decide) (by decide), W3_v4,
    W4_arg m c main_arg3 (by decide) (by decide) (by decide) (by decide) (by decide)]
  funext i
  obtain ⟨e, j, rfl⟩ : ∃ e j, i = ix2 e j := ⟨i 0, i 1, eq_ix2 i⟩
  refine (rowGather2_apply gather_S50000x128_S800000x1_S800000x128_1_0_n_n_0_1_1128 rfl rfl rfl rfl rfl _ _ e j (by decide)).trans ?_
  rfl

theorem W5_v20_raw (c : Dev nD) : W5 m c main_v20 = Host.gather gather_S50000x128_S800000x1_S800000x128_1_0_n_n_0_1_1128 (W4 m c main_v3 : S50000x128.Idx → EReal) (wrapCol (W4 m c main_arg4)) := by
  show StableHlo.after hostOps2 (W4 m c) (Proc.devRef .tc main_v20) = _
  after_results <;> rfl

theorem W5_qg (c : Dev nD) : W5 m c main_v20 = Cert.Spec.qgA (argsOf m c) := by
  rw [W5_v20_raw, W4_keep m c main_v3 (by decide) (by decide), W3_v3,
    W4_arg m c main_arg4 (by decide) (by decide) (by decide) (by decide) (by decide)]
  funext i
  obtain ⟨e, j, rfl⟩ : ∃ e j, i = ix2 e j := ⟨i 0, i 1, eq_ix2 i⟩
  refine (rowGather2_apply gather_S50000x128_S800000x1_S800000x128_1_0_n_n_0_1_1128 rfl rfl rfl rfl rfl _ _ e j (by decide)).trans ?_
  rfl

theorem W5_v27_raw (c : Dev nD) : W5 m c main_v27 = Host.gather gather_S50000x128_S800000x1_S800000x128_1_0_n_n_0_1_1128 (W4 m c main_v5 : S50000x128.Idx → EReal) (wrapCol (W4 m c main_arg3)) := by
  show StableHlo.after hostOps2 (W4 m c) (Proc.devRef .tc main_v27) = _
  after_results <;> rfl

theorem W5_vg (c : Dev nD) : W5 m c main_v27 = Cert.Spec.vgA (argsOf m c) := by
  rw [W5_v27_raw, W4_keep m c main_v5 (by decide) (by decide), W3_v5,
    W4_arg m c main_arg3 (by decide) (by decide) (by decide) (by decide) (by decide)]
  funext i
  obtain ⟨e, j, rfl⟩ : ∃ e j, i = ix2 e j := ⟨i 0, i 1, eq_ix2 i⟩
  refine (rowGather2_apply gather_S50000x128_S800000x1_S800000x128_1_0_n_n_0_1_1128 rfl rfl rfl rfl rfl _ _ e j (by decide)).trans ?_
  rfl

theorem W5_pe (c : Dev nD) : W5 m c main_v6_0 = Cert.Spec.peA (argsOf m c) :=
  (W5_keep m c main_v6_0 (by decide)).trans (W4_v6_0 m c)

theorem W5_pkr (c : Dev nD) : W5 m c main_v6_1 = Cert.Spec.pkrA (argsOf m c) :=
  (W5_keep m c main_v6_1 (by decide)).trans (W4_v6_1 m c)

theorem W5_dst (c : Dev nD) : W5 m c main_arg4 = m ((c : Thread nD τ).loc main_arg4) :=
  (W5_keep m c main_arg4 (by decide)).trans (W4_arg m c main_arg4 (by decide) (by decide) (by decide) (by decide) (by decide))

end Cert.KernelIdeal.Hand

end
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.Pay2.lean ====
/-
  The third kernel's values at an index, on the extended reals.

  Per block of 2000 edges: the score of an edge in a flat channel is key times query times a quarter, plus the second
  edge map, times the first; the weight of an edge in a head is the exponential of the head's sixteen-channel sum of
  scores clamped to [-5, 5]; the weighted value of an edge in a flat channel is its value times the weight of the
  channel's head.
-/
import proofs.«127344_j38285338476696_1_alg».proof.Proof.Gen.KernelIdeal.Skeleton
import proofs.«127344_j38285338476696_1_alg».proof.Proof.Spec
import proofs.«127344_j38285338476696_1_alg».proof.Proof.LibColumnCast
import proofs.«127344_j38285338476696_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The score at row `p` and flat channel `j`. -/
theorem pay2_eo_apply (x0 x1 x3 x4 : Vec Ideal S2000x128 .f32) (p : Fin 2000) (j : Fin 128) :
    k2_pay4 (F := Ideal) x0 x1 x3 x4 (ix2 p j) = Cert.Spec.eoR x0 x1 x3 x4 p j := by
  unfold k2_pay4 Cert.Spec.eoR
  simp only [shapeCast_self, mulf_apply, addf_apply, broadcast_apply]
  rfl

/-- Sixteen lanes of a 128-channel array from column `o`, summed and viewed as a column: at row `p` the sum of the
    sixteen channels `c d`, where `c d` is channel `o + d`. -/
theorem headsum_apply (X : FVec Ideal S2000x128 .f32) (o : Nat) (h : S2000x128.Slices ![0, o] S2000x16)
    (p : Fin 2000) (u : Fin 1) (c : Fin 16 → Fin 128) (hc : ∀ d, (c d).val = o + d.val) :
    shapeCast S2000x1 (multiReduction (F := Ideal) .add [1] S2000 (extractStridedSlice S2000x16 ![0, o] X h)
      0x00000000#32 reduces_S2000x16_S2000 (.inl rfl) rfl) shapeCasts_S2000_S2000x1 (ix2 p u)
      = ∑ d : Fin 16, X (ix2 p (c d)) := by
  refine (shapeCast_a_a1_apply _ _ p u).trans ?_
  refine (Ideal.multiReduction_add_single _ _ _ _ _ _).trans ?_
  refine Finset.sum_congr rfl fun d _ => ?_
  have hl : reduces_S2000x16_S2000.lift (ix1 p) d = ix2 p d := by
    funext a
    match a with
    | ⟨0, _⟩ => rfl
    | ⟨1, _⟩ => rfl
  rw [hl]
  exact slice2_axis1_apply o X h p d (c d) (hc d)

/-- Head 0's column: at row `p` the sum of the head's sixteen scores. -/
theorem pay5_apply (x0 x1 x3 x4 : Vec Ideal S2000x128 .f32) (p : Fin 2000) (u : Fin 1) :
    k2_pay5 (F := Ideal) x0 x1 x3 x4 (ix2 p u)
      = ∑ d : Fin 16, Cert.Spec.eoR x0 x1 x3 x4 p (Cert.Spec.col ⟨0, by omega⟩ d) := by
  unfold k2_pay5
  refine (headsum_apply _ 0 _ p u (Cert.Spec.col ⟨0, by omega⟩) (fun d => rfl)).trans ?_
  exact Finset.sum_congr rfl fun d _ => pay2_eo_apply x0 x1 x3 x4 p _

/-- Head 1's column: at row `p` the sum of the head's sixteen scores. -/
theorem pay6_apply (x0 x1 x3 x4 : Vec Ideal S2000x128 .f32) (p : Fin 2000) (u : Fin 1) :
    k2_pay6 (F := Ideal) x0 x1 x3 x4 (ix2 p u)
      = ∑ d : Fin 16, Cert.Spec.eoR x0 x1 x3 x4 p (Cert.Spec.col ⟨1, by omega⟩ d) := by
  unfold k2_pay6
  refine (headsum_apply _ 16 _ p u (Cert.Spec.col ⟨1, by omega⟩) (fun d => rfl)).trans ?_
  exact Finset.sum_congr rfl fun d _ => pay2_eo_apply x0 x1 x3 x4 p _

/-- Head 2's column: at row `p` the sum of the head's sixteen scores. -/
theorem pay7_apply (x0 x1 x3 x4 : Vec Ideal S2000x128 .f32) (p : Fin 2000) (u : Fin 1) :
    k2_pay7 (F := Ideal) x0 x1 x3 x4 (ix2 p u)
      = ∑ d : Fin 16, Cert.Spec.eoR x0 x1 x3 x4 p (Cert.Spec.col ⟨2, by omega⟩ d) := by
  unfold k2_pay7
  refine (headsum_apply _ 32 _ p u (Cert.Spec.col ⟨2, by omega⟩) (fun d => rfl)).trans ?_
  exact Finset.sum_congr rfl fun d _ => pay2_eo_apply x0 x1 x3 x4 p _

/-- Head 3's column: at row `p` the sum of the head's sixteen scores. -/
theorem pay8_apply (x0 x1 x3 x4 : Vec Ideal S2000x128 .f32) (p : Fin 2000) (u : Fin 1) :
    k2_pay8 (F := Ideal) x0 x1 x3 x4 (ix2 p u)
      = ∑ d : Fin 16, Cert.Spec.eoR x0 x1 x3 x4 p (Cert.Spec.col ⟨3, by omega⟩ d) := by
  unfold k2_pay8
  refine (headsum_apply _ 48 _ p u (Cert.Spec.col ⟨3, by omega⟩) (fun d => rfl)).trans ?_
  exact Finset.sum_congr rfl fun d _ => pay2_eo_apply x0 x1 x3 x4 p _

/-- Head 4's column: at row `p` the sum of the head's sixteen scores. -/
theorem pay9_apply (x0 x1 x3 x4 : Vec Ideal S2000x128 .f32) (p : Fin 2000) (u : Fin 1) :
    k2_pay9 (F := Ideal) x0 x1 x3 x4 (ix2 p u)
      = ∑ d : Fin 16, Cert.Spec.eoR x0 x1 x3 x4 p (Cert.Spec.col ⟨4, by omega⟩ d) := by
  unfold k2_pay9
  refine (headsum_apply _ 64 _ p u (Cert.Spec.col ⟨4, by omega⟩) (fun d => rfl)).trans ?_
  exact Finset.sum_congr rfl fun d _ => pay2_eo_apply x0 x1 x3 x4 p _

/-- Head 5's column: at row `p` the sum of the head's sixteen scores. -/
theorem pay10_apply (x0 x1 x3 x4 : Vec Ideal S2000x128 .f32) (p : Fin 2000) (u : Fin 1) :
    k2_pay10 (F := Ideal) x0 x1 x3 x4 (ix2 p u)
      = ∑ d : Fin 16, Cert.Spec.eoR x0 x1 x3 x4 p (Cert.Spec.col ⟨5, by omega⟩ d) := by
  unfold k2_pay10
  refine (headsum_apply _ 80 _ p u (Cert.Spec.col ⟨5, by omega⟩) (fun d => rfl)).trans ?_
  exact Finset.sum_congr rfl fun d _ => pay2_eo_apply x0 x1 x3 x4 p _

/-- Head 6's column: at row `p` the sum of the head's sixteen scores. -/
theorem pay11_apply (x0 x1 x3 x4 : Vec Ideal S2000x128 .f32) (p : Fin 2000) (u : Fin 1) :
    k2_pay11 (F := Ideal) x0 x1 x3 x4 (ix2 p u)
      = ∑ d : Fin 16, Cert.Spec.eoR x0 x1 x3 x4 p (Cert.Spec.col ⟨6, by omega⟩ d) := by
  unfold k2_pay11
  refine (headsum_apply _ 96 _ p u (Cert.Spec.col ⟨6, by omega⟩) (fun d => rfl)).trans ?_
  exact Finset.sum_congr rfl fun d _ => pay2_eo_apply x0 x1 x3 x4 p _

/-- Head 7's column, summed from its sixteen-lane window: at row `p` the sum of the head's sixteen scores. -/
theorem pay12_sum_apply (x0 x1 x3 x4 : Vec Ideal S2000x128 .f32) (p : Fin 2000) (u : Fin 1) :
    shapeCast S2000x1 (multiReduction (F := Ideal) .add [1] S2000 (k2_pay12 x0 x1 x3 x4)
      0x00000000#32 reduces_S2000x16_S2000 (.inl rfl) rfl) shapeCasts_S2000_S2000x1 (ix2 p u)
      = ∑ d : Fin 16, Cert.Spec.eoR x0 x1 x3 x4 p (Cert.Spec.col ⟨7, by omega⟩ d) := by
  unfold k2_pay12
  refine (headsum_apply _ 112 _ p u (Cert.Spec.col ⟨7, by omega⟩) (fun d => rfl)).trans ?_
  exact Finset.sum_congr rfl fun d _ => pay2_eo_apply x0 x1 x3 x4 p _

/-- Eight columns side by side: at row `p` and column `hh`, column `hh` at row `p`. -/
theorem concat8_col_apply (c0 c1 c2 c3 c4 c5 c6 c7 : FVec Ideal S2000x1 .f32) (p : Fin 2000) (hh : Fin 8) :
    concatenate S2000x8 1 [⟨S2000x1, c0⟩, ⟨S2000x1, c1⟩, ⟨S2000x1, c2⟩, ⟨S2000x1, c3⟩, ⟨S2000x1, c4⟩, ⟨S2000x1, c5⟩, ⟨S2000x1, c6⟩, ⟨S2000x1, c7⟩]
      concatenates_S2000x1_S2000x1_S2000x1_S2000x1_S2000x1_S2000x1_S2000x1_S2000x1_S2000x8_d1 (ix2 p hh)
      = (![c0, c1, c2, c3, c4, c5, c6, c7] hh) (ix2 p (0 : Fin 1)) := by
  have hi : ∀ hh : Fin 8, ∀ b : Fin S2000x1.rank, b.cast (rfl : S2000x1.rank = S2000x8.rank) ≠ (1 : Fin S2000x8.rank) →
      ((ix2 p (0 : Fin 1) : S2000x1.Idx) b).val = ((ix2 p hh : S2000x8.Idx) (b.cast rfl)).val := by
    intro hh b hb
    match b with
    | ⟨0, _⟩ => rfl
    | ⟨1, _⟩ => exact absurd rfl hb
  match hh with
  | ⟨0, hlt⟩ => exact concatenate_apply_piece 1 [⟨S2000x1, c0⟩, ⟨S2000x1, c1⟩, ⟨S2000x1, c2⟩, ⟨S2000x1, c3⟩, ⟨S2000x1, c4⟩, ⟨S2000x1, c5⟩, ⟨S2000x1, c6⟩, ⟨S2000x1, c7⟩] concatenates_S2000x1_S2000x1_S2000x1_S2000x1_S2000x1_S2000x1_S2000x1_S2000x1_S2000x8_d1 (ix2 p (⟨0, hlt⟩ : Fin 8)) 0 (by show 0 < 8; omega) S2000x1 c0 rfl rfl 0 rfl (ix2 p (0 : Fin 1)) (hi _) rfl
  | ⟨1, hlt⟩ => exact concatenate_apply_piece 1 [⟨S2000x1, c0⟩, ⟨S2000x1, c1⟩, ⟨S2000x1, c2⟩, ⟨S2000x1, c3⟩, ⟨S2000x1, c4⟩, ⟨S2000x1, c5⟩, ⟨S2000x1, c6⟩, ⟨S2000x1, c7⟩] concatenates_S2000x1_S2000x1_S2000x1_S2000x1_S2000x1_S2000x1_S2000x1_S2000x1_S2000x8_d1 (ix2 p (⟨1, hlt⟩ : Fin 8)) 1 (by show 1 < 8; omega) S2000x1 c1 rfl rfl 1 rfl (ix2 p (0 : Fin 1)) (hi _) rfl
  | ⟨2, hlt⟩ => exact concatenate_apply_piece 1 [⟨S2000x1, c0⟩, ⟨S2000x1, c1⟩, ⟨S2000x1, c2⟩, ⟨S2000x1, c3⟩, ⟨S2000x1, c4⟩, ⟨S2000x1, c5⟩, ⟨S2000x1, c6⟩, ⟨S2000x1, c7⟩] concatenates_S2000x1_S2000x1_S2000x1_S2000x1_S2000x1_S2000x1_S2000x1_S2000x1_S2000x8_d1 (ix2 p (⟨2, hlt⟩ : Fin 8)) 2 (by show 2 < 8; omega) S2000x1 c2 rfl rfl 2 rfl (ix2 p (0 : Fin 1)) (hi _) rfl
  | ⟨3, hlt⟩ => exact concatenate_apply_piece 1 [⟨S2000x1, c0⟩, ⟨S2000x1, c1⟩, ⟨S2000x1, c2⟩, ⟨S2000x1, c3⟩, ⟨S2000x1, c4⟩, ⟨S2000x1, c5⟩, ⟨S2000x1, c6⟩, ⟨S2000x1, c7⟩] concatenates_S2000x1_S2000x1_S2000x1_S2000x1_S2000x1_S2000x1_S2000x1_S2000x1_S2000x8_d1 (ix2 p (⟨3, hlt⟩ : Fin 8)) 3 (by show 3 < 8; omega) S2000x1 c3 rfl rfl 3 rfl (ix2 p (0 : Fin 1)) (hi _) rfl
  | ⟨4, hlt⟩ => exact concatenate_apply_piece 1 [⟨S2000x1, c0⟩, ⟨S2000x1, c1⟩, ⟨S2000x1, c2⟩, ⟨S2000x1, c3⟩, ⟨S2000x1, c4⟩, ⟨S2000x1, c5⟩, ⟨S2000x1, c6⟩, ⟨S2000x1, c7⟩] concatenates_S2000x1_S2000x1_S2000x1_S2000x1_S2000x1_S2000x1_S2000x1_S2000x1_S2000x8_d1 (ix2 p (⟨4, hlt⟩ : Fin 8)) 4 (by show 4 < 8; omega) S2000x1 c4 rfl rfl 4 rfl (ix2 p (0 : Fin 1)) (hi _) rfl
  | ⟨5, hlt⟩ => exact concatenate_apply_piece 1 [⟨S2000x1, c0⟩, ⟨S2000x1, c1⟩, ⟨S2000x1, c2⟩, ⟨S2000x1, c3⟩, ⟨S2000x1, c4⟩, ⟨S2000x1, c5⟩, ⟨S2000x1, c6⟩, ⟨S2000x1, c7⟩] concatenates_S2000x1_S2000x1_S2000x1_S2000x1_S2000x1_S2000x1_S2000x1_S2000x1_S2000x8_d1 (ix2 p (⟨5, hlt⟩ : Fin 8)) 5 (by show 5 < 8; omega) S2000x1 c5 rfl rfl 5 rfl (ix2 p (0 : Fin 1)) (hi _) rfl
  | ⟨6, hlt⟩ => exact concatenate_apply_piece 1 [⟨S2000x1, c0⟩, ⟨S2000x1, c1⟩, ⟨S2000x1, c2⟩, ⟨S2000x1, c3⟩, ⟨S2000x1, c4⟩, ⟨S2000x1, c5⟩, ⟨S2000x1, c6⟩, ⟨S2000x1, c7⟩] concatenates_S2000x1_S2000x1_S2000x1_S2000x1_S2000x1_S2000x1_S2000x1_S2000x1_S2000x8_d1 (ix2 p (⟨6, hlt⟩ : Fin 8)) 6 (by show 6 < 8; omega) S2000x1 c6 rfl rfl 6 rfl (ix2 p (0 : Fin 1)) (hi _) rfl
  | ⟨7, hlt⟩ => exact concatenate_apply_piece 1 [⟨S2000x1, c0⟩, ⟨S2000x1, c1⟩, ⟨S2000x1, c2⟩, ⟨S2000x1, c3⟩, ⟨S2000x1, c4⟩, ⟨S2000x1, c5⟩, ⟨S2000x1, c6⟩, ⟨S2000x1, c7⟩] concatenates_S2000x1_S2000x1_S2000x1_S2000x1_S2000x1_S2000x1_S2000x1_S2000x1_S2000x8_d1 (ix2 p (⟨7, hlt⟩ : Fin 8)) 7 (by show 7 < 8; omega) S2000x1 c7 rfl rfl 7 rfl (ix2 p (0 : Fin 1)) (hi _) rfl

/-- The weight at row `p` and head `hh`. -/
theorem pay2_sc_apply (x0 x1 x3 x4 : Vec Ideal S2000x128 .f32) (p : Fin 2000) (hh : Fin 8) :
    k2_pay1 (F := Ideal) (k2_pay5 x0 x1 x3 x4) (k2_pay6 x0 x1 x3 x4) (k2_pay7 x0 x1 x3 x4) (k2_pay8 x0 x1 x3 x4) (k2_pay9 x0 x1 x3 x4) (k2_pay10 x0 x1 x3 x4) (k2_pay11 x0 x1 x3 x4) (k2_pay12 x0 x1 x3 x4) (ix2 p hh) = Cert.Spec.scR x0 x1 x3 x4 p hh := by
  unfold k2_pay1 Cert.Spec.scR
  refine congrArg Ideal.exp (congrArg (min _) (congrArg (max _) ?_))
  refine (concat8_col_apply _ _ _ _ _ _ _ _ p hh).trans ?_
  match hh with
  | ⟨0, _⟩ => exact pay5_apply x0 x1 x3 x4 p 0
  | ⟨1, _⟩ => exact pay6_apply x0 x1 x3 x4 p 0
  | ⟨2, _⟩ => exact pay7_apply x0 x1 x3 x4 p 0
  | ⟨3, _⟩ => exact pay8_apply x0 x1 x3 x4 p 0
  | ⟨4, _⟩ => exact pay9_apply x0 x1 x3 x4 p 0
  | ⟨5, _⟩ => exact pay10_apply x0 x1 x3 x4 p 0
  | ⟨6, _⟩ => exact pay11_apply x0 x1 x3 x4 p 0
  | ⟨7, _⟩ => exact pay12_sum_apply x0 x1 x3 x4 p 0

/-- Eight sixteen-channel pieces side by side: at row `p` and channel `d` of head `hh`, piece `hh` at `(p, d)`. -/
theorem concat8_wide_apply (b0 b1 b2 b3 b4 b5 b6 b7 : FVec Ideal S2000x16 .f32) (p : Fin 2000) (hh : Fin 8) (d : Fin 16) :
    concatenate S2000x128 1 [⟨S2000x16, b0⟩, ⟨S2000x16, b1⟩, ⟨S2000x16, b2⟩, ⟨S2000x16, b3⟩, ⟨S2000x16, b4⟩, ⟨S2000x16, b5⟩, ⟨S2000x16, b6⟩, ⟨S2000x16, b7⟩]
      concatenates_S2000x16_S2000x16_S2000x16_S2000x16_S2000x16_S2000x16_S2000x16_S2000x16_S2000x128_d1
      (ix2 p (Cert.Spec.col hh d)) = (![b0, b1, b2, b3, b4, b5, b6, b7] hh) (ix2 p d) := by
  have hi : ∀ hh : Fin 8, ∀ b : Fin S2000x16.rank, b.cast (rfl : S2000x16.rank = S2000x128.rank) ≠ (1 : Fin S2000x128.rank) →
      ((ix2 p d : S2000x16.Idx) b).val = ((ix2 p (Cert.Spec.col hh d) : S2000x128.Idx) (b.cast rfl)).val := by
    intro hh b hb
    match b with
    | ⟨0, _⟩ => rfl
    | ⟨1, _⟩ => exact absurd rfl hb
  match hh with
  | ⟨0, hlt⟩ => exact concatenate_apply_piece 1 [⟨S2000x16, b0⟩, ⟨S2000x16, b1⟩, ⟨S2000x16, b2⟩, ⟨S2000x16, b3⟩, ⟨S2000x16, b4⟩, ⟨S2000x16, b5⟩, ⟨S2000x16, b6⟩, ⟨S2000x16, b7⟩] concatenates_S2000x16_S2000x16_S2000x16_S2000x16_S2000x16_S2000x16_S2000x16_S2000x16_S2000x128_d1 (ix2 p (Cert.Spec.col (⟨0, hlt⟩ : Fin 8) d)) 0 (by show 0 < 8; omega) S2000x16 b0 rfl rfl 0 rfl (ix2 p d) (hi _) rfl
  | ⟨1, hlt⟩ => exact concatenate_apply_piece 1 [⟨S2000x16, b0⟩, ⟨S2000x16, b1⟩, ⟨S2000x16, b2⟩, ⟨S2000x16, b3⟩, ⟨S2000x16, b4⟩, ⟨S2000x16, b5⟩, ⟨S2000x16, b6⟩, ⟨S2000x16, b7⟩] concatenates_S2000x16_S2000x16_S2000x16_S2000x16_S2000x16_S2000x16_S2000x16_S2000x16_S2000x128_d1 (ix2 p (Cert.Spec.col (⟨1, hlt⟩ : Fin 8) d)) 1 (by show 1 < 8; omega) S2000x16 b1 rfl rfl 16 rfl (ix2 p d) (hi _) rfl
  | ⟨2, hlt⟩ => exact concatenate_apply_piece 1 [⟨S2000x16, b0⟩, ⟨S2000x16, b1⟩, ⟨S2000x16, b2⟩, ⟨S2000x16, b3⟩, ⟨S2000x16, b4⟩, ⟨S2000x16, b5⟩, ⟨S2000x16, b6⟩, ⟨S2000x16, b7⟩] concatenates_S2000x16_S2000x16_S2000x16_S2000x16_S2000x16_S2000x16_S2000x16_S2000x16_S2000x128_d1 (ix2 p (Cert.Spec.col (⟨2, hlt⟩ : Fin 8) d)) 2 (by show 2 < 8; omega) S2000x16 b2 rfl rfl 32 rfl (ix2 p d) (hi _) rfl
  | ⟨3, hlt⟩ => exact concatenate_apply_piece 1 [⟨S2000x16, b0⟩, ⟨S2000x16, b1⟩, ⟨S2000x16, b2⟩, ⟨S2000x16, b3⟩, ⟨S2000x16, b4⟩, ⟨S2000x16, b5⟩, ⟨S2000x16, b6⟩, ⟨S2000x16, b7⟩] concatenates_S2000x16_S2000x16_S2000x16_S2000x16_S2000x16_S2000x16_S2000x16_S2000x16_S2000x128_d1 (ix2 p (Cert.Spec.col (⟨3, hlt⟩ : Fin 8) d)) 3 (by show 3 < 8; omega) S2000x16 b3 rfl rfl 48 rfl (ix2 p d) (hi _) rfl
  | ⟨4, hlt⟩ => exact concatenate_apply_piece 1 [⟨S2000x16, b0⟩, ⟨S2000x16, b1⟩, ⟨S2000x16, b2⟩, ⟨S2000x16, b3⟩, ⟨S2000x16, b4⟩, ⟨S2000x16, b5⟩, ⟨S2000x16, b6⟩, ⟨S2000x16, b7⟩] concatenates_S2000x16_S2000x16_S2000x16_S2000x16_S2000x16_S2000x16_S2000x16_S2000x16_S2000x128_d1 (ix2 p (Cert.Spec.col (⟨4, hlt⟩ : Fin 8) d)) 4 (by show 4 < 8; omega) S2000x16 b4 rfl rfl 64 rfl (ix2 p d) (hi _) rfl
  | ⟨5, hlt⟩ => exact concatenate_apply_piece 1 [⟨S2000x16, b0⟩, ⟨S2000x16, b1⟩, ⟨S2000x16, b2⟩, ⟨S2000x16, b3⟩, ⟨S2000x16, b4⟩, ⟨S2000x16, b5⟩, ⟨S2000x16, b6⟩, ⟨S2000x16, b7⟩] concatenates_S2000x16_S2000x16_S2000x16_S2000x16_S2000x16_S2000x16_S2000x16_S2000x16_S2000x128_d1 (ix2 p (Cert.Spec.col (⟨5, hlt⟩ : Fin 8) d)) 5 (by show 5 < 8; omega) S2000x16 b5 rfl rfl 80 rfl (ix2 p d) (hi _) rfl
  | ⟨6, hlt⟩ => exact concatenate_apply_piece 1 [⟨S2000x16, b0⟩, ⟨S2000x16, b1⟩, ⟨S2000x16, b2⟩, ⟨S2000x16, b3⟩, ⟨S2000x16, b4⟩, ⟨S2000x16, b5⟩, ⟨S2000x16, b6⟩, ⟨S2000x16, b7⟩] concatenates_S2000x16_S2000x16_S2000x16_S2000x16_S2000x16_S2000x16_S2000x16_S2000x16_S2000x128_d1 (ix2 p (Cert.Spec.col (⟨6, hlt⟩ : Fin 8) d)) 6 (by show 6 < 8; omega) S2000x16 b6 rfl rfl 96 rfl (ix2 p d) (hi _) rfl
  | ⟨7, hlt⟩ => exact concatenate_apply_piece 1 [⟨S2000x16, b0⟩, ⟨S2000x16, b1⟩, ⟨S2000x16, b2⟩, ⟨S2000x16, b3⟩, ⟨S2000x16, b4⟩, ⟨S2000x16, b5⟩, ⟨S2000x16, b6⟩, ⟨S2000x16, b7⟩] concatenates_S2000x16_S2000x16_S2000x16_S2000x16_S2000x16_S2000x16_S2000x16_S2000x16_S2000x128_d1 (ix2 p (Cert.Spec.col (⟨7, hlt⟩ : Fin 8) d)) 7 (by show 7 < 8; omega) S2000x16 b7 rfl rfl 112 rfl (ix2 p d) (hi _) rfl

/-- One column of an eight-column array spread over sixteen channels: at `(p, d)` the array at row `p` of that column. -/
theorem piece_apply (W : FVec Ideal S2000x8 .f32) (k : Nat) (h : S2000x8.Slices ![0, k] S2000x1) (p : Fin 2000) (d : Fin 16)
    (hh : Fin 8) (hk : hh.val = k) :
    broadcastTo S2000x16 (shapeCast S2000x1 (extractStridedSlice S2000x1 ![0, k] W h) shapeCasts_S2000x1_S2000x1)
      broadcasts_S2000x1_S2000x16 (ix2 p d) = W (ix2 p hh) := by
  refine (broadcastTo_a1_ab_apply _ _ p d).trans ?_
  rw [shapeCast_self]
  exact slice2_axis1_apply k W h p (0 : Fin 1) hh (by rw [hk]; rfl)

/-- The weighted value at row `p` and flat channel `j`. -/
theorem pay2_wv_apply (x0 x1 x2 x3 x4 : Vec Ideal S2000x128 .f32) (p : Fin 2000) (j : Fin 128) :
    k2_pay2 (F := Ideal) (k2_pay3 x2) (k2_pay5 x0 x1 x3 x4) (k2_pay6 x0 x1 x3 x4) (k2_pay7 x0 x1 x3 x4) (k2_pay8 x0 x1 x3 x4) (k2_pay9 x0 x1 x3 x4) (k2_pay10 x0 x1 x3 x4) (k2_pay11 x0 x1 x3 x4) (k2_pay12 x0 x1 x3 x4) (ix2 p j) = Cert.Spec.wvR x0 x1 x2 x3 x4 p j := by
  obtain ⟨hh, d, rfl⟩ : ∃ (hh : Fin 8) (d : Fin 16), j = Cert.Spec.col hh d :=
    ⟨Cert.Spec.headOf j, ⟨j.val % 16, Nat.mod_lt _ (by omega)⟩,
      Fin.ext (by show j.val = 16 * (j.val / 16) + j.val % 16; omega)⟩
  unfold k2_pay2 k2_pay3 Cert.Spec.wvR
  rw [Cert.Spec.headOf_col]
  refine (mulf_apply _ _ _).trans ?_
  rw [shapeCast_self]
  refine congrArg (x2 (ix2 p (Cert.Spec.col hh d)) * ·) ?_
  refine (concat8_wide_apply _ _ _ _ _ _ _ _ p hh d).trans ?_
  match hh with
  | ⟨0, hlt⟩ => exact (piece_apply _ 0 slices_S2000x8_o0_0_S2000x1 p d ⟨0, hlt⟩ rfl).trans (pay2_sc_apply x0 x1 x3 x4 p _)
  | ⟨1, hlt⟩ => exact (piece_apply _ 1 slices_S2000x8_o0_1_S2000x1 p d ⟨1, hlt⟩ rfl).trans (pay2_sc_apply x0 x1 x3 x4 p _)
  | ⟨2, hlt⟩ => exact (piece_apply _ 2 slices_S2000x8_o0_2_S2000x1 p d ⟨2, hlt⟩ rfl).trans (pay2_sc_apply x0 x1 x3 x4 p _)
  | ⟨3, hlt⟩ => exact (piece_apply _ 3 slices_S2000x8_o0_3_S2000x1 p d ⟨3, hlt⟩ rfl).trans (pay2_sc_apply x0 x1 x3 x4 p _)
  | ⟨4, hlt⟩ => exact (piece_apply _ 4 slices_S2000x8_o0_4_S2000x1 p d ⟨4, hlt⟩ rfl).trans (pay2_sc_apply x0 x1 x3 x4 p _)
  | ⟨5, hlt⟩ => exact (piece_apply _ 5 slices_S2000x8_o0_5_S2000x1 p d ⟨5, hlt⟩ rfl).trans (pay2_sc_apply x0 x1 x3 x4 p _)
  | ⟨6, hlt⟩ => exact (piece_apply _ 6 slices_S2000x8_o0_6_S2000x1 p d ⟨6, hlt⟩ rfl).trans (pay2_sc_apply x0 x1 x3 x4 p _)
  | ⟨7, hlt⟩ => exact (piece_apply _ 7 slices_S2000x8_o0_7_S2000x1 p d ⟨7, hlt⟩ rfl).trans (pay2_sc_apply x0 x1 x3 x4 p _)

end Cert.KernelIdeal.Pay

end
-- ==== Proof.KI.Final2.lean ====
/-
  The three arrays the edge-attention kernel (the third pallas_call) leaves, each as ONE function of the arrays the
  region finds, on the extended reals.

  Every output window is written back at every grid point, point `t`'s block being rows 2000 t … 2000 t + 1999 of its
  array and all of its columns; every input window's block at point `t` is the same rows of its own array. The edge
  arithmetic (scores, weights, weighted values) reads its five arrays at one edge row only, so its value at row `p` of
  the blocks at point `t` is its value at edge 2000 t + p of the whole arrays. Hence what point `t` writes back is block
  `t` of the whole-array function, the blocks cover the arrays (row `r` is in the block of point r / 2000), and the
  arrays end holding: the scores `eoR`, the weighted values `wvR`, the weights `scR` of the gathered keys, queries,
  values and the two edge maps, index by index.
-/
import proofs.«127344_j38285338476696_1_alg».proof.Proof.Gen.KernelIdeal.Launch
import proofs.«127344_j38285338476696_1_alg».proof.Proof.Gen.KernelIdeal.Skeleton
import proofs.«127344_j38285338476696_1_alg».proof.Proof.Gen.KernelIdeal.Points
import proofs.«127344_j38285338476696_1_alg».proof.Proof.KI.Body2
import proofs.«127344_j38285338476696_1_alg».proof.Proof.KI.Pay2
import proofs.«127344_j38285338476696_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

open Cert.KernelIdeal.Pay

variable (V : (c : Dev nD) → (b : Ref sig .tc) → Buf (Elt Ideal) ((c : Thread nD τ).loc b))

/-- The body's rectangles start at the origin. -/
theorem origin2 : (![0, 0] : Fin 2 → Nat) = fun _ => 0 := funext fun a => by fin_cases a <;> rfl

/-- Every window's block at point `t` is block row `t`, at column block 0. -/
theorem idx_rows2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-- Row `p` of block `t` is row `2000 t + p` of the edges. -/
abbrev erow (t : Fin cfg2.N) (p : Fin 2000) : Fin Cert.Spec.nE :=
  ⟨2000 * t.val + p.val, by have := t.isLt; have hN : cfg2.N = 400 := N_2; have := p.isLt; show 2000 * t.val + p.val < 800000; omega⟩

/-! ## The edge arithmetic reads its arrays at one row -/

section Rows
variable {R R' : ℕ} (kg qg vg pe pkr : (⟨2, ![R, 128]⟩ : Shape).Idx → EReal) (kg' qg' vg' pe' pkr' : (⟨2, ![R', 128]⟩ : Shape).Idx → EReal)
  (e : Fin R) (e' : Fin R')

theorem eoR_rows (hk : ∀ j, kg' (ix2 e' j) = kg (ix2 e j)) (hq : ∀ j, qg' (ix2 e' j) = qg (ix2 e j))
    (hpe : ∀ j, pe' (ix2 e' j) = pe (ix2 e j)) (hpkr : ∀ j, pkr' (ix2 e' j) = pkr (ix2 e j)) (j : Fin 128) :
    Cert.Spec.eoR kg' qg' pe' pkr' e' j = Cert.Spec.eoR kg qg pe pkr e j := by
  unfold Cert.Spec.eoR
  rw [hk, hq, hpe, hpkr]

theorem scR_rows (hk : ∀ j, kg' (ix2 e' j) = kg (ix2 e j)) (hq : ∀ j, qg' (ix2 e' j) = qg (ix2 e j))
    (hpe : ∀ j, pe' (ix2 e' j) = pe (ix2 e j)) (hpkr : ∀ j, pkr' (ix2 e' j) = pkr (ix2 e j)) (hh : Fin 8) :
    Cert.Spec.scR kg' qg' pe' pkr' e' hh = Cert.Spec.scR kg qg pe pkr e hh := by
  unfold Cert.Spec.scR
  rw [Finset.sum_congr rfl fun d _ => eoR_rows kg qg pe pkr kg' qg' pe' pkr' e e' hk hq hpe hpkr (Cert.Spec.col hh d)]

theorem wvR_rows (hk : ∀ j, kg' (ix2 e' j) = kg (ix2 e j)) (hq : ∀ j, qg' (ix2 e' j) = qg (ix2 e j)) (hv : ∀ j, vg' (ix2 e' j) = vg (ix2 e j))
    (hpe : ∀ j, pe' (ix2 e' j) = pe (ix2 e j)) (hpkr : ∀ j, pkr' (ix2 e' j) = pkr (ix2 e j)) (j : Fin 128) :
    Cert.Spec.wvR kg' qg' vg' pe' pkr' e' j = Cert.Spec.wvR kg qg vg pe pkr e j := by
  unfold Cert.Spec.wvR
  rw [hv, scR_rows kg qg pe pkr kg' qg' pe' pkr' e e' hk hq hpe hpkr]

end Rows

/-! ## The input blocks as rows of their arrays -/

theorem iblk2_0_apply (c : Dev nD) (t : Fin cfg2.N) (p : Fin 2000) (j : Fin 128) :
    (iblk2 V c 0 t : Vec Ideal S2000x128 .f32) (ix2 p j) = (V c (Pipeline.arrRef spec2 0) : (⟨2, ![Cert.Spec.nE, 128]⟩ : Shape).Idx → EReal) (ix2 (erow t p) j) := by
  obtain ⟨⟨h0_0, h0_1⟩, ⟨h1_0, h1_1⟩, ⟨h2_0, h2_1⟩, ⟨h3_0, h3_1⟩, ⟨h4_0, h4_1⟩, -⟩ := idx_rows2 t
  unfold iblk2
  rw [View.read_apply]
  have h : ((cfg2.win 0).blk t).view.emb (ix2 p j) = (ix2 (erow t p) j : S800000x128.Idx) := by
    funext a
    apply Fin.ext
    match a with
    | ⟨0, _⟩ => show win2_0.index t (0 : Fin 2) * 2000 + 1 * p.val = 2000 * t.val + p.val; rw [h0_0]; omega
    | ⟨1, _⟩ => show win2_0.index t (1 : Fin 2) * 128 + 1 * j.val = j.val; rw [h0_1]; omega
  exact congrArg (V c (Pipeline.arrRef spec2 0)) h
theorem iblk2_1_apply (c : Dev nD) (t : Fin cfg2.N) (p : Fin 2000) (j : Fin 128) :
    (iblk2 V c 1 t : Vec Ideal S2000x128 .f32) (ix2 p j) = (V c (Pipeline.arrRef spec2 1) : (⟨2, ![Cert.Spec.nE, 128]⟩ : Shape).Idx → EReal) (ix2 (erow t p) j) := by
  obtain ⟨⟨h0_0, h0_1⟩, ⟨h1_0, h1_1⟩, ⟨h2_0, h2_1⟩, ⟨h3_0, h3_1⟩, ⟨h4_0, h4_1⟩, -⟩ := idx_rows2 t
  unfold iblk2
  rw [View.read_apply]
  have h : ((cfg2.win 1).blk t).view.emb (ix2 p j) = (ix2 (erow t p) j : S800000x128.Idx) := by
    funext a
    apply Fin.ext
    match a with
    | ⟨0, _⟩ => show win2_1.index t (0 : Fin 2) * 2000 + 1 * p.val = 2000 * t.val + p.val; rw [h1_0]; omega
    | ⟨1, _⟩ => show win2_1.index t (1 : Fin 2) * 128 + 1 * j.val = j.val; rw [h1_1]; omega
  exact congrArg (V c (Pipeline.arrRef spec2 1)) h
theorem iblk2_2_apply (c : Dev nD) (t : Fin cfg2.N) (p : Fin 2000) (j : Fin 128) :
    (iblk2 V c 2 t : Vec Ideal S2000x128 .f32) (ix2 p j) = (V c (Pipeline.arrRef spec2 2) : (⟨2, ![Cert.Spec.nE, 128]⟩ : Shape).Idx → EReal) (ix2 (erow t p) j) := by
  obtain ⟨⟨h0_0, h0_1⟩, ⟨h1_0, h1_1⟩, ⟨h2_0, h2_1⟩, ⟨h3_0, h3_1⟩, ⟨h4_0, h4_1⟩, -⟩ := idx_rows2 t
  unfold iblk2
  rw [View.read_apply]
  have h : ((cfg2.win 2).blk t).view.emb (ix2 p j) = (ix2 (erow t p) j : S800000x128.Idx) := by
    funext a
    apply Fin.ext
    match a with
    | ⟨0, _⟩ => show win2_2.index t (0 : Fin 2) * 2000 + 1 * p.val = 2000 * t.val + p.val; rw [h2_0]; omega
    | ⟨1, _⟩ => show win2_2.index t (1 : Fin 2) * 128 + 1 * j.val = j.val; rw [h2_1]; omega
  exact congrArg (V c (Pipeline.arrRef spec2 2)) h
theorem iblk2_3_apply (c : Dev nD) (t : Fin cfg2.N) (p : Fin 2000) (j : Fin 128) :
    (iblk2 V c 3 t : Vec Ideal S2000x128 .f32) (ix2 p j) = (V c (Pipeline.arrRef spec2 3) : (⟨2, ![Cert.Spec.nE, 128]⟩ : Shape).Idx → EReal) (ix2 (erow t p) j) := by
  obtain ⟨⟨h0_0, h0_1⟩, ⟨h1_0, h1_1⟩, ⟨h2_0, h2_1⟩, ⟨h3_0, h3_1⟩, ⟨h4_0, h4_1⟩, -⟩ := idx_rows2 t
  unfold iblk2
  rw [View.read_apply]
  have h : ((cfg2.win 3).blk t).view.emb (ix2 p j) = (ix2 (erow t p) j : S800000x128.Idx) := by
    funext a
    apply Fin.ext
    match a with
    | ⟨0, _⟩ => show win2_3.index t (0 : Fin 2) * 2000 + 1 * p.val = 2000 * t.val + p.val; rw [h3_0]; omega
    | ⟨1, _⟩ => show win2_3.index t (1 : Fin 2) * 128 + 1 * j.val = j.val; rw [h3_1]; omega
  exact congrArg (V c (Pipeline.arrRef spec2 3)) h
theorem iblk2_4_apply (c : Dev nD) (t : Fin cfg2.N) (p : Fin 2000) (j : Fin 128) :
    (iblk2 V c 4 t : Vec Ideal S2000x128 .f32) (ix2 p j) = (V c (Pipeline.arrRef spec2 4) : (⟨2, ![Cert.Spec.nE, 128]⟩ : Shape).Idx → EReal) (ix2 (erow t p) j) := by
  obtain ⟨⟨h0_0, h0_1⟩, ⟨h1_0, h1_1⟩, ⟨h2_0, h2_1⟩, ⟨h3_0, h3_1⟩, ⟨h4_0, h4_1⟩, -⟩ := idx_rows2 t
  unfold iblk2
  rw [View.read_apply]
  have h : ((cfg2.win 4).blk t).view.emb (ix2 p j) = (ix2 (erow t p) j : S800000x128.Idx) := by
    funext a
    apply Fin.ext
    match a with
    | ⟨0, _⟩ => show win2_4.index t (0 : Fin 2) * 2000 + 1 * p.val = 2000 * t.val + p.val; rw [h4_0]; omega
    | ⟨1, _⟩ => show win2_4.index t (1 : Fin 2) * 128 + 1 * j.val = j.val; rw [h4_1]; omega
  exact congrArg (V c (Pipeline.arrRef spec2 4)) h

/-! ## The scores -/

/-- The scores array as one function of the arrays the region finds. -/
abbrev scoresOf (c : Dev nD) : (⟨2, ![Cert.Spec.nE, 128]⟩ : Shape).Idx → EReal := fun i =>
  Cert.Spec.eoR (R := Cert.Spec.nE) (V c (Pipeline.arrRef spec2 0)) (V c (Pipeline.arrRef spec2 1)) (V c (Pipeline.arrRef spec2 3)) (V c (Pipeline.arrRef spec2 4)) (i 0) (i 1)

/-- The body's scores at row `p` of block `t` are the arrays' scores at edge `2000 t + p`. -/
theorem eo_block2 (c : Dev nD) (t : Fin cfg2.N) (p : Fin 2000) (j : Fin 128) :
    k2_pay4 (F := Ideal) (iblk2 V c 0 t) (iblk2 V c 1 t) (iblk2 V c 3 t) (iblk2 V c 4 t) (ix2 p j)
      = Cert.Spec.eoR (R := Cert.Spec.nE) (V c (Pipeline.arrRef spec2 0)) (V c (Pipeline.arrRef spec2 1)) (V c (Pipeline.arrRef spec2 3)) (V c (Pipeline.arrRef spec2 4)) (erow t p) j :=
  (pay2_eo_apply (iblk2 V c 0 t) (iblk2 V c 1 t) (iblk2 V c 3 t) (iblk2 V c 4 t) p j).trans
    (eoR_rows (R := Cert.Spec.nE) (R' := 2000) (V c (Pipeline.arrRef spec2 0)) (V c (Pipeline.arrRef spec2 1)) (V c (Pipeline.arrRef spec2 3)) (V c (Pipeline.arrRef spec2 4))
      (iblk2 V c 0 t) (iblk2 V c 1 t) (iblk2 V c 3 t) (iblk2 V c 4 t) (erow t p) p
      (iblk2_0_apply V c t p) (iblk2_1_apply V c t p) (iblk2_3_apply V c t p) (iblk2_4_apply V c t p) j)

/-- What point `t` writes back to the scores array is block `t` of `scoresOf`. -/
theorem flushed2_5_eq (c : Dev nD) (t : Fin cfg2.N) :
    (dat2 V c).flushed 5 t = ((cfg2.win 5).blk t).view.read (Elt Ideal) (scoresOf V c) := by
  show (cfg2.win 5).cut (grid2.coords t) ((dat2 V c).after 5 t) = _
  rw [after2_5]
  unfold out2_5
  rw [View.canon_unit_zero origin2]
  simp only [View.ld_unit_zero (S := S2000x128) origin2]
  obtain ⟨-, -, -, -, -, ⟨h0, h1⟩, -, -⟩ := idx_rows2 t
  funext y
  have hy : (cfg2.win 5).xinj (grid2.coords t) y = (ix2 (⟨(y 0).val, (y 0).isLt⟩ : Fin 2000) (⟨(y 1).val, (y 1).isLt⟩ : Fin 128) : S2000x128.Idx) := by
    funext a; match a with | ⟨0, _⟩ => rfl | ⟨1, _⟩ => rfl
  refine (congrArg (k2_pay4 (F := Ideal) (iblk2 V c 0 t) (iblk2 V c 1 t) (iblk2 V c 3 t) (iblk2 V c 4 t)) hy).trans ?_
  refine (eo_block2 V c t _ _).trans ?_
  have e0 : erow t ⟨(y 0).val, (y 0).isLt⟩ = (((cfg2.win 5).blk t).view.emb y) 0 :=
    Fin.ext (by show 2000 * t.val + (y 0).val = win2_5.index t (0 : Fin 2) * 2000 + 1 * (y 0).val; rw [h0]; omega)
  have e1 : (⟨(y 1).val, (y 1).isLt⟩ : Fin 128) = (((cfg2.win 5).blk t).view.emb y) 1 :=
    Fin.ext (by show (y 1).val = win2_5.index t (1 : Fin 2) * 128 + 1 * (y 1).val; rw [h1]; omega)
  rw [e0, e1]
  rfl

/-- An index of the scores array is in point `t`'s block iff each coordinate is in the block's range on its axis. -/
theorem mem_blk2_5 (t : Fin cfg2.N) (i : S800000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v28_0).slice (win2_5.rect t)).set ↔ _
  rw [View.set_slice_whole, Rect.mem_set_unit]
  exact Iff.rfl

/-- Every index of the scores array is in the block of the point its row names. -/
theorem covered2_5 (i : S800000x128.Idx) : ∃ t : Fin cfg2.N, (cfg2.win 5).flush t = true ∧ i ∈ ((cfg2.win 5).blk t).view.set := by
  have hi0 : (i 0).val < 800000 := (i 0).isLt
  have hi1 : (i 1).val < 128 := (i 1).isLt
  have hN : cfg2.N = 400 := N_2
  have ht : (i 0).val / 2000 < cfg2.N := by rw [hN]; omega
  obtain ⟨-, -, -, -, -, ⟨h0, h1⟩, -, -⟩ := idx_rows2 ⟨(i 0).val / 2000, ht⟩
  refine ⟨⟨(i 0).val / 2000, ht⟩, flush2_5 _, ?_⟩
  rw [mem_blk2_5]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [h1]; omega

/-- The scores array after the run: the arrays' scores, edge by edge and channel by channel. -/
theorem final2_5 (c : Dev nD) : (dat2 V c).arrAt 5 cfg2.N = fun i => Cert.Spec.eoR (V c (Pipeline.arrRef spec2 0)) (V c (Pipeline.arrRef spec2 1)) (V c (Pipeline.arrRef spec2 3)) (V c (Pipeline.arrRef spec2 4)) (i 0) (i 1) :=
  (dat2 V c).arrAt_eq_of_cover 5 (scoresOf V c) (fun t _ => flushed2_5_eq V c t) covered2_5

/-! ## The weighted values -/

/-- The weighted-values array as one function of the arrays the region finds. -/
abbrev weightedOf (c : Dev nD) : (⟨2, ![Cert.Spec.nE, 128]⟩ : Shape).Idx → EReal := fun i =>
  Cert.Spec.wvR (R := Cert.Spec.nE) (V c (Pipeline.arrRef spec2 0)) (V c (Pipeline.arrRef spec2 1)) (V c (Pipeline.arrRef spec2 2)) (V c (Pipeline.arrRef spec2 3)) (V c (Pipeline.arrRef spec2 4)) (i 0) (i 1)

/-- The body's weighted values at row `p` of block `t` are the arrays' at edge `2000 t + p`. -/
theorem wv_block2 (c : Dev nD) (t : Fin cfg2.N) (p : Fin 2000) (j : Fin 128) :
    k2_pay2 (F := Ideal) (k2_pay3 (iblk2 V c 2 t)) (k2_pay5 (iblk2 V c 0 t) (iblk2 V c 1 t) (iblk2 V c 3 t) (iblk2 V c 4 t)) (k2_pay6 (iblk2 V c 0 t) (iblk2 V c 1 t) (iblk2 V c 3 t) (iblk2 V c 4 t)) (k2_pay7 (iblk2 V c 0 t) (iblk2 V c 1 t) (iblk2 V c 3 t) (iblk2 V c 4 t)) (k2_pay8 (iblk2 V c 0 t) (iblk2 V c 1 t) (iblk2 V c 3 t) (iblk2 V c 4 t)) (k2_pay9 (iblk2 V c 0 t) (iblk2 V c 1 t) (iblk2 V c 3 t) (iblk2 V c 4 t)) (k2_pay10 (iblk2 V c 0 t) (iblk2 V c 1 t) (iblk2 V c 3 t) (iblk2 V c 4 t)) (k2_pay11 (iblk2 V c 0 t) (iblk2 V c 1 t) (iblk2 V c 3 t) (iblk2 V c 4 t)) (k2_pay12 (iblk2 V c 0 t) (iblk2 V c 1 t) (iblk2 V c 3 t) (iblk2 V c 4 t)) (ix2 p j)
      = Cert.Spec.wvR (R := Cert.Spec.nE) (V c (Pipeline.arrRef spec2 0)) (V c (Pipeline.arrRef spec2 1)) (V c (Pipeline.arrRef spec2 2)) (V c (Pipeline.arrRef spec2 3)) (V c (Pipeline.arrRef spec2 4)) (erow t p) j :=
  (pay2_wv_apply (iblk2 V c 0 t) (iblk2 V c 1 t) (iblk2 V c 2 t) (iblk2 V c 3 t) (iblk2 V c 4 t) p j).trans
    (wvR_rows (R := Cert.Spec.nE) (R' := 2000) (V c (Pipeline.arrRef spec2 0)) (V c (Pipeline.arrRef spec2 1)) (V c (Pipeline.arrRef spec2 2)) (V c (Pipeline.arrRef spec2 3)) (V c (Pipeline.arrRef spec2 4))
      (iblk2 V c 0 t) (iblk2 V c 1 t) (iblk2 V c 2 t) (iblk2 V c 3 t) (iblk2 V c 4 t) (erow t p) p
      (iblk2_0_apply V c t p) (iblk2_1_apply V c t p) (iblk2_2_apply V c t p) (iblk2_3_apply V c t p) (iblk2_4_apply V c t p) j)

/-- What point `t` writes back to the weighted-values array is block `t` of `weightedOf`. -/
theorem flushed2_6_eq (c : Dev nD) (t : Fin cfg2.N) :
    (dat2 V c).flushed 6 t = ((cfg2.win 6).blk t).view.read (Elt Ideal) (weightedOf V c) := by
  show (cfg2.win 6).cut (grid2.coords t) ((dat2 V c).after 6 t) = _
  rw [after2_6]
  unfold out2_6
  rw [View.canon_unit_zero origin2]
  simp only [View.ld_unit_zero (S := S2000x128) origin2]
  obtain ⟨-, -, -, -, -, -, ⟨h0, h1⟩, -⟩ := idx_rows2 t
  funext y
  have hy : (cfg2.win 6).xinj (grid2.coords t) y = (ix2 (⟨(y 0).val, (y 0).isLt⟩ : Fin 2000) (⟨(y 1).val, (y 1).isLt⟩ : Fin 128) : S2000x128.Idx) := by
    funext a; match a with | ⟨0, _⟩ => rfl | ⟨1, _⟩ => rfl
  refine (congrArg (k2_pay2 (F := Ideal) (k2_pay3 (iblk2 V c 2 t)) (k2_pay5 (iblk2 V c 0 t) (iblk2 V c 1 t) (iblk2 V c 3 t) (iblk2 V c 4 t)) (k2_pay6 (iblk2 V c 0 t) (iblk2 V c 1 t) (iblk2 V c 3 t) (iblk2 V c 4 t)) (k2_pay7 (iblk2 V c 0 t) (iblk2 V c 1 t) (iblk2 V c 3 t) (iblk2 V c 4 t)) (k2_pay8 (iblk2 V c 0 t) (iblk2 V c 1 t) (iblk2 V c 3 t) (iblk2 V c 4 t)) (k2_pay9 (iblk2 V c 0 t) (iblk2 V c 1 t) (iblk2 V c 3 t) (iblk2 V c 4 t)) (k2_pay10 (iblk2 V c 0 t) (iblk2 V c 1 t) (iblk2 V c 3 t) (iblk2 V c 4 t)) (k2_pay11 (iblk2 V c 0 t) (iblk2 V c 1 t) (iblk2 V c 3 t) (iblk2 V c 4 t)) (k2_pay12 (iblk2 V c 0 t) (iblk2 V c 1 t) (iblk2 V c 3 t) (iblk2 V c 4 t))) hy).trans ?_
  refine (wv_block2 V c t _ _).trans ?_
  have e0 : erow t ⟨(y 0).val, (y 0).isLt⟩ = (((cfg2.win 6).blk t).view.emb y) 0 :=
    Fin.ext (by show 2000 * t.val + (y 0).val = win2_6.index t (0 : Fin 2) * 2000 + 1 * (y 0).val; rw [h0]; omega)
  have e1 : (⟨(y 1).val, (y 1).isLt⟩ : Fin 128) = (((cfg2.win 6).blk t).view.emb y) 1 :=
    Fin.ext (by show (y 1).val = win2_6.index t (1 : Fin 2) * 128 + 1 * (y 1).val; rw [h1]; omega)
  rw [e0, e1]
  rfl

/-- An index of the weighted-values array is in point `t`'s block iff each coordinate is in the block's range on its axis. -/
theorem mem_blk2_6 (t : Fin cfg2.N) (i : S800000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v28_1).slice (win2_6.rect t)).set ↔ _
  rw [View.set_slice_whole, Rect.mem_set_unit]
  exact Iff.rfl

/-- Every index of the weighted-values array is in the block of the point its row names. -/
theorem covered2_6 (i : S800000x128.Idx) : ∃ t : Fin cfg2.N, (cfg2.win 6).flush t = true ∧ i ∈ ((cfg2.win 6).blk t).view.set := by
  have hi0 : (i 0).val < 800000 := (i 0).isLt
  have hi1 : (i 1).val < 128 := (i 1).isLt
  have hN : cfg2.N = 400 := N_2
  have ht : (i 0).val / 2000 < cfg2.N := by rw [hN]; omega
  obtain ⟨-, -, -, -, -, -, ⟨h0, h1⟩, -⟩ := idx_rows2 ⟨(i 0).val / 2000, ht⟩
  refine ⟨⟨(i 0).val / 2000, ht⟩, flush2_6 _, ?_⟩
  rw [mem_blk2_6]
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    rw [h1]; omega

/-- The weighted-values array after the run: the arrays' weighted values, edge by edge and channel by channel. -/
theorem final2_6 (c : Dev nD) : (dat2 V c).arrAt 6 cfg2.N = fun i => Cert.Spec.wvR (V c (Pipeline.arrRef spec2 0)) (V c (Pipeline.arrRef spec2 1)) (V c (Pipeline.arrRef spec2 2)) (V c (Pipeline.arrRef spec2 3)) (V c (Pipeline.arrRef spec2 4)) (i 0) (i 1) :=
  (dat2 V c).arrAt_eq_of_cover 6 (weightedOf V c) (fun t _ => flushed2_6_eq V c t) covered2_6

/-! ## The weights -/

/-- The weights array as one function of the arrays the region finds. -/
abbrev weightsOf (c : Dev nD) : (⟨2, ![Cert.Spec.nE, 8]⟩ : Shape).Idx → EReal := fun i =>
  Cert.Spec.scR (R := Cert.Spec.nE) (V c (Pipeline.arrRef spec2 0)) (V c (Pipeline.arrRef spec2 1)) (V c (Pipeline.arrRef spec2 3)) (V c (Pipeline.arrRef spec2 4)) (i 0) (i 1)

/-- The body's weights at row `p` of block `t` are the arrays' at edge `2000 t + p`. -/
theorem sc_block2 (c : Dev nD) (t : Fin cfg2.N) (p : Fin 2000) (hh : Fin 8) :
    k2_pay1 (F := Ideal) (k2_pay5 (iblk2 V c 0 t) (iblk2 V c 1 t) (iblk2 V c 3 t) (iblk2 V c 4 t)) (k2_pay6 (iblk2 V c 0 t) (iblk2 V c 1 t) (iblk2 V c 3 t) (iblk2 V c 4 t)) (k2_pay7 (iblk2 V c 0 t) (iblk2 V c 1 t) (iblk2 V c 3 t) (iblk2 V c 4 t)) (k2_pay8 (iblk2 V c 0 t) (iblk2 V c 1 t) (iblk2 V c 3 t) (iblk2 V c 4 t)) (k2_pay9 (iblk2 V c 0 t) (iblk2 V c 1 t) (iblk2 V c 3 t) (iblk2 V c 4 t)) (k2_pay10 (iblk2 V c 0 t) (iblk2 V c 1 t) (iblk2 V c 3 t) (iblk2 V c 4 t)) (k2_pay11 (iblk2 V c 0 t) (iblk2 V c 1 t) (iblk2 V c 3 t) (iblk2 V c 4 t)) (k2_pay12 (iblk2 V c 0 t) (iblk2 V c 1 t) (iblk2 V c 3 t) (iblk2 V c 4 t)) (ix2 p hh)
      = Cert.Spec.scR (R := Cert.Spec.nE) (V c (Pipeline.arrRef spec2 0)) (V c (Pipeline.arrRef spec2 1)) (V c (Pipeline.arrRef spec2 3)) (V c (Pipeline.arrRef spec2 4)) (erow t p) hh :=
  (pay2_sc_apply (iblk2 V c 0 t) (iblk2 V c 1 t) (iblk2 V c 3 t) (iblk2 V c 4 t) p hh).trans
    (scR_rows (R := Cert.Spec.nE) (R' := 2000) (V c (Pipeline.arrRef spec2 0)) (V c (Pipeline.arrRef spec2 1)) (V c (Pipeline.arrRef spec2 3)) (V c (Pipeline.arrRef spec2 4))
      (iblk2 V c 0 t) (iblk2 V c 1 t) (iblk2 V c 3 t) (iblk2 V c 4 t) (erow t p) p
      (iblk2_0_apply V c t p) (iblk2_1_apply V c t p) (iblk2_3_apply V c t p) (iblk2_4_apply V c t p) hh)

/-- What point `t` writes back to the weights array is block `t` of `weightsOf`. -/
theorem flushed2_7_eq (c : Dev nD) (t : Fin cfg2.N) :
    (dat2 V c).flushed 7 t = ((cfg2.win 7).blk t).view.read (Elt Ideal) (weightsOf V c) := by
  show (cfg2.win 7).cut (grid2.coords t) ((dat2 V c).after 7 t) = _
  rw [after2_7]
  unfold out2_7
  rw [View.canon_unit_zero origin2]
  simp only [View.ld_unit_zero (S := S2000x128) origin2]
  obtain ⟨-, -, -, -, -, -, -, ⟨h0, h1⟩⟩ := idx_rows2 t
  funext y
  have hy : (cfg2.win 7).xinj (grid2.coords t) y = (ix2 (⟨(y 0).val, (y 0).isLt⟩ : Fin 2000) (⟨(y 1).val, (y 1).isLt⟩ : Fin 8) : S2000x8.Idx) := by
    funext a; match a with | ⟨0, _⟩ => rfl | ⟨1, _⟩ => rfl
  refine (congrArg (k2_pay1 (F := Ideal) (k2_pay5 (iblk2 V c 0 t) (iblk2 V c 1 t) (iblk2 V c 3 t) (iblk2 V c 4 t)) (k2_pay6 (iblk2 V c 0 t) (iblk2 V c 1 t) (iblk2 V c 3 t) (iblk2 V c 4 t)) (k2_pay7 (iblk2 V c 0 t) (iblk2 V c 1 t) (iblk2 V c 3 t) (iblk2 V c 4 t)) (k2_pay8 (iblk2 V c 0 t) (iblk2 V c 1 t) (iblk2 V c 3 t) (iblk2 V c 4 t)) (k2_pay9 (iblk2 V c 0 t) (iblk2 V c 1 t) (iblk2 V c 3 t) (iblk2 V c 4 t)) (k2_pay10 (iblk2 V c 0 t) (iblk2 V c 1 t) (iblk2 V c 3 t) (iblk2 V c 4 t)) (k2_pay11 (iblk2 V c 0 t) (iblk2 V c 1 t) (iblk2 V c 3 t) (iblk2 V c 4 t)) (k2_pay12 (iblk2 V c 0 t) (iblk2 V c 1 t) (iblk2 V c 3 t) (iblk2 V c 4 t))) hy).trans ?_
  refine (sc_block2 V c t _ _).trans ?_
  have e0 : erow t ⟨(y 0).val, (y 0).isLt⟩ = (((cfg2.win 7).blk t).view.emb y) 0 :=
    Fin.ext (by show 2000 * t.val + (y 0).val = win2_7.index t (0 : Fin 2) * 2000 + 1 * (y 0).val; rw [h0]; omega)
  have e1 : (⟨(y 1).val, (y 1).isLt⟩ : Fin 8) = (((cfg2.win 7).blk t).view.emb y) 1 :=
    Fin.ext (by show (y 1).val = win2_7.index t (1 : Fin 2) * 8 + 1 * (y 1).val; rw [h1]; omega)
  rw [e0, e1]
  rfl

/-- An index of the weights array is in point `t`'s block iff each coordinate is in the block's range on its axis. -/
theorem mem_blk2_7 (t : Fin cfg2.N) (i : S800000x8.Idx) :
    i ∈ ((cfg2.win 7).blk t).view.set ↔ ∀ a : Fin 2, win2_7.index t a * S2000x8.size a ≤ (i a).val ∧ (i a).val < win2_7.index t a * S2000x8.size a + S2000x8.size a := by
  show i ∈ ((View.whole main_v28_2).slice (win2_7.rect t)).set ↔ _
  rw [View.set_slice_whole, Rect.mem_set_unit]
  exact Iff.rfl

/-- Every index of the weights array is in the block of the point its row names. -/
theorem covered2_7 (i : S800000x8.Idx) : ∃ t : Fin cfg2.N, (cfg2.win 7).flush t = true ∧ i ∈ ((cfg2.win 7).blk t).view.set := by
  have hi0 : (i 0).val < 800000 := (i 0).isLt
  have hi1 : (i 1).val < 8 := (i 1).isLt
  have hN : cfg2.N = 400 := N_2
  have ht : (i 0).val / 2000 < cfg2.N := by rw [hN]; omega
  obtain ⟨-, -, -, -, -, -, -, ⟨h0, h1⟩⟩ := idx_rows2 ⟨(i 0).val / 2000, ht⟩
  refine ⟨⟨(i 0).val / 2000, ht⟩, flush2_7 _, ?_⟩
  rw [mem_blk2_7]
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win2_7.index ⟨(i 0).val / 2000, ht⟩ (1 : Fin 2) * 8 ≤ (i 1).val ∧ (i 1).val < win2_7.index ⟨(i 0).val / 2000, ht⟩ (1 : Fin 2) * 8 + 8
    rw [h1]; omega

/-- The weights array after the run: the arrays' weights, edge by edge and head by head. -/
theorem final2_7 (c : Dev nD) : (dat2 V c).arrAt 7 cfg2.N = fun i => Cert.Spec.scR (V c (Pipeline.arrRef spec2 0)) (V c (Pipeline.arrRef spec2 1)) (V c (Pipeline.arrRef spec2 3)) (V c (Pipeline.arrRef spec2 4)) (i 0) (i 1) :=
  (dat2 V c).arrAt_eq_of_cover 7 (weightsOf V c) (fun t _ => flushed2_7_eq V c t) covered2_7

end Cert.KernelIdeal.Hand

end
-- ==== Proof.LibScatterFold.lean ====
/-
  A scatter whose body returns the update ("set"): the row-major left fold in which each update replaces the element at
  its result index. If at least one update lands on an element and every update that lands there carries the same value,
  the folded array holds that value there, whatever the order and whatever the start array.

  `foldl_proj_eq_of_hit` is the fold fact in the abstract (a state, a projection of it, steps that either set the
  projection to `v` or leave it alone); `scatter_set_apply` is it for `Host.scatter … (fun _ b => b)`;
  `rowScatter_resultIdx_eq_some_iff` reads the result index of a ROW scatter (operand [N, C], indices an [R, 1] column,
  updates [R, C]: update row `i` goes to the operand row its index word names, read signed, and is dropped when that is
  outside the operand) off the index column.
-/
import Idealize.ShloMosaic.PureOps.ShapeOps
import Idealize.ShloMosaic.Lib.ValueIdx

namespace Idealize.ShloMosaic.ScatterFold

open Idealize.ShloMosaic Idealize.ShloMosaic.ValueIdx

/-- A left fold whose steps either SET a projection of the state to `v` (the steps of `hit`) or LEAVE it (the others):
    if some step of the list hits, the projection of the result is `v`. The invariant, for every start state: the
    projection is already `v`, or a hit is still to come. -/
theorem foldl_proj_eq_of_hit {κ β α : Type} (step : β → κ → β) (π : β → α) (hit : κ → Prop) (v : α) (l : List κ)
    (hset : ∀ k ∈ l, hit k → ∀ r, π (step r k) = v)
    (hkeep : ∀ k ∈ l, ¬ hit k → ∀ r, π (step r k) = π r)
    (x : β) (hx : π x = v ∨ ∃ k ∈ l, hit k) : π (l.foldl step x) = v := by
  induction l generalizing x with
  | nil =>
    rcases hx with hx | ⟨k, hk, _⟩
    · exact hx
    · exact absurd hk List.not_mem_nil
  | cons k l ih =>
    rw [List.foldl_cons]
    refine ih (fun k' hk' => hset k' (List.mem_cons_of_mem _ hk')) (fun k' hk' => hkeep k' (List.mem_cons_of_mem _ hk')) _ ?_
    by_cases hk : hit k
    · exact Or.inl (hset k List.mem_cons_self hk x)
    · rcases hx with hx | ⟨k', hk', hh⟩
      · exact Or.inl ((hkeep k List.mem_cons_self hk x).trans hx)
      · rcases List.mem_cons.1 hk' with rfl | hk'
        · exact absurd hh hk
        · exact Or.inr ⟨k', hk', hh⟩

variable {s si u : Shape} {α : Type} {w : Nat}

/-- A "set" scatter read at `i'`: when some update's result index is `i'` and every update whose result index is `i'`
    carries `v`, the result at `i'` is `v` (the operand and the order of the updates play no part). -/
theorem scatter_set_apply (d : ScatterDims s si u) (x : s.Idx → α) (idx : IVec si w) (upd : u.Idx → α) (i' : s.Idx) (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_proj_eq_of_hit _ (fun r => r i') (fun n => d.resultIdx? (u.rowMajor.symm n) idx = some i') v _ ?_ ?_ x ?_
  · intro n _ hn r
    show (match d.resultIdx? (u.rowMajor.symm n) idx with
      | some i => fun i'' => if i'' = i then upd (u.rowMajor.symm n) else r i''
      | none => r) i' = v
    rw [hn]
    show (if i' = i' then upd (u.rowMajor.symm n) else r i') = v
    rw [if_pos rfl]
    exact hall _ hn
  · intro n _ hn r
    show (match d.resultIdx? (u.rowMajor.symm n) idx with
      | some i => fun i'' => if i'' = i then upd (u.rowMajor.symm n) else r i''
      | none => r) i' = r i'
    cases hr : d.resultIdx? (u.rowMajor.symm n) idx with
    | none => rfl
    | some i =>
      show (if i' = i then upd (u.rowMajor.symm n) else r i') = r i'
      rw [if_neg]
      intro h
      exact hn (by rw [hr, h])
  · obtain ⟨j, hj⟩ := hex
    refine Or.inr ⟨u.rowMajor j, List.mem_finRange _, ?_⟩
    show d.resultIdx? (u.rowMajor.symm (u.rowMajor j)) idx = some i'
    rw [Equiv.symm_apply_apply]
    exact hj

/-! ## The row scatter: one scalar index per update row, the window a whole row -/

section RowScatter

/-- The entries of a one-element list. -/
theorem getElem_of_eq_singleton {β : Type} {l : List β} {a : β} (h : l = [a]) (k : Nat) (hk : k < l.length) : l[k] = a := by
  subst h
  have hk0 : k = 0 := by simpa using hk
  subst hk0
  rfl

variable {N R C w : Nat} (d : ScatterDims ⟨2, ![N, C]⟩ ⟨2, ![R, 1]⟩ ⟨2, ![R, C]⟩)
  (huw : d.updateWindowDims = [1]) (hiw : d.insertedWindowDims = [0]) (hsd : d.scatterDimsToOperandDims = [0])
  (hiv : d.indexVectorDim = 1)

include hsd hiv huw in
theorem rowScatter_start_zero (idx : IVec ⟨2, ![R, 1]⟩ w) (j : (⟨2, ![R, C]⟩ : Shape).Idx) :
    d.start j idx 0 = (idx (ix2 (j 0) 0)).toInt := by
  have hm : (0 : Fin 2) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 2) d.scatterDimsToOperandDims = 0
    rw [hsd]; simp

include hsd in
theorem rowScatter_start_one (idx : IVec ⟨2, ![R, 1]⟩ w) (j : (⟨2, ![R, C]⟩ : Shape).Idx) :
    d.start j idx 1 = 0 := by
  have hm : (1 : Fin 2) ∉ d.scatterDimsToOperandDims := by rw [hsd]; simp
  unfold ScatterDims.start
  rw [dif_neg hm]

include hiw in
theorem rowScatter_window_zero (j : (⟨2, ![R, C]⟩ : Shape).Idx) : d.window j 0 = 0 := by
  have hsk : d.sKept = [1] := by
    show Shape.kept _ d.insertedWindowDims = [1]
    rw [hiw]; rfl
  have hm : (0 : Fin 2) ∉ d.sKept := by rw [hsk]; simp
  unfold ScatterDims.window
  rw [dif_neg hm]

include hiw huw in
theorem rowScatter_window_one (j : (⟨2, ![R, C]⟩ : Shape).Idx) : d.window j 1 = (j 1).val := by
  have hsk : d.sKept = [1] := by
    show Shape.kept _ d.insertedWindowDims = [1]
    rw [hiw]; rfl
  have hm : (1 : Fin 2) ∈ d.sKept := by rw [hsk]; exact List.mem_singleton.mpr rfl
  unfold ScatterDims.window
  rw [dif_pos hm, getElem_of_eq_singleton huw]

include huw hiw hsd hiv in
/-- The result index of update element `(i, c)` of a ROW scatter (one scalar index per update row, read off the
    index column; the window one whole row): it is `k` exactly when the row's index word, read signed, is `k`'s row
    and `c` is `k`'s column. -/
theorem rowScatter_resultIdx_eq_some_iff (idx : IVec ⟨2, ![R, 1]⟩ w) (i : Fin R) (c : Fin C) (k : (⟨2, ![N, C]⟩ : Shape).Idx) :
    d.resultIdx? (ix2 i c) idx = some k ↔ (idx (ix2 i 0)).toInt = ((k 0).val : Int) ∧ (k 1).val = c.val := by
  have h00 : d.start (ix2 i c) idx 0 = (idx (ix2 i 0)).toInt := rowScatter_start_zero d huw hsd hiv idx (ix2 i c)
  have h01 := rowScatter_start_one d hsd idx (ix2 i c)
  have h10 := rowScatter_window_zero d hiw (ix2 i c)
  have h11 : d.window (ix2 i c) 1 = c.val := rowScatter_window_one d huw hiw (ix2 i c)
  have e0 : d.start (ix2 i c) idx 0 + (d.window (ix2 i c) 0 : Int) = (idx (ix2 i 0)).toInt := by
    rw [h00, h10]; simp
  have e1 : d.start (ix2 i c) idx 1 + (d.window (ix2 i c) 1 : Int) = (c.val : Int) := by
    rw [h01, h11]; simp
  have hk0 := (k 0).isLt
  have hk1 := (k 1).isLt
  unfold ScatterDims.resultIdx?
  constructor
  · intro h
    split at h
    · next hin =>
      have hf := Option.some.inj h
      have f0 := congrArg (fun f => (f 0).val) hf
      have f1 := congrArg (fun f => (f 1).val) hf
      simp only at f0 f1
      have i0 := hin 0
      have i1 := hin 1
      rw [e0] at i0 f0
      rw [e1] at i1 f1
      constructor
      · omega
      · omega
    · exact absurd h (by simp)
  · rintro ⟨hr, hc⟩
    have hin : ∀ a, 0 ≤ d.start (ix2 i c) idx a + (d.window (ix2 i c) a : Int)
        ∧ d.start (ix2 i c) idx a + (d.window (ix2 i c) a : Int) < ((⟨2, ![N, C]⟩ : Shape).size a : Nat) := by
      intro a
      match a with
      | ⟨0, _⟩ =>
        show 0 ≤ d.start (ix2 i c) idx 0 + (d.window (ix2 i c) 0 : Int) ∧ d.start (ix2 i c) idx 0 + (d.window (ix2 i c) 0 : Int) < (N : Nat)
        rw [e0, hr]
        have : (k 0).val < N := hk0
        omega
      | ⟨1, _⟩ =>
        show 0 ≤ d.start (ix2 i c) idx 1 + (d.window (ix2 i c) 1 : Int) ∧ d.start (ix2 i c) idx 1 + (d.window (ix2 i c) 1 : Int) < (C : Nat)
        rw [e1]
        have : c.val < C := c.isLt
        omega
    rw [dif_pos hin]
    congr 1
    funext a
    apply Fin.ext
    match a with
    | ⟨0, _⟩ =>
      show (d.start (ix2 i c) idx 0 + (d.window (ix2 i c) 0 : Int)).toNat = (k 0).val
      rw [e0, hr]; simp
    | ⟨1, _⟩ =>
      show (d.start (ix2 i c) idx 1 + (d.window (ix2 i c) 1 : Int)).toNat = (k 1).val
      rw [e1, hc]; simp

end RowScatter

end Idealize.ShloMosaic.ScatterFold
-- ==== Proof.LibScatterSum.lean ====
/-
  The accumulating host scatter (a scatter whose body adds; exact at the ideal instance: each operand element plus the
  sum of the updates that land on it) read at an index as a sum over the update ROWS, for the two shapes a segment sum
  lowers to: the ROW scatter (operand [N, C], one index word per update row, the window a whole row) and the SCALAR
  scatter (operand [N], one index word per update element). An update whose index word, read signed, names no operand
  row lands nowhere, so it adds nothing: in both forms the sum keeps exactly the rows whose word is the row read.
-/
import Idealize.ShloMosaic.PureOps.Ideal
import Idealize.ShloMosaic.Lib.ValueIdx
import proofs.«127344_j38285338476696_1_alg».proof.Proof.LibScatterFold

open scoped BigOperators

namespace Idealize.ShloMosaic.ScatterSum

open Idealize.ShloMosaic Idealize.ShloMosaic.ValueIdx Idealize.ShloMosaic.ScatterFold

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter -/

/-- The accumulating ROW scatter at element `(k0, k1)`: the operand's element plus the sum, over the update rows whose
    index word read signed is `k0`, of the row's element in column `k1`. -/
theorem rowScatterAdd_apply {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![R, 1]⟩ w) (upd : (⟨2, ![R, C]⟩ : Shape).Idx → EReal)
    (k0 : Fin N) (k1 : Fin C) :
    Ideal.hostScatterAdd d x idx upd (ix2 k0 k1)
      = x (ix2 k0 k1) + ∑ n : Fin R, if (idx (ix2 n 0)).toInt = (k0.val : Int) then upd (ix2 n k1) else 0 := by
  unfold Ideal.hostScatterAdd
  congr 1
  rw [Finset.sum_filter, sum_idx2]
  refine Finset.sum_congr rfl fun n _ => ?_
  have hiff : ∀ c : Fin C, (d.resultIdx? (ix2 n c) idx = some (ix2 k0 k1))
      ↔ ((idx (ix2 n 0)).toInt = (k0.val : Int) ∧ k1.val = c.val) :=
    fun c => rowScatter_resultIdx_eq_some_iff d huw hiw hsd hiv idx n c (ix2 k0 k1)
  by_cases hA : (idx (ix2 n 0)).toInt = (k0.val : Int)
  · rw [if_pos hA, Finset.sum_eq_single k1]
    · rw [if_pos ((hiff k1).2 ⟨hA, rfl⟩)]
    · intro c _ hc
      rw [if_neg]
      intro h
      exact hc (Fin.ext ((hiff c).1 h).2.symm)
    · intro h; exact absurd (Finset.mem_univ _) h
  · rw [if_neg hA]
    refine Finset.sum_eq_zero fun c _ => ?_
    rw [if_neg]
    intro h
    exact hA ((hiff c).1 h).1

/-! ## The scalar scatter: one index word per update element, no window -/

section VecScatter

variable {N R w : Nat} (d : ScatterDims ⟨1, ![N]⟩ ⟨2, ![R, 1]⟩ ⟨1, ![R]⟩)
  (huw : d.updateWindowDims = []) (hiw : d.insertedWindowDims = [0]) (hsd : d.scatterDimsToOperandDims = [0])
  (hiv : d.indexVectorDim = 1)

include hsd hiv huw in
theorem vecScatter_start_zero (idx : IVec ⟨2, ![R, 1]⟩ w) (j : (⟨1, ![R]⟩ : Shape).Idx) :
    d.start j idx 0 = (idx (ix2 (j 0) 0)).toInt := by
  have hm : (0 : Fin 1) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 1) d.scatterDimsToOperandDims = 0
    rw [hsd]; simp

include hiw in
theorem vecScatter_window_zero (j : (⟨1, ![R]⟩ : Shape).Idx) : d.window j 0 = 0 := by
  have hsk : d.sKept = [] := by
    show Shape.kept _ d.insertedWindowDims = []
    rw [hiw]; rfl
  have hm : (0 : Fin 1) ∉ d.sKept := by rw [hsk]; simp
  unfold ScatterDims.window
  rw [dif_neg hm]

include huw hiw hsd hiv in
/-- The result index of update element `i` of a SCALAR scatter: it is `k` exactly when the element's index word, read
    signed, is `k`'s coordinate. -/
theorem vecScatter_resultIdx_eq_some_iff (idx : IVec ⟨2, ![R, 1]⟩ w) (i : Fin R) (k : (⟨1, ![N]⟩ : Shape).Idx) :
    d.resultIdx? (ix1 i) idx = some k ↔ (idx (ix2 i 0)).toInt = ((k 0).val : Int) := by
  have h00 : d.start (ix1 i) idx 0 = (idx (ix2 i 0)).toInt := vecScatter_start_zero d huw hsd hiv idx (ix1 i)
  have h10 := vecScatter_window_zero d hiw (ix1 i)
  have e0 : d.start (ix1 i) idx 0 + (d.window (ix1 i) 0 : Int) = (idx (ix2 i 0)).toInt := by
    rw [h00, h10]; simp
  have hk0 := (k 0).isLt
  unfold ScatterDims.resultIdx?
  constructor
  · intro h
    split at h
    · next hin =>
      have hf := Option.some.inj h
      have f0 := congrArg (fun f => (f 0).val) hf
      simp only at f0
      have i0 := hin 0
      rw [e0] at i0 f0
      omega
    · exact absurd h (by simp)
  · intro hr
    have hin : ∀ a, 0 ≤ d.start (ix1 i) idx a + (d.window (ix1 i) a : Int)
        ∧ d.start (ix1 i) idx a + (d.window (ix1 i) a : Int) < ((⟨1, ![N]⟩ : Shape).size a : Nat) := by
      intro a
      match a with
      | ⟨0, _⟩ =>
        show 0 ≤ d.start (ix1 i) idx 0 + (d.window (ix1 i) 0 : Int)
          ∧ d.start (ix1 i) idx 0 + (d.window (ix1 i) 0 : Int) < (N : Nat)
        rw [e0, hr]
        have : (k 0).val < N := hk0
        omega
    rw [dif_pos hin]
    congr 1
    funext a
    apply Fin.ext
    match a with
    | ⟨0, _⟩ =>
      show (d.start (ix1 i) idx 0 + (d.window (ix1 i) 0 : Int)).toNat = (k 0).val
      rw [e0, hr]; simp

include huw hiw hsd hiv in
/-- The accumulating SCALAR scatter at element `k0`: the operand's element plus the sum of the update elements whose
    index word read signed is `k0`. -/
theorem vecScatterAdd_apply (x : (⟨1, ![N]⟩ : Shape).Idx → EReal) (idx : IVec ⟨2, ![R, 1]⟩ w)
    (upd : (⟨1, ![R]⟩ : Shape).Idx → EReal) (k0 : Fin N) :
    Ideal.hostScatterAdd d x idx upd (ix1 k0)
      = x (ix1 k0) + ∑ n : Fin R, if (idx (ix2 n 0)).toInt = (k0.val : Int) then upd (ix1 n) else 0 := by
  unfold Ideal.hostScatterAdd
  congr 1
  rw [Finset.sum_filter, sum_idx1]
  refine Finset.sum_congr rfl fun n _ => ?_
  have hiff : (d.resultIdx? (ix1 n) idx = some (ix1 k0)) ↔ (idx (ix2 n 0)).toInt = (k0.val : Int) :=
    vecScatter_resultIdx_eq_some_iff d huw hiw hsd hiv idx n (ix1 k0)
  by_cases hA : (idx (ix2 n 0)).toInt = (k0.val : Int)
  · rw [if_pos hA, if_pos (hiff.2 hA)]
  · rw [if_neg hA, if_neg (fun h => hA (hiff.1 h))]

end VecScatter

end Idealize.ShloMosaic.ScatterSum
-- ==== Proof.LibScatter3.lean ====
/-
  The accumulating host scatter (a scatter whose body adds; exact at the ideal instance: each operand element plus the
  sum of the updates that land on it) of RANK 3 read at an index as a sum over the update ROWS: the operand is
  [N, A, B], there is one index word per update row (an [R, 1] column), the updates are [R, A, B] and the window is one
  whole [A, B] slab. Update element (n, a, b) goes to operand element (word n read signed, a, b) and is dropped when
  that row is outside the operand, so the sum at (k0, k1, k2) keeps exactly the rows whose word is k0, each giving its
  element (k1, k2).

  `idxEquiv3` / `sum_idx3` turn a sum over a rank-3 index set into the triple sum over the coordinates;
  `rowScatter3_resultIdx_eq_some_iff` reads the result index off the index column; `rowScatterAdd3_apply` is the sum.
-/
import Idealize.ShloMosaic.PureOps.Ideal
import Idealize.ShloMosaic.Lib.ValueIdx
import proofs.«127344_j38285338476696_1_alg».proof.Proof.LibScatterSum

open scoped BigOperators

namespace Idealize.ShloMosaic.ScatterSum

open Idealize.ShloMosaic Idealize.ShloMosaic.ValueIdx Idealize.ShloMosaic.ScatterFold

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An entry of a list known to be `l'`, at a position known to be `k'`. -/
theorem getElem_of_eq_of_pos {β : Type} {l l' : List β} (h : l = l') {k k' : Nat} (hkk : k = k') (hk : k < l.length)
    (hk' : k' < l'.length) : l[k] = l'[k'] := by
  subst h; subst hkk; rfl

section RowScatter3

variable {N R A B w : Nat} (d : ScatterDims ⟨3, ![N, A, B]⟩ ⟨2, ![R, 1]⟩ ⟨3, ![R, A, B]⟩)
  (huw : d.updateWindowDims = [1, 2]) (hiw : d.insertedWindowDims = [0]) (hsd : d.scatterDimsToOperandDims = [0])
  (hiv : d.indexVectorDim = 1)

include hsd hiv huw in
theorem rowScatter3_start_zero (idx : IVec ⟨2, ![R, 1]⟩ w) (j : (⟨3, ![R, A, B]⟩ : Shape).Idx) :
    d.start j idx 0 = (idx (ix2 (j 0) 0)).toInt := by
  have hm : (0 : Fin 3) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 3) d.scatterDimsToOperandDims = 0
    rw [hsd]; simp

include hsd in
theorem rowScatter3_start_one (idx : IVec ⟨2, ![R, 1]⟩ w) (j : (⟨3, ![R, A, B]⟩ : Shape).Idx) :
    d.start j idx 1 = 0 := by
  have hm : (1 : Fin 3) ∉ d.scatterDimsToOperandDims := by rw [hsd]; simp
  unfold ScatterDims.start
  rw [dif_neg hm]

include hsd in
theorem rowScatter3_start_two (idx : IVec ⟨2, ![R, 1]⟩ w) (j : (⟨3, ![R, A, B]⟩ : Shape).Idx) :
    d.start j idx 2 = 0 := by
  have hm : (2 : Fin 3) ∉ d.scatterDimsToOperandDims := by rw [hsd]; simp
  unfold ScatterDims.start
  rw [dif_neg hm]

include hiw in
theorem rowScatter3_sKept : d.sKept = [1, 2] := by
  show Shape.kept _ d.insertedWindowDims = [1, 2]
  rw [hiw]; rfl

include hiw in
theorem rowScatter3_window_zero (j : (⟨3, ![R, A, B]⟩ : Shape).Idx) : d.window j 0 = 0 := by
  have hm : (0 : Fin 3) ∉ d.sKept := by rw [rowScatter3_sKept d hiw]; simp
  unfold ScatterDims.window
  rw [dif_neg hm]

include hiw huw in
theorem rowScatter3_window_one (j : (⟨3, ![R, A, B]⟩ : Shape).Idx) : d.window j 1 = (j 1).val := by
  have hsk := rowScatter3_sKept d hiw
  have hm : (1 : Fin 3) ∈ d.sKept := by rw [hsk]; simp
  have hp : List.idxOf (1 : Fin 3) d.sKept = 0 := by rw [hsk]; rfl
  unfold ScatterDims.window
  rw [dif_pos hm, getElem_of_eq_of_pos huw hp _ (by simp)]
  rfl

include hiw huw in
theorem rowScatter3_window_two (j : (⟨3, ![R, A, B]⟩ : Shape).Idx) : d.window j 2 = (j 2).val := by
  have hsk := rowScatter3_sKept d hiw
  have hm : (2 : Fin 3) ∈ d.sKept := by rw [hsk]; simp
  have hp : List.idxOf (2 : Fin 3) d.sKept = 1 := by rw [hsk]; rfl
  unfold ScatterDims.window
  rw [dif_pos hm, getElem_of_eq_of_pos huw hp _ (by simp)]
  rfl

include huw hiw hsd hiv in
/-- The result index of update element `(i, a, b)` of a rank-3 ROW scatter (one scalar index per update row, read off
    the index column; the window one whole slab): it is `k` exactly when the row's index word, read signed, is `k`'s
    row and `(a, b)` are `k`'s other two coordinates. -/
theorem rowScatter3_resultIdx_eq_some_iff (idx : IVec ⟨2, ![R, 1]⟩ w) (i : Fin R) (a : Fin A) (b : Fin B)
    (k : (⟨3, ![N, A, B]⟩ : Shape).Idx) :
    d.resultIdx? (ix3 i a b) idx = some k
      ↔ (idx (ix2 i 0)).toInt = ((k 0).val : Int) ∧ (k 1).val = a.val ∧ (k 2).val = b.val := by
  have h00 : d.start (ix3 i a b) idx 0 = (idx (ix2 i 0)).toInt := rowScatter3_start_zero d huw hsd hiv idx (ix3 i a b)
  have h01 := rowScatter3_start_one d hsd idx (ix3 i a b)
  have h02 := rowScatter3_start_two d hsd idx (ix3 i a b)
  have h10 := rowScatter3_window_zero d hiw (ix3 i a b)
  have h11 : d.window (ix3 i a b) 1 = a.val := rowScatter3_window_one d huw hiw (ix3 i a b)
  have h12 : d.window (ix3 i a b) 2 = b.val := rowScatter3_window_two d huw hiw (ix3 i a b)
  have e0 : d.start (ix3 i a b) idx 0 + (d.window (ix3 i a b) 0 : Int) = (idx (ix2 i 0)).toInt := by
    rw [h00, h10]; simp
  have e1 : d.start (ix3 i a b) idx 1 + (d.window (ix3 i a b) 1 : Int) = (a.val : Int) := by
    rw [h01, h11]; simp
  have e2 : d.start (ix3 i a b) idx 2 + (d.window (ix3 i a b) 2 : Int) = (b.val : Int) := by
    rw [h02, h12]; simp
  have hk0 := (k 0).isLt
  have hk1 := (k 1).isLt
  have hk2 := (k 2).isLt
  unfold ScatterDims.resultIdx?
  constructor
  · intro h
    split at h
    · next hin =>
      have hf := Option.some.inj h
      have f0 := congrArg (fun f => (f 0).val) hf
      have f1 := congrArg (fun f => (f 1).val) hf
      have f2 := congrArg (fun f => (f 2).val) hf
      simp only at f0 f1 f2
      have i0 := hin 0
      have i1 := hin 1
      have i2 := hin 2
      rw [e0] at i0 f0
      rw [e1] at i1 f1
      rw [e2] at i2 f2
      refine ⟨?_, ?_, ?_⟩
      · omega
      · omega
      · omega
    · exact absurd h (by simp)
  · rintro ⟨hr, ha, hb⟩
    have hin : ∀ c, 0 ≤ d.start (ix3 i a b) idx c + (d.window (ix3 i a b) c : Int)
        ∧ d.start (ix3 i a b) idx c + (d.window (ix3 i a b) c : Int) < ((⟨3, ![N, A, B]⟩ : Shape).size c : Nat) := by
      intro c
      match c with
      | ⟨0, _⟩ =>
        show 0 ≤ d.start (ix3 i a b) idx 0 + (d.window (ix3 i a b) 0 : Int)
          ∧ d.start (ix3 i a b) idx 0 + (d.window (ix3 i a b) 0 : Int) < (N : Nat)
        rw [e0, hr]
        have : (k 0).val < N := hk0
        omega
      | ⟨1, _⟩ =>
        show 0 ≤ d.start (ix3 i a b) idx 1 + (d.window (ix3 i a b) 1 : Int)
          ∧ d.start (ix3 i a b) idx 1 + (d.window (ix3 i a b) 1 : Int) < (A : Nat)
        rw [e1]
        have : a.val < A := a.isLt
        omega
      | ⟨2, _⟩ =>
        show 0 ≤ d.start (ix3 i a b) idx 2 + (d.window (ix3 i a b) 2 : Int)
          ∧ d.start (ix3 i a b) idx 2 + (d.window (ix3 i a b) 2 : Int) < (B : Nat)
        rw [e2]
        have : b.val < B := b.isLt
        omega
    rw [dif_pos hin]
    congr 1
    funext c
    apply Fin.ext
    match c with
    | ⟨0, _⟩ =>
      show (d.start (ix3 i a b) idx 0 + (d.window (ix3 i a b) 0 : Int)).toNat = (k 0).val
      rw [e0, hr]; simp
    | ⟨1, _⟩ =>
      show (d.start (ix3 i a b) idx 1 + (d.window (ix3 i a b) 1 : Int)).toNat = (k 1).val
      rw [e1, ha]; simp
    | ⟨2, _⟩ =>
      show (d.start (ix3 i a b) idx 2 + (d.window (ix3 i a b) 2 : Int)).toNat = (k 2).val
      rw [e2, hb]; simp

include huw hiw hsd hiv in
/-- The accumulating rank-3 ROW scatter at element `(k0, k1, k2)`: the operand's element plus the sum, over the
    update rows whose index word read signed is `k0`, of the row's element `(k1, k2)`. -/
theorem rowScatterAdd3_apply (x : (⟨3, ![N, A, B]⟩ : Shape).Idx → EReal) (idx : IVec ⟨2, ![R, 1]⟩ w)
    (upd : (⟨3, ![R, A, B]⟩ : Shape).Idx → EReal) (k0 : Fin N) (k1 : Fin A) (k2 : Fin B) :
    Ideal.hostScatterAdd d x idx upd (ix3 k0 k1 k2)
      = x (ix3 k0 k1 k2)
        + ∑ n : Fin R, if (idx (ix2 n 0)).toInt = (k0.val : Int) then upd (ix3 n k1 k2) else 0 := by
  unfold Ideal.hostScatterAdd
  congr 1
  rw [Finset.sum_filter, sum_idx3]
  refine Finset.sum_congr rfl fun n _ => ?_
  have hiff : ∀ (a : Fin A) (b : Fin B), (d.resultIdx? (ix3 n a b) idx = some (ix3 k0 k1 k2))
      ↔ ((idx (ix2 n 0)).toInt = (k0.val : Int) ∧ k1.val = a.val ∧ k2.val = b.val) :=
    fun a b => rowScatter3_resultIdx_eq_some_iff d huw hiw hsd hiv idx n a b (ix3 k0 k1 k2)
  by_cases hA : (idx (ix2 n 0)).toInt = (k0.val : Int)
  · rw [if_pos hA, Finset.sum_eq_single k1]
    · rw [Finset.sum_eq_single k2]
      · rw [if_pos ((hiff k1 k2).2 ⟨hA, rfl, rfl⟩)]
      · intro b _ hb
        rw [if_neg]
        intro h
        exact hb (Fin.ext ((hiff k1 b).1 h).2.2.symm)
      · intro h; exact absurd (Finset.mem_univ _) h
    · intro a _ ha
      refine Finset.sum_eq_zero fun b _ => ?_
      rw [if_neg]
      intro h
      exact ha (Fin.ext ((hiff a b).1 h).2.1.symm)
    · intro h; exact absurd (Finset.mem_univ _) h
  · rw [if_neg hA]
    refine Finset.sum_eq_zero fun a _ => Finset.sum_eq_zero fun b _ => ?_
    rw [if_neg]
    intro h
    exact hA ((hiff a b).1 h).1

end RowScatter3

end Idealize.ShloMosaic.ScatterSum
-- ==== Proof.KI.Host2.lean ====
/-
  The two results of the kernel program at the end of the run, as the specification.

  The last stretch of host operations reads three arrays the third kernel wrote — the scores, the weighted values and
  the weights of the edges — and the target indices. The first result is the scores laid out [edge, head, channel]:
  element (e, hh, d) is flat channel 16 hh + d. The second result is, per node, head and channel, the weighted values of
  the edges pointing at the node summed into zeros, over the weights of those edges summed into zeros plus a small
  constant: the accumulating scatter is the exact sum on the extended reals, a row of updates landing on the node its
  index word names, and the broadcasts repeat the denominator over the 16 channels of a head.
-/
import proofs.«127344_j38285338476696_1_alg».proof.Proof.Gen.KernelIdeal.Launch
import proofs.«127344_j38285338476696_1_alg».proof.Proof.Gen.KernelIdeal.Skeleton
import proofs.«127344_j38285338476696_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«127344_j38285338476696_1_alg».proof.Proof.KI.Host1
import proofs.«127344_j38285338476696_1_alg».proof.Proof.KI.Final2
import proofs.«127344_j38285338476696_1_alg».proof.Proof.Spec
import proofs.«127344_j38285338476696_1_alg».proof.Proof.LibScatterSum
import proofs.«127344_j38285338476696_1_alg».proof.Proof.LibScatter3
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

open Idealize.ShloMosaic.ScatterSum

/-! ## The last stretch's operations read at an index -/

/-- An [E, 128] array laid out as [E, 8, 16]: element (e, hh, d) is flat channel 16 hh + d of row e. -/
theorem heads_apply (x : FVec Ideal S800000x128 .f32) (e : Fin 800000) (hh : Fin 8) (d : Fin 16) :
    shapeCast S800000x8x16 x shapeCasts_S800000x128_S800000x8x16 (ix3 e hh d) = x (ix2 e (Cert.Spec.col hh d)) :=
  shapeCast_apply x _ _ _ (by
    rw [Shape.rowMajor_val_two, Shape.rowMajor_val_three]
    show e.val * 128 + (16 * hh.val + d.val) = (e.val * 8 + hh.val) * 16 + d.val
    omega)

/-- The zero word spread over [N, 8, 16] is zero everywhere. -/
theorem zeros3_apply (i : S50000x8x16.Idx) :
    broadcastInDim S50000x8x16 ![] bcast_S_S50000x8x16 (constant (F := Ideal) S_ .f32 0x00000000#32) i = 0 :=
  (broadcastInDim_apply _ _ _ i (fun a => a.elim0) (fun a => a.elim0)).trans ((constant_apply _ _).trans Ideal.ofBits_zero_f32)

/-- The zero word spread over [N, 8] is zero everywhere. -/
theorem zeros2_apply (i : S50000x8.Idx) :
    broadcastInDim S50000x8 ![] bcast_S_S50000x8 (constant (F := Ideal) S_ .f32 0x00000000#32) i = 0 :=
  (broadcastInDim_apply _ _ _ i (fun a => a.elim0) (fun a => a.elim0)).trans ((constant_apply _ _).trans Ideal.ofBits_zero_f32)

/-- On the extended reals the accumulating scatter is the exact sum. -/
theorem scatterAdd_ideal {s si u : Shape} {w : Nat} {φ : FTy} (d : ScatterDims s si u) (x : FVec Ideal s φ) (idx : IVec si w) (upd : FVec Ideal u φ) :
    Host.scatterAdd (F := Ideal) d x idx upd = Ideal.hostScatterAdd d x idx upd := rfl

/-- On the extended reals the host's quotient is the exact one, element by element. -/
theorem divf_ideal {s : Shape} {φ : FTy} (a b : FVec Ideal s φ) (i : s.Idx) : Host.divf a b i = Ideal.div (a i) (b i) := rfl

/-- The sum of the [E, 8, 16] rows into zeros, by the column of row indices: at (n, hh, d) the rows whose index is n. -/
theorem num_apply (col : IVec S800000x1 32) (upd : FVec Ideal S800000x8x16 .f32) (n : Fin 50000) (hh : Fin 8) (d : Fin 16) :
    Host.scatterAdd (F := Ideal) scatter_S50000x8x16_S800000x1_S800000x8x16_12_0_0_1
      (broadcastInDim S50000x8x16 ![] bcast_S_S50000x8x16 (constant (F := Ideal) S_ .f32 0x00000000#32)) col upd (ix3 n hh d)
    = ∑ e : Fin 800000, if (col (ix2 e 0)).toInt = (n.val : Int) then upd (ix3 e hh d) else 0 := by
  rw [scatterAdd_ideal]
  refine (rowScatterAdd3_apply scatter_S50000x8x16_S800000x1_S800000x8x16_12_0_0_1 rfl rfl rfl rfl _ col upd n hh d).trans ?_
  rw [zeros3_apply, zero_add]

/-- The sum of the [E, 8] rows into zeros, by the column of row indices. -/
theorem den0_apply (col : IVec S800000x1 32) (upd : FVec Ideal S800000x8 .f32) (n : Fin 50000) (hh : Fin 8) :
    Host.scatterAdd (F := Ideal) scatter_S50000x8_S800000x1_S800000x8_1_0_0_1
      (broadcastInDim S50000x8 ![] bcast_S_S50000x8 (constant (F := Ideal) S_ .f32 0x00000000#32)) col upd (ix2 n hh)
    = ∑ e : Fin 800000, if (col (ix2 e 0)).toInt = (n.val : Int) then upd (ix2 e hh) else 0 := by
  rw [scatterAdd_ideal]
  refine (rowScatterAdd_apply scatter_S50000x8_S800000x1_S800000x8_1_0_0_1 rfl rfl rfl rfl _ col upd n hh).trans ?_
  rw [zeros2_apply, zero_add]

/-- An [N, 8] array as [N, 8, 1], plus a constant word, repeated over 16 channels: at (n, hh, d) the array at (n, hh)
    plus the word's value. -/
theorem den_apply (y : FVec Ideal S50000x8 .f32) (w : BitVec 32) (n : Fin 50000) (hh : Fin 8) (d : Fin 16) :
    broadcastInDim S50000x8x16 ![0, 1, 2] bcast_S50000x8x1_S50000x8x16_0_1_2
      (addf (broadcastInDim S50000x8x1 ![0, 1] bcast_S50000x8_S50000x8x1_0_1 y)
        (broadcastInDim S50000x8x1 ![] bcast_S_S50000x8x1 (constant (F := Ideal) S_ .f32 w))) (ix3 n hh d)
    = y (ix2 n hh) + Ideal.ofBits .f32 w := by
  refine (broadcastInDim_apply _ _ _ (ix3 n hh d) (ix3 n hh (0 : Fin 1)) ?_).trans ?_
  · intro a
    match a with
    | ⟨0, _⟩ => rfl
    | ⟨1, _⟩ => rfl
    | ⟨2, _⟩ => rfl
  refine (addf_apply _ _ _).trans ?_
  refine congrArg₂ (· + ·) ?_ ?_
  · exact broadcastInDim_apply _ _ y (ix3 n hh (0 : Fin 1)) (ix2 n hh) (fun a => match a with | ⟨0, _⟩ => rfl | ⟨1, _⟩ => rfl)
  · exact (broadcastInDim_apply _ _ _ _ (fun a => a.elim0) (fun a => a.elim0)).trans (constant_apply _ _)

/-! ## The last stretch as one function of the third kernel's results and the target indices -/

/-- The second result from the weighted values, the weights and the target indices: the weighted values laid out
    [E, 8, 16] and summed per target node into zeros, over the weights summed per target node into zeros, plus the small
    constant, repeated over the 16 channels. -/
def tailOut (wv : FVec Ideal S800000x128 .f32) (sc : FVec Ideal S800000x8 .f32) (dst : IVec S800000 32) : FVec Ideal S50000x8x16 .f32 :=
  Host.divf
    (Host.scatterAdd (F := Ideal) scatter_S50000x8x16_S800000x1_S800000x8x16_12_0_0_1
      (broadcastInDim S50000x8x16 ![] bcast_S_S50000x8x16 (constant (F := Ideal) S_ .f32 0x00000000#32))
      (plainCol dst) (shapeCast S800000x8x16 wv shapeCasts_S800000x128_S800000x8x16))
    (broadcastInDim S50000x8x16 ![0, 1, 2] bcast_S50000x8x1_S50000x8x16_0_1_2
      (addf
        (broadcastInDim S50000x8x1 ![0, 1] bcast_S50000x8_S50000x8x1_0_1
          (Host.scatterAdd (F := Ideal) scatter_S50000x8_S800000x1_S800000x8_1_0_0_1
            (broadcastInDim S50000x8 ![] bcast_S_S50000x8 (constant (F := Ideal) S_ .f32 0x00000000#32))
            (plainCol dst) sc))
        (broadcastInDim S50000x8x1 ![] bcast_S_S50000x8x1 (constant (F := Ideal) S_ .f32 0x358637BD#32))))

/-- The second result at node n, head hh, channel d. -/
theorem tailOut_apply (wv : FVec Ideal S800000x128 .f32) (sc : FVec Ideal S800000x8 .f32) (dst : IVec S800000 32)
    (n : Fin 50000) (hh : Fin 8) (d : Fin 16) :
    tailOut wv sc dst (ix3 n hh d)
      = Ideal.div (∑ e : Fin 800000, if (plainCol dst (ix2 e 0)).toInt = (n.val : Int) then wv (ix2 e (Cert.Spec.col hh d)) else 0)
          ((∑ e : Fin 800000, if (plainCol dst (ix2 e 0)).toInt = (n.val : Int) then sc (ix2 e hh) else 0)
            + Ideal.ofBits .f32 0x358637BD#32) := by
  unfold tailOut
  refine (divf_ideal _ _ _).trans ?_
  refine congrArg₂ Ideal.div ?_ ?_
  · refine (num_apply (plainCol dst) _ n hh d).trans ?_
    refine Finset.sum_congr rfl fun e _ => ?_
    rw [heads_apply]
  · refine (den_apply _ _ n hh d).trans ?_
    rw [den0_apply]

section After
variable (X : Valuation τ sig (Elt Ideal))

/-- After the last stretch the first result holds the scores laid out [E, 8, 16]. -/
theorem after3_v29 : StableHlo.after hostOps3 X (Proc.devRef .tc main_v29)
    = shapeCast S800000x8x16 (X (Proc.devRef .tc main_v28_0)) shapeCasts_S800000x128_S800000x8x16 := by
  after_results
  rfl

/-- After the last stretch the second result is the stretch's function of the three buffers it reads. -/
theorem after3_v41 : StableHlo.after hostOps3 X (Proc.devRef .tc main_v41)
    = tailOut (X (Proc.devRef .tc main_v28_1)) (X (Proc.devRef .tc main_v28_2)) (X (Proc.devRef .tc main_arg4)) := by
  after_results
  rfl
end After

/-! ## The third kernel's results and the target indices at the last stretch's entry -/

/-- The third kernel's first output array is the specification's scores, [edge, flat channel]. -/
theorem W6_eo (c : Dev nD) : W6 m c main_v28_0 = fun i => Cert.Spec.eo (argsOf m c) (i 0) (i 1) := by
  refine (W6_arr m c 5).trans ?_
  refine (final2_5 (V5 m) c).trans ?_
  have e0 : V5 m c (Pipeline.arrRef spec2 0) = Cert.Spec.kgA (argsOf m c) := W5_kg m c
  have e1 : V5 m c (Pipeline.arrRef spec2 1) = Cert.Spec.qgA (argsOf m c) := W5_qg m c
  have e3 : V5 m c (Pipeline.arrRef spec2 3) = Cert.Spec.peA (argsOf m c) := W5_pe m c
  have e4 : V5 m c (Pipeline.arrRef spec2 4) = Cert.Spec.pkrA (argsOf m c) := W5_pkr m c
  rw [e0, e1, e3, e4]
  rfl

/-- Its second output array is the specification's weighted values. -/
theorem W6_wv (c : Dev nD) : W6 m c main_v28_1 = fun i => Cert.Spec.wv (argsOf m c) (i 0) (i 1) := by
  refine (W6_arr m c 6).trans ?_
  refine (final2_6 (V5 m) c).trans ?_
  have e0 : V5 m c (Pipeline.arrRef spec2 0) = Cert.Spec.kgA (argsOf m c) := W5_kg m c
  have e1 : V5 m c (Pipeline.arrRef spec2 1) = Cert.Spec.qgA (argsOf m c) := W5_qg m c
  have e2 : V5 m c (Pipeline.arrRef spec2 2) = Cert.Spec.vgA (argsOf m c) := W5_vg m c
  have e3 : V5 m c (Pipeline.arrRef spec2 3) = Cert.Spec.peA (argsOf m c) := W5_pe m c
  have e4 : V5 m c (Pipeline.arrRef spec2 4) = Cert.Spec.pkrA (argsOf m c) := W5_pkr m c
  rw [e0, e1, e2, e3, e4]
  rfl

/-- Its third output array is the specification's weights, [edge, head]. -/
theorem W6_sc (c : Dev nD) : W6 m c main_v28_2 = fun i => Cert.Spec.sc (argsOf m c) (i 0) (i 1) := by
  refine (W6_arr m c 7).trans ?_
  refine (final2_7 (V5 m) c).trans ?_
  have e0 : V5 m c (Pipeline.arrRef spec2 0) = Cert.Spec.kgA (argsOf m c) := W5_kg m c
  have e1 : V5 m c (Pipeline.arrRef spec2 1) = Cert.Spec.qgA (argsOf m c) := W5_qg m c
  have e3 : V5 m c (Pipeline.arrRef spec2 3) = Cert.Spec.peA (argsOf m c) := W5_pe m c
  have e4 : V5 m c (Pipeline.arrRef spec2 4) = Cert.Spec.pkrA (argsOf m c) := W5_pkr m c
  rw [e0, e1, e3, e4]
  rfl

/-- The target indices are as launched. -/
theorem W6_dst (c : Dev nD) : W6 m c main_arg4 = m ((c : Thread nD τ).loc main_arg4) :=
  (W6_keep m c main_arg4 (by decide) (by decide) (by decide)).trans (W5_dst m c)
/-! ## The two results at the end -/

/-- The first result is the specification's scores. -/
theorem W7_v29 (c : Dev nD) : W7 m c main_v29 = fun i => Cert.Spec.eout (argsOf m c) (i 0) (i 1) (i 2) := by
  refine (after3_v29 (W6 m c)).trans ?_
  rw [W6_eo]
  funext i
  obtain ⟨e, hh, d, rfl⟩ : ∃ e hh d, i = ix3 e hh d := ⟨i 0, i 1, i 2, eq_ix3 i⟩
  exact heads_apply _ e hh d

/-- The second result is the specification's normalized sums. -/
theorem W7_v41 (c : Dev nD) : W7 m c main_v41 = fun i => Cert.Spec.hout (argsOf m c) (i 0) (i 1) (i 2) := by
  refine (after3_v41 (W6 m c)).trans ?_
  rw [W6_wv, W6_sc, W6_dst]
  funext i
  obtain ⟨n, hh, d, rfl⟩ : ∃ n hh d, i = ix3 n hh d := ⟨i 0, i 1, i 2, eq_ix3 i⟩
  exact tailOut_apply _ _ _ n hh d

end Cert.KernelIdeal.Hand

end
-- ==== Proof.Ref.Edge.lean ====
/-
  The reference's edge arithmetic read at an index, at the exact instance: the specification's arguments made of the
  program's fifteen (the two gathers' index columns wrap a negative word by the table's height, the sums' column is the
  target words as they are), an affine map of 128 channels read as [row, head, channel] (flat channel 16 hh + d), the
  rows of a node map an index column names, the scores (the first result: key times query over the square root of 16,
  which is a product with one quarter, plus one edge map, times the other) and the edge weights (the exponential of a
  head's channel sum clamped to [-5, 5]).
-/
import proofs.«127344_j38285338476696_1_alg».proof.Proof.Gen.ReferenceIdeal.Read
import proofs.«127344_j38285338476696_1_alg».proof.Proof.Spec
import proofs.«127344_j38285338476696_1_alg».proof.Proof.LibRowGather
import Idealize.ShloMosaic.Lib.ValueIdx
import Idealize.ShloMosaic.Lib.Pipeline.Value
import Idealize.ShloMosaic.PureOps.Ideal.Laws
import Mathlib.Analysis.Real.Sqrt

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

/-- The index column a gather reads: a negative word wrapped by the table's height, as a one-column array. -/
def wrapCol (s : IVec S800000 32) : IVec S800000x1 32 :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- The index column a sum by target reads: the words as they are, as a one-column array. -/
def plainCol (s : IVec S800000 32) : IVec S800000x1 32 :=
  broadcastInDim S800000x1 ![0] bcast_S800000_S800000x1_0 s

/-- The specification's arguments made of the program's fifteen. -/
def mkArgs (x0 : FVec Ideal S50000x128 .f32) (x1 x2 : FVec Ideal S800000x128 .f32) (x3 x4 : IVec S800000 32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) : Cert.Spec.Args :=
  { h := x0, ea := x1, kr := x2, Qw := x5, Qb := x6, Kw := x7, Kb := x8, Vw := x9, Vb := x10, Ew := x11, Eb := x12,
    Rw := x13, Rb := x14, cs := wrapCol x3, cd := wrapCol x4, cz := plainCol x4 }

/-! ## An affine map of 128 channels read as [row, head, channel] -/

/-- Channel `d` of head `hh` of row `r` is flat column `16 hh + d` of row `r` (node rows). -/
theorem idx_node_cast (r : Fin 50000) (hh : Fin 8) (d : Fin 16) :
    Read.idx_main_v4 (ix3 r hh d) = ix2 r (Cert.Spec.col hh d) := by
  have h1 := hh.isLt
  have h2 := d.isLt
  funext a
  match a with
  | ⟨0, _⟩ => apply Fin.ext; show ((r.val * 8 + hh.val) * 16 + d.val) / 128 = r.val; omega
  | ⟨1, _⟩ => apply Fin.ext; show ((r.val * 8 + hh.val) * 16 + d.val) % 128 = 16 * hh.val + d.val; omega

/-- The same for edge rows. -/
theorem idx_edge_cast (r : Fin 800000) (hh : Fin 8) (d : Fin 16) :
    Read.idx_main_v19 (ix3 r hh d) = ix2 r (Cert.Spec.col hh d) := by
  have h1 := hh.isLt
  have h2 := d.isLt
  funext a
  match a with
  | ⟨0, _⟩ => apply Fin.ext; show ((r.val * 8 + hh.val) * 16 + d.val) / 128 = r.val; omega
  | ⟨1, _⟩ => apply Fin.ext; show ((r.val * 8 + hh.val) * 16 + d.val) % 128 = 16 * hh.val + d.val; omega

/-- A node map (product with the weights, plus the bias, read as [node, head, channel]) at an index. -/
theorem node_map_apply (x0 : FVec Ideal S50000x128 .f32) (w : FVec Ideal S128x128 .f32) (b : FVec Ideal S128 .f32)
    (r : Fin 50000) (hh : Fin 8) (d : Fin 16) :
    Read.val_main_v4 (F := Ideal) x0 w b (ix3 r hh d) = Cert.Spec.lin x0 w b r (Cert.Spec.col hh d) := by
  rw [Read.val_main_v4_apply, idx_node_cast, Read.val_main_v3_apply, Read.val_main_v0_apply, Read.val_main_v2_apply,
    Read.val_main_v1_apply]
  unfold Cert.Spec.lin
  refine congrArg₂ (· + ·) (Finset.sum_congr rfl fun k _ => congrArg₂ (· * ·) (congrArg x0 ?_) (congrArg w ?_)) (congrArg b ?_)
  · funext a; match a with | ⟨0, _⟩ => rfl | ⟨1, _⟩ => rfl
  · funext a; match a with | ⟨0, _⟩ => rfl | ⟨1, _⟩ => rfl
  · funext a; match a with | ⟨0, _⟩ => rfl

/-- An edge map at an index. -/
theorem edge_map_apply (x : FVec Ideal S800000x128 .f32) (w : FVec Ideal S128x128 .f32) (b : FVec Ideal S128 .f32)
    (e : Fin 800000) (hh : Fin 8) (d : Fin 16) :
    Read.val_main_v19 (F := Ideal) x w b (ix3 e hh d) = Cert.Spec.lin x w b e (Cert.Spec.col hh d) := by
  rw [Read.val_main_v19_apply, idx_edge_cast, Read.val_main_v18_apply, Read.val_main_v15_apply, Read.val_main_v17_apply,
    Read.val_main_v16_apply]
  unfold Cert.Spec.lin
  refine congrArg₂ (· + ·) (Finset.sum_congr rfl fun k _ => congrArg₂ (· * ·) (congrArg x ?_) (congrArg w ?_)) (congrArg b ?_)
  · funext a; match a with | ⟨0, _⟩ => rfl | ⟨1, _⟩ => rfl
  · funext a; match a with | ⟨0, _⟩ => rfl | ⟨1, _⟩ => rfl
  · funext a; match a with | ⟨0, _⟩ => rfl

/-- The rows of a node map an index column names: edge `e` reads the map's row "word `e` read signed, clamped into
    the table", in head `hh` and channel `d`. -/
theorem gathered_node_map (x0 : FVec Ideal S50000x128 .f32) (w : FVec Ideal S128x128 .f32) (b : FVec Ideal S128 .f32)
    (col : IVec S800000x1 32) (e : Fin 800000) (hh : Fin 8) (d : Fin 16) :
    Host.gather gather_S50000x8x16_S800000x1_S800000x8x16_12_0_n_n_0_1_1816 (shapeCast _ (addf (Host.dotGeneral dot_S50000x128_S128x128_S50000x128_1_0_0_1_n_n none x0 w) (broadcastInDim S50000x128 ![0, 1] bcast_S1x128_S50000x128_0_1 (broadcastInDim S1x128 ![1] bcast_S128_S1x128_1 b))) shapeCasts_S50000x128_S50000x8x16) col (ix3 e hh d)
      = Cert.Spec.lin x0 w b (Cert.Spec.rowIx col e) (Cert.Spec.col hh d) :=
  (rowGather3_apply gather_S50000x8x16_S800000x1_S800000x8x16_12_0_n_n_0_1_1816 rfl rfl rfl rfl rfl
    (Read.val_main_v4 (F := Ideal) x0 w b) col e hh d (by decide)).trans
    (node_map_apply x0 w b (Cert.Spec.rowIx col e) hh d)

/-! ## The two constants of the scaling -/

/-- The word of `16.0` denotes the real `16`. -/
theorem ofBits_sixteen : Ideal.ofBits .f32 0x41800000#32 = ((16 : ℝ) : EReal) := by
  simp [Ideal.ofBits, Ideal.ieee, -EReal.coe_mul]; norm_num

/-- The word of `0.25` denotes the real `1/4`. -/
theorem ofBits_quarter : Ideal.ofBits .f32 0x3E800000#32 = ((1 / 4 : ℝ) : EReal) := by
  simp [Ideal.ofBits, Ideal.ieee, -EReal.coe_mul]; norm_num

/-- Dividing by the square root of sixteen is multiplying by one quarter, on every extended real. -/
theorem div_sqrt_sixteen (x : EReal) :
    Ideal.div x (Ideal.sqrt (Ideal.ofBits .f32 0x41800000#32)) = x * Ideal.ofBits .f32 0x3E800000#32 := by
  have h : Real.sqrt 16 = 4 := by
    rw [show (16 : ℝ) = 4 ^ 2 by norm_num]; exact Real.sqrt_sq (by norm_num)
  rw [ofBits_sixteen, ofBits_quarter, Ideal.sqrt_coe, if_neg (by norm_num), h, Ideal.div_coe (by norm_num : (4 : ℝ) ≠ 0)]

/-! ## The scores and the edge weights -/

/-- The reference's first result at an index is the specification's score. -/
theorem v44_apply (x0 : FVec Ideal S50000x128 .f32) (x1 x2 : FVec Ideal S800000x128 .f32) (x3 x4 : IVec S800000 32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) (e : Fin 800000) (hh : Fin 8) (d : Fin 16) :
    Cert.ReferenceIdeal.Read.val_main_v44 (F := Ideal) x0 x1 x2 x3 x4 x5 x6 x7 x8 x11 x12 x13 x14 (ix3 e hh d)
      = Cert.Spec.eout (mkArgs x0 x1 x2 x3 x4 x5 x6 x7 x8 x9 x10 x11 x12 x13 x14) e hh d := by
  rw [Read.val_main_v44_apply, Read.val_main_v43_apply, Read.val_main_v42_apply, Read.val_main_v39_apply,
    Read.val_main_v41_apply, Read.val_main_v40_apply, Read.val_main_cst_apply]
  have hk : Read.val_main_v31 (F := Ideal) x0 x3 x7 x8 (ix3 e hh d)
      = Cert.Spec.lin x0 x7 x8 (Cert.Spec.rowIx (wrapCol x3) e) (Cert.Spec.col hh d) :=
    gathered_node_map x0 x7 x8 (wrapCol x3) e hh d
  have hq : Read.val_main_v38 (F := Ideal) x0 x4 x5 x6 (ix3 e hh d)
      = Cert.Spec.lin x0 x5 x6 (Cert.Spec.rowIx (wrapCol x4) e) (Cert.Spec.col hh d) :=
    gathered_node_map x0 x5 x6 (wrapCol x4) e hh d
  have hr : Read.val_main_v24 (F := Ideal) x2 x13 x14 (ix3 e hh d) = Cert.Spec.lin x2 x13 x14 e (Cert.Spec.col hh d) :=
    edge_map_apply x2 x13 x14 e hh d
  rw [hk, hq, hr, edge_map_apply, Ideal.mulf_def, Ideal.mulf_def, Ideal.addf_def, Ideal.hostDivf_def,
    Ideal.hostUnary_sqrt_def, Ideal.ofBits_def, div_sqrt_sixteen]
  rfl

/-- The reference's edge weights at an index are the specification's. -/
theorem v48_apply (x0 : FVec Ideal S50000x128 .f32) (x1 x2 : FVec Ideal S800000x128 .f32) (x3 x4 : IVec S800000 32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) (e : Fin 800000) (hh : Fin 8) (u : Fin 1) :
    Cert.ReferenceIdeal.Read.val_main_v48 (F := Ideal) x0 x1 x2 x3 x4 x5 x6 x7 x8 x11 x12 x13 x14 (ix3 e hh u)
      = Cert.Spec.sc (mkArgs x0 x1 x2 x3 x4 x5 x6 x7 x8 x9 x10 x11 x12 x13 x14) e hh := by
  rw [Read.val_main_v48_apply, Read.val_main_v47_apply, Read.val_main_call0_v4_apply, Read.val_main_call0_v3_apply,
    Read.val_main_cst_5_apply, Read.val_main_call0_v2_apply, Read.val_main_call0_v1_apply, Read.val_main_call0_v0_apply,
    Read.val_main_cst_4_apply, Read.val_main_v46_apply, Read.val_main_v45_apply, Read.val_main_cst_3_apply,
    Ideal.hostUnary_exp_def, Ideal.minimumf_def, Ideal.maximumf_def]
  simp only [Ideal.ofBits_def]
  rw [Ideal.ofBits_zero_f32, zero_add]
  have hs : ∀ k : Fin 16, Read.val_main_v44 (F := Ideal) x0 x1 x2 x3 x4 x5 x6 x7 x8 x11 x12 x13 x14
        (Read.idx_main_v45 (Read.idx_main_v46 (ix3 e hh u)) k)
      = Cert.Spec.eout (mkArgs x0 x1 x2 x3 x4 x5 x6 x7 x8 x9 x10 x11 x12 x13 x14) e hh k := fun k => by
    have hi : Read.idx_main_v45 (Read.idx_main_v46 (ix3 e hh u)) k = ix3 e hh k := by
      funext a; match a with | ⟨0, _⟩ => rfl | ⟨1, _⟩ => rfl | ⟨2, _⟩ => rfl
    rw [hi]
    exact v44_apply x0 x1 x2 x3 x4 x5 x6 x7 x8 x9 x10 x11 x12 x13 x14 e hh k
  rw [Finset.sum_congr rfl fun k _ => hs k]
  rfl

end Cert.ReferenceIdeal.RefValue

end
-- ==== Proof.Ref.Node.lean ====
/-
  The reference's node arithmetic read at an index, at the exact instance: an edge's weighted value (its source node's
  value row times the edge's weight in the head), the weighted values and the weights summed into the nodes the edges
  point at (an accumulating row scatter into zeros is, at each node, head and channel, the sum over the edges whose
  target word is the node), and the second result: the summed weighted values over the summed weights plus the small
  constant. The two results, whole, are the specification's.
-/
import proofs.«127344_j38285338476696_1_alg».proof.Proof.Ref.Edge
import proofs.«127344_j38285338476696_1_alg».proof.Proof.LibScatter3
import proofs.«127344_j38285338476696_1_alg».proof.Proof.LibRowGather

noncomputable section

open scoped BigOperators

namespace Cert.ReferenceIdeal.RefValue

open Cert.ReferenceIdeal Cert.ReferenceIdeal.Gen Idealize.ShloMosaic Idealize.ShloMosaic.ValueIdx Idealize.ShloMosaic.ScatterSum Idealize.SL.Sem

/-- The weighted value of an edge, in head hh and channel d: the source node's value row times the edge's weight. -/
theorem v57_apply (x0 : FVec Ideal S50000x128 .f32) (x1 x2 : FVec Ideal S800000x128 .f32) (x3 x4 : IVec S800000 32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) (e : Fin 800000) (hh : Fin 8) (d : Fin 16) :
    Cert.ReferenceIdeal.Read.val_main_v57 (F := Ideal) x0 x1 x2 x3 x4 x5 x6 x7 x8 x9 x10 x11 x12 x13 x14 (ix3 e hh d)
      = Cert.Spec.wv (mkArgs x0 x1 x2 x3 x4 x5 x6 x7 x8 x9 x10 x11 x12 x13 x14) e (Cert.Spec.col hh d) := by
  rw [Cert.ReferenceIdeal.Read.val_main_v57_apply, Ideal.mulf_def, Cert.ReferenceIdeal.Read.val_main_v56_apply]
  have hidx : Cert.ReferenceIdeal.Read.idx_main_v56 (ix3 e hh d) = ix3 e hh (0 : Fin 1) := by
    funext a; match a with | ⟨0, _⟩ => rfl | ⟨1, _⟩ => rfl | ⟨2, _⟩ => rfl
  rw [hidx, v48_apply x0 x1 x2 x3 x4 x5 x6 x7 x8 x9 x10 x11 x12 x13 x14 e hh 0]
  have hg : Cert.ReferenceIdeal.Read.val_main_v55 (F := Ideal) x0 x3 x9 x10 (ix3 e hh d)
      = Cert.Spec.lin x0 x9 x10 (Cert.Spec.rowIx (wrapCol x3) e) (Cert.Spec.col hh d) :=
    gathered_node_map x0 x9 x10 (wrapCol x3) e hh d
  rw [hg]
  simp only [Cert.Spec.wv, Cert.Spec.wvR, Cert.Spec.headOf_col, Cert.Spec.sc]
  rfl

/-- At the exact instance the accumulating scatter is the exact sum. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- The weighted values summed into their target nodes: at node n, head hh, channel d, the sum over the edges whose
    target word is n of the edge's weighted value. -/
theorem v60_apply (x0 : FVec Ideal S50000x128 .f32) (x1 x2 : FVec Ideal S800000x128 .f32) (x3 x4 : IVec S800000 32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) (n : Fin 50000) (hh : Fin 8) (d : Fin 16) :
    Cert.ReferenceIdeal.Read.val_main_v60 (F := Ideal) x0 x1 x2 x3 x4 x5 x6 x7 x8 x9 x10 x11 x12 x13 x14 (ix3 n hh d)
      = ∑ e : Fin 800000, if (plainCol x4 (ix2 e 0)).toInt = (n.val : Int) then Cert.Spec.wv (mkArgs x0 x1 x2 x3 x4 x5 x6 x7 x8 x9 x10 x11 x12 x13 x14) e (Cert.Spec.col hh d) else 0 := by
  unfold Cert.ReferenceIdeal.Read.val_main_v60
  rw [scatterAdd_ideal]
  refine (rowScatterAdd3_apply scatter_S50000x8x16_S800000x1_S800000x8x16_12_0_0_1 rfl rfl rfl rfl _ _ _ n hh d).trans ?_
  rw [Cert.ReferenceIdeal.Read.val_main_v58_apply, Cert.ReferenceIdeal.Read.val_main_cst_8_apply, Ideal.ofBits_def,
    Ideal.ofBits_zero_f32, zero_add]
  refine Finset.sum_congr rfl fun e _ => ?_
  rw [v57_apply]
  rfl

/-- The weights summed into their target nodes: at node n and head hh, the sum over the edges whose target word is n
    of the edge's weight. -/
theorem v63_apply (x0 : FVec Ideal S50000x128 .f32) (x1 x2 : FVec Ideal S800000x128 .f32) (x3 x4 : IVec S800000 32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) (n : Fin 50000) (hh : Fin 8) (u : Fin 1) :
    Cert.ReferenceIdeal.Read.val_main_v63 (F := Ideal) x0 x1 x2 x3 x4 x5 x6 x7 x8 x11 x12 x13 x14 (ix3 n hh u)
      = ∑ e : Fin 800000, if (plainCol x4 (ix2 e 0)).toInt = (n.val : Int) then Cert.Spec.sc (mkArgs x0 x1 x2 x3 x4 x5 x6 x7 x8 x9 x10 x11 x12 x13 x14) e hh else 0 := by
  unfold Cert.ReferenceIdeal.Read.val_main_v63
  rw [scatterAdd_ideal]
  refine (rowScatterAdd3_apply scatter_S50000x8x1_S800000x1_S800000x8x1_12_0_0_1 rfl rfl rfl rfl _ _ _ n hh u).trans ?_
  rw [Cert.ReferenceIdeal.Read.val_main_v61_apply, Cert.ReferenceIdeal.Read.val_main_cst_9_apply, Ideal.ofBits_def,
    Ideal.ofBits_zero_f32, zero_add]
  refine Finset.sum_congr rfl fun e _ => ?_
  rw [v48_apply x0 x1 x2 x3 x4 x5 x6 x7 x8 x9 x10 x11 x12 x13 x14 e hh u]
  rfl

/-- The second result at an index: the summed weighted values over the summed weights plus the small constant. -/
theorem v67_apply (x0 : FVec Ideal S50000x128 .f32) (x1 x2 : FVec Ideal S800000x128 .f32) (x3 x4 : IVec S800000 32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) (n : Fin 50000) (hh : Fin 8) (d : Fin 16) :
    Cert.ReferenceIdeal.Read.val_main_v67 (F := Ideal) x0 x1 x2 x3 x4 x5 x6 x7 x8 x9 x10 x11 x12 x13 x14 (ix3 n hh d)
      = Cert.Spec.hout (mkArgs x0 x1 x2 x3 x4 x5 x6 x7 x8 x9 x10 x11 x12 x13 x14) n hh d := by
  rw [Cert.ReferenceIdeal.Read.val_main_v67_apply, Ideal.hostDivf_def, Cert.ReferenceIdeal.Read.val_main_v66_apply]
  have hidx : Cert.ReferenceIdeal.Read.idx_main_v66 (ix3 n hh d) = ix3 n hh (0 : Fin 1) := by
    funext a; match a with | ⟨0, _⟩ => rfl | ⟨1, _⟩ => rfl | ⟨2, _⟩ => rfl
  rw [hidx, Cert.ReferenceIdeal.Read.val_main_v65_apply, Ideal.addf_def, v60_apply, v63_apply x0 x1 x2 x3 x4 x5 x6 x7 x8 x9 x10 x11 x12 x13 x14 n hh 0,
    Cert.ReferenceIdeal.Read.val_main_v64_apply, Cert.ReferenceIdeal.Read.val_main_cst_10_apply, Ideal.ofBits_def]
  unfold Cert.Spec.hout
  rfl

/-- The second result, whole. -/
theorem out0_eq (x0 : FVec Ideal S50000x128 .f32) (x1 x2 : FVec Ideal S800000x128 .f32) (x3 x4 : IVec S800000 32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) :
    Cert.ReferenceIdeal.Read.val_main_v67 (F := Ideal) x0 x1 x2 x3 x4 x5 x6 x7 x8 x9 x10 x11 x12 x13 x14
      = fun i => Cert.Spec.hout (mkArgs x0 x1 x2 x3 x4 x5 x6 x7 x8 x9 x10 x11 x12 x13 x14) (i 0) (i 1) (i 2) := by
  funext i
  obtain ⟨n, hh, d, rfl⟩ : ∃ n hh d, i = ix3 n hh d := ⟨i 0, i 1, i 2, eq_ix3 i⟩
  exact v67_apply x0 x1 x2 x3 x4 x5 x6 x7 x8 x9 x10 x11 x12 x13 x14 n hh d

/-- The first result, whole. -/
theorem out1_eq (x0 : FVec Ideal S50000x128 .f32) (x1 x2 : FVec Ideal S800000x128 .f32) (x3 x4 : IVec S800000 32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) :
    Cert.ReferenceIdeal.Read.val_main_v44 (F := Ideal) x0 x1 x2 x3 x4 x5 x6 x7 x8 x11 x12 x13 x14
      = fun i => Cert.Spec.eout (mkArgs x0 x1 x2 x3 x4 x5 x6 x7 x8 x9 x10 x11 x12 x13 x14) (i 0) (i 1) (i 2) := by
  funext i
  obtain ⟨e, hh, d, rfl⟩ : ∃ e hh d, i = ix3 e hh d := ⟨i 0, i 1, i 2, eq_ix3 i⟩
  exact v44_apply x0 x1 x2 x3 x4 x5 x6 x7 x8 x9 x10 x11 x12 x13 x14 e hh d

end Cert.ReferenceIdeal.RefValue

end
-- ==== Proof.Algebraic.lean ====
/-
  The algebraic conjunct assembled. At the exact instance the kernel program's run ends with its two results at the
  specification's second and first results (per node, head and channel the weighted values summed over the weights
  summed; per edge, head and channel the score) of its launch arguments, and the reference program's run ends with its
  two results at the same functions of its own launch arguments; both leave their arguments as launched. From memories
  that agree on the fifteen arguments the two argument records are one record, so the results are equal.
-/
import proofs.«127344_j38285338476696_1_alg».proof.Defs
import proofs.«127344_j38285338476696_1_alg».proof.Proof.KI.Run
import proofs.«127344_j38285338476696_1_alg».proof.Proof.KI.Cols
import proofs.«127344_j38285338476696_1_alg».proof.Proof.KI.Host2
import proofs.«127344_j38285338476696_1_alg».proof.Proof.Ref.Edge
import proofs.«127344_j38285338476696_1_alg».proof.Proof.Ref.Node
import proofs.«127344_j38285338476696_1_alg».proof.Proof.Gen.ReferenceIdeal.Run
import proofs.«127344_j38285338476696_1_alg».proof.Proof.Gen.ReferenceIdeal.Read
import proofs.«127344_j38285338476696_1_alg».proof.Proof.Gen.KernelIdeal
import proofs.«127344_j38285338476696_1_alg».proof.Proof.Gen.ReferenceIdeal
import proofs.«127344_j38285338476696_1_alg».proof.Proof.Gen.Pre_finite_inputs

noncomputable section

namespace Cert.Proof.Hand

open Idealize.ShloMosaic Idealize.ShloMosaic.TcCoe Idealize.SL.Sem

/-! ## The kernel program's run: both results at the specification of the launch arguments, the arguments as launched -/

section Kernel

open Cert.KernelIdeal Cert.KernelIdeal.Gen Cert.KernelIdeal.Hand

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41) = (fun i => Cert.Spec.hout (argsOf m c) (i 0) (i 1) (i 2))
      ∧ r.2.mem ((c.tc : Thread nD τ).loc main_v29) = (fun i => Cert.Spec.eout (argsOf m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have arg : ∀ (b : Ref sig .tc) (hs : ¬ (Proc.devRef .tc b : DevRef τ sig).isScoped)
        (h0 : b ∉ (hostOps0_W : List (Ref sig .tc))) (h1 : b ≠ main_v2) (h2 : b ∉ (hostOps1_W : List (Ref sig .tc)))
        (h3 : b ≠ main_v6_0) (h3' : b ≠ main_v6_1) (h4 : b ∉ (hostOps2_W : List (Ref sig .tc)))
        (h5 : b ≠ main_v28_0) (h5' : b ≠ main_v28_1) (h5'' : b ≠ main_v28_2) (h6 : b ∉ (hostOps3_W : List (Ref sig .tc))),
        r.2.mem ((c.tc : Thread nD τ).loc b) = m ((c.tc : Thread nD τ).loc b) :=
      fun b hs h0 h1 h2 h3 h3' h4 h5 h5' h5'' h6 =>
        (h c _ (mem_uc b hs)).trans (W7_launch m c b h0 h1 h2 h3 h3' h4 h5 h5' h5'' h6)
    ⟨(h c _ (mem_uc main_v41 (by decide))).trans (W7_v41 m c),
     (h c _ (mem_uc main_v29 (by decide))).trans (W7_v29 m c),
     arg main_arg0 (by decide) (by decide) (by decide) (by decide) (by decide) (by decide) (by decide) (by decide) (by decide) (by decide) (by decide),
     arg main_arg1 (by decide) (by decide) (by decide) (by decide) (by decide) (by decide) (by decide) (by decide) (by decide) (by decide) (by decide),
     arg main_arg2 (by decide) (by decide) (by decide) (by decide) (by decide) (by decide) (by decide) (by decide) (by decide) (by decide) (by decide),
     arg main_arg3 (by decide) (by decide) (by decide) (by decide) (by decide) (by decide) (by decide) (by decide) (by decide) (by decide) (by decide),
     arg main_arg4 (by decide) (by decide) (by decide) (by decide) (by decide) (by decide) (by decide) (by decide) (by decide) (by decide) (by decide),
     arg main_arg5 (by decide) (by decide) (by decide) (by decide) (by decide) (by decide) (by decide) (by decide) (by decide) (by decide) (by decide),
     arg main_arg6 (by decide) (by decide) (by decide) (by decide) (by decide) (by decide) (by decide) (by decide) (by decide) (by decide) (by decide),
     arg main_arg7 (by decide) (by decide) (by decide) (by decide) (by decide) (by decide) (by decide) (by decide) (by decide) (by decide) (by decide),
     arg main_arg8 (by decide) (by decide) (by decide) (by decide) (by decide) (by decide) (by decide) (by decide) (by decide) (by decide) (by decide),
     arg main_arg9 (by decide) (by decide) (by decide) (by decide) (by decide) (by decide) (by decide) (by decide) (by decide) (by decide) (by decide),
     arg main_arg10 (by decide) (by decide) (by decide) (by decide) (by decide) (by decide) (by decide) (by decide) (by decide) (by decide) (by decide),
     arg main_arg11 (by decide) (by decide) (by decide) (by decide) (by decide) (by decide) (by decide) (by decide) (by decide) (by decide) (by decide),
     arg main_arg12 (by decide) (by decide) (by decide) (by decide) (by decide) (by decide) (by decide) (by decide) (by decide) (by decide) (by decide),
     arg main_arg13 (by decide) (by decide) (by decide) (by decide) (by decide) (by decide) (by decide) (by decide) (by decide) (by decide) (by decide),
     arg main_arg14 (by decide) (by decide) (by decide) (by decide) (by decide) (by decide) (by decide) (by decide) (by decide) (by decide) (by decide)⟩)
    (run_all m ρ)

end Kernel

/-! ## The reference program's run: both results at the specification of any arguments record its launch arguments make -/

section Reference

open Cert.ReferenceIdeal Cert.ReferenceIdeal.Gen Cert.ReferenceIdeal.RefValue

theorem reference_run (m : (ℓ : Loc nD τ sig) → Buf (Elt Ideal) ℓ) (ρ : Dev nD → PrngReg) (a : Dev nD → Cert.Spec.Args)
    (ha : ∀ c : Dev nD, mkArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = a c) :
    θ_run (defs (F := Ideal)) (onTc (τ := τ) (main (F := Ideal))) ⟨m, fun _ => 0, ρ⟩ (fun r => ∀ c : Dev nD,
      r.2.mem ((c.tc : Thread nD τ).loc main_v67) = (fun i => Cert.Spec.hout (a c) (i 0) (i 1) (i 2))
      ∧ r.2.mem ((c.tc : Thread nD τ).loc main_v44) = (fun i => Cert.Spec.eout (a c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine (θ_run defs _ _).mono (fun r h c => ⟨(h c).1.trans ?_, (h c).2.1.trans ?_, (h c).2.2⟩)
    (Cert.ReferenceIdeal.Value.run (F := Ideal) m ρ)
  · rw [Read.val_main_v67_eq, out0_eq, ha c]; rfl
  · refine (Read.val_main_v44_eq _ _ _ _ _ _ _ _ _ _ _ _ _).trans ?_
    rw [out1_eq _ _ _ _ _ _ _ _ _ (m ((c.tc : Thread nD τ).loc main_arg9)) (m ((c.tc : Thread nD τ).loc main_arg10)), ha c]; rfl

end Reference

/-! ## The two runs end at one function of arguments that agree -/

theorem algebraic : Cert.algebraic_KernelIdeal_ReferenceIdeal := by
  intro m ρ m' ρ' _ hagree
  refine ⟨_, _, kernel_run m ρ, reference_run m' ρ' (fun c => Cert.KernelIdeal.Hand.argsOf m c) fun c => ?_⟩
  obtain ⟨h0, h1, h2, h3, h4, h5, h6, h7, h8, h9, h10, h11, h12, h13, h14⟩ := hagree c
  rw [h0, h1, h2, h3, h4, h5, h6, h7, h8, h9, h10, h11, h12, h13, h14]
  rfl

end Cert.Proof.Hand

end
-- ==== Proof.lean ====
/-
  The certificate's claims, assembled.

  Both kernel programs (the word-level one and its idealization: the same text read at two float instances) run through
  their three kernel regions and four stretches of host operations with every argument array left as launched (the frame
  modules, one text laid out for both). The reference is a straight line of host operations; its run leaves its arguments
  as launched. The idealization rewrote nothing, so there is nothing to preserve. And at the exact instance both programs
  end with the same two results, index by index: the edge scores and the per-node ratio of the weighted value sums to the
  weight sums, as the specification states them.
-/
import proofs.«127344_j38285338476696_1_alg».proof.Defs
import proofs.«127344_j38285338476696_1_alg».proof.Proof.Gen.Kernel
import proofs.«127344_j38285338476696_1_alg».proof.Proof.Gen.KernelIdeal
import proofs.«127344_j38285338476696_1_alg».proof.Proof.Gen.ReferenceIdeal
import proofs.«127344_j38285338476696_1_alg».proof.Proof.Gen.Pre_finite_inputs
import proofs.«127344_j38285338476696_1_alg».proof.Proof.Gen.ReferenceIdeal.Run
import proofs.«127344_j38285338476696_1_alg».proof.Proof.K.Run
import proofs.«127344_j38285338476696_1_alg».proof.Proof.KI.Run
import proofs.«127344_j38285338476696_1_alg».proof.Proof.Algebraic

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Hand.algebraic⟩

end Cert.Proof

end
